-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v217)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v217) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S50000 : Shape := ⟨1, ![50000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg21 : FVec F S1 .f32) (main_v83 : IVec S_ 1) (main_v84 : FVec F S128x1 .f32) (main_cst_32 : FVec F S_ .f32) : IVec S_ 1 :=
  let main_v85 : FVec F S128x1 .f32 := broadcastInDim S128x1 ![] bcast_S_S128x1 main_cst_32
  let main_v86 : IVec S128x1 1 := cmpf .olt main_v84 main_v85
  let main_c_33 : IVec S_ 1 := constantI S_ 1 1#1
  let main_v87 : IVec S_ 1 := (fun x v => Host.reduce IntOp.andi x v reducesTo_S128x1_S_d0_1 h_S_) main_v86 main_c_33
  let main_v88 : IVec S_ 1 := andi main_v83 main_v87
  let main_v89 : FVec F S1 .f32 := Host.absf main_arg21
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg17 : FVec F S128 .f32) (main_arg18 : FVec F S128x128 .f32) (main_arg19 : FVec F S128 .f32) (main_arg20 : FVec F S128x1 .f32) (main_arg21 : FVec F S1 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg18
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg19
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x1 .f32 := Host.absf main_arg20
  let main_cst_32 : FVec F S_ .f32 := constant S_ .f32 0x7F800000#32
  fn_part5 (F := F) main_arg21 main_v83 main_v84 main_cst_32

def fn_part3 {F : FTy → Type} [FloatOps F] (main_arg14 : FVec F S128x128 .f32) (main_arg15 : FVec F S128 .f32) (main_arg16 : FVec F S256x128 .f32) (main_arg17 : FVec F S128 .f32) (main_arg18 : FVec F S128x128 .f32) (main_arg19 : FVec F S128 .f32) (main_arg20 : FVec F S128x1 .f32) (main_arg21 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg14
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S256x128 .f32 := Host.absf main_arg16
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg17 main_arg18 main_arg19 main_arg20 main_arg21 main_v63 main_v67

def fn_part2 {F : FTy → Type} [FloatOps F] (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S256x128 .f32) (main_arg17 : FVec F S128 .f32) (main_arg18 : FVec F S128x128 .f32) (main_arg19 : FVec F S128 .f32) (main_arg20 : FVec F S128x1 .f32) (main_arg21 : FVec F S1 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_arg17 main_arg18 main_arg19 main_arg20 main_arg21 main_v48 main_v49 main_v50

def fn_part1 {F : FTy → Type} [FloatOps F] (main_arg7 : FVec F S128 .f32) (main_arg8 : FVec F S256x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S256x128 .f32) (main_arg17 : FVec F S128 .f32) (main_arg18 : FVec F S128x128 .f32) (main_arg19 : FVec F S128 .f32) (main_arg20 : FVec F S128x1 .f32) (main_arg21 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg8
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_v33

def fn {F : FTy → Type} [FloatOps F] (main_arg0 : FVec F S50000x128 .f32) (main_arg1 : IVec S2x640000 32) (main_arg2 : IVec S2x640000 32) (main_arg3 : IVec S50000 32) (main_arg4 : FVec F S128x128 .f32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S256x128 .f32) (main_arg17 : FVec F S128 .f32) (main_arg18 : FVec F S128x128 .f32) (main_arg19 : FVec F S128 .f32) (main_arg20 : FVec F S128x1 .f32) (main_arg21 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_v13 main_v16
-- ==== Kernel.lean ====
abbrev S50000x128 : Shape := ⟨2, ![50000, 128]⟩
abbrev S2x640000 : Shape := ⟨2, ![2, 640000]⟩
abbrev S50000 : Shape := ⟨1, ![50000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩
abbrev S5000x128 : Shape := ⟨2, ![5000, 128]⟩
abbrev S1x128 : Shape := ⟨2, ![1, 128]⟩
abbrev S1x640000 : Shape := ⟨2, ![1, 640000]⟩
abbrev S640000 : Shape := ⟨1, ![640000]⟩
abbrev S640000x1 : Shape := ⟨2, ![640000, 1]⟩
abbrev S640000x128 : Shape := ⟨2, ![640000, 128]⟩
abbrev S50000x1 : Shape := ⟨2, ![50000, 1]⟩
abbrev S50000x256 : Shape := ⟨2, ![50000, 256]⟩
abbrev S5000x256 : Shape := ⟨2, ![5000, 256]⟩
abbrev S5000x1 : Shape := ⟨2, ![5000, 1]⟩
abbrev S1x1 : Shape := ⟨2, ![1, 1]⟩

abbrev nBuf : Space → Nat
  | .hbm => 296
  | .vmem => 53
  | .smem => 0
  | _ => 0

abbrev hbmTy0_0 (i : Nat) : BufTy := match i % 128 with
  | 0 => ⟨S50000x128, .f32⟩
  | 1 => ⟨S2x640000, .i32⟩
  | 2 => ⟨S2x640000, .i32⟩
  | 3 => ⟨S50000, .i32⟩
  | 4 => ⟨S128x128, .f32⟩
  | 5 => ⟨S128, .f32⟩
  | 6 => ⟨S128x128, .f32⟩
  | 7 => ⟨S128, .f32⟩
  | 8 => ⟨S256x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S256x128, .f32⟩
  | 17 => ⟨S128, .f32⟩
  | 18 => ⟨S128x128, .f32⟩
  | 19 => ⟨S128, .f32⟩
  | 20 => ⟨S128x1, .f32⟩
  | 21 => ⟨S1, .f32⟩
  | 22 => ⟨S_, .f32⟩
  | 23 => ⟨S128, .f32⟩
  | 24 => ⟨S50000x128, .f32⟩
  | 25 => ⟨S1x640000, .i32⟩
  | 26 => ⟨S640000, .i32⟩
  | 27 => ⟨S1x640000, .i32⟩
  | 28 => ⟨S640000, .i32⟩
  | 29 => ⟨S_, .f32⟩
  | 30 => ⟨S640000, .f32⟩
  | 31 => ⟨S_, .f32⟩
  | 32 => ⟨S50000, .f32⟩
  | 33 => ⟨S640000x1, .i32⟩
  | 34 => ⟨S50000, .f32⟩
  | 35 => ⟨S_, .f32⟩
  | 36 => ⟨S50000, .f32⟩
  | 37 => ⟨S50000, .f32⟩
  | 38 => ⟨S_, .f32⟩
  | 39 => ⟨S50000, .f32⟩
  | 40 => ⟨S50000, .f32⟩
  | 41 => ⟨S_, .i32⟩
  | 42 => ⟨S640000, .i32⟩
  | 43 => ⟨S640000, .i1⟩
  | 44 => ⟨S_, .i32⟩
  | 45 => ⟨S640000, .i32⟩
  | 46 => ⟨S640000, .i32⟩
  | 47 => ⟨S640000, .i32⟩
  | 48 => ⟨S640000x1, .i32⟩
  | 49 => ⟨S640000, .f32⟩
  | 50 => ⟨S_, .i32⟩
  | 51 => ⟨S640000, .i32⟩
  | 52 => ⟨S640000, .i1⟩
  | 53 => ⟨S_, .i32⟩
  | 54 => ⟨S640000, .i32⟩
  | 55 => ⟨S640000, .i32⟩
  | 56 => ⟨S640000, .i32⟩
  | 57 => ⟨S640000x1, .i32⟩
  | 58 => ⟨S640000, .f32⟩
  | 59 => ⟨S640000, .f32⟩
  | 60 => ⟨S640000x1, .f32⟩
  | 61 => ⟨S_, .i32⟩
  | 62 => ⟨S640000, .i32⟩
  | 63 => ⟨S640000, .i1⟩
  | 64 => ⟨S_, .i32⟩
  | 65 => ⟨S640000, .i32⟩
  | 66 => ⟨S640000, .i32⟩
  | 67 => ⟨S640000, .i32⟩
  | 68 => ⟨S640000x1, .i32⟩
  | 69 => ⟨S640000x128, .f32⟩
  | 70 => ⟨S640000x128, .f32⟩
  | 71 => ⟨S640000x128, .f32⟩
  | 72 => ⟨S_, .f32⟩
  | 73 => ⟨S50000x128, .f32⟩
  | 74 => ⟨S640000x1, .i32⟩
  | 75 => ⟨S50000x128, .f32⟩
  | 76 => ⟨S50000, .f32⟩
  | 77 => ⟨S50000x1, .f32⟩
  | 78 => ⟨S50000x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S_, .f32⟩
  | 88 => ⟨S128, .f32⟩
  | 89 => ⟨S50000x128, .f32⟩
  | 90 => ⟨S1x640000, .i32⟩
  | 91 => ⟨S640000, .i32⟩
  | 92 => ⟨S1x640000, .i32⟩
  | 93 => ⟨S640000, .i32⟩
  | 94 => ⟨S_, .f32⟩
  | 95 => ⟨S640000, .f32⟩
  | 96 => ⟨S_, .f32⟩
  | 97 => ⟨S50000, .f32⟩
  | 98 => ⟨S640000x1, .i32⟩
  | 99 => ⟨S50000, .f32⟩
  | 100 => ⟨S_, .f32⟩
  | 101 => ⟨S50000, .f32⟩
  | 102 => ⟨S50000, .f32⟩
  | 103 => ⟨S_, .f32⟩
  | 104 => ⟨S50000, .f32⟩
  | 105 => ⟨S50000, .f32⟩
  | 106 => ⟨S_, .i32⟩
  | 107 => ⟨S640000, .i32⟩
  | 108 => ⟨S640000, .i1⟩
  | 109 => ⟨S_, .i32⟩
  | 110 => ⟨S640000, .i32⟩
  | 111 => ⟨S640000, .i32⟩
  | 112 => ⟨S640000, .i32⟩
  | 113 => ⟨S640000x1, .i32⟩
  | 114 => ⟨S640000, .f32⟩
  | 115 => ⟨S_, .i32⟩
  | 116 => ⟨S640000, .i32⟩
  | 117 => ⟨S640000, .i1⟩
  | 118 => ⟨S_, .i32⟩
  | 119 => ⟨S640000, .i32⟩
  | 120 => ⟨S640000, .i32⟩
  | 121 => ⟨S640000, .i32⟩
  | 122 => ⟨S640000x1, .i32⟩
  | 123 => ⟨S640000, .f32⟩
  | 124 => ⟨S640000, .f32⟩
  | 125 => ⟨S640000x1, .f32⟩
  | 126 => ⟨S_, .i32⟩
  | 127 => ⟨S640000, .i32⟩
  | _ => ⟨S50000x128, .f32⟩

abbrev hbmTy0_1 (i : Nat) : BufTy := match i % 128 with
  | 0 => ⟨S640000, .i1⟩
  | 1 => ⟨S_, .i32⟩
  | 2 => ⟨S640000, .i32⟩
  | 3 => ⟨S640000, .i32⟩
  | 4 => ⟨S640000, .i32⟩
  | 5 => ⟨S640000x1, .i32⟩
  | 6 => ⟨S640000x128, .f32⟩
  | 7 => ⟨S640000x128, .f32⟩
  | 8 => ⟨S640000x128, .f32⟩
  | 9 => ⟨S_, .f32⟩
  | 10 => ⟨S50000x128, .f32⟩
  | 11 => ⟨S640000x1, .i32⟩
  | 12 => ⟨S50000x128, .f32⟩
  | 13 => ⟨S50000, .f32⟩
  | 14 => ⟨S50000x1, .f32⟩
  | 15 => ⟨S50000x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S50000x256, .f32⟩
  | 25 => ⟨S50000x128, .f32⟩
  | 26 => ⟨S50000x128, .f32⟩
  | 27 => ⟨S_, .f32⟩
  | 28 => ⟨S128, .f32⟩
  | 29 => ⟨S50000x128, .f32⟩
  | 30 => ⟨S1x640000, .i32⟩
  | 31 => ⟨S640000, .i32⟩
  | 32 => ⟨S1x640000, .i32⟩
  | 33 => ⟨S640000, .i32⟩
  | 34 => ⟨S_, .f32⟩
  | 35 => ⟨S640000, .f32⟩
  | 36 => ⟨S_, .f32⟩
  | 37 => ⟨S50000, .f32⟩
  | 38 => ⟨S640000x1, .i32⟩
  | 39 => ⟨S50000, .f32⟩
  | 40 => ⟨S_, .f32⟩
  | 41 => ⟨S50000, .f32⟩
  | 42 => ⟨S50000, .f32⟩
  | 43 => ⟨S_, .f32⟩
  | 44 => ⟨S50000, .f32⟩
  | 45 => ⟨S50000, .f32⟩
  | 46 => ⟨S_, .i32⟩
  | 47 => ⟨S640000, .i32⟩
  | 48 => ⟨S640000, .i1⟩
  | 49 => ⟨S_, .i32⟩
  | 50 => ⟨S640000, .i32⟩
  | 51 => ⟨S640000, .i32⟩
  | 52 => ⟨S640000, .i32⟩
  | 53 => ⟨S640000x1, .i32⟩
  | 54 => ⟨S640000, .f32⟩
  | 55 => ⟨S_, .i32⟩
  | 56 => ⟨S640000, .i32⟩
  | 57 => ⟨S640000, .i1⟩
  | 58 => ⟨S_, .i32⟩
  | 59 => ⟨S640000, .i32⟩
  | 60 => ⟨S640000, .i32⟩
  | 61 => ⟨S640000, .i32⟩
  | 62 => ⟨S640000x1, .i32⟩
  | 63 => ⟨S640000, .f32⟩
  | 64 => ⟨S640000, .f32⟩
  | 65 => ⟨S640000x1, .f32⟩
  | 66 => ⟨S_, .i32⟩
  | 67 => ⟨S640000, .i32⟩
  | 68 => ⟨S640000, .i1⟩
  | 69 => ⟨S_, .i32⟩
  | 70 => ⟨S640000, .i32⟩
  | 71 => ⟨S640000, .i32⟩
  | 72 => ⟨S640000, .i32⟩
  | 73 => ⟨S640000x1, .i32⟩
  | 74 => ⟨S640000x128, .f32⟩
  | 75 => ⟨S640000x128, .f32⟩
  | 76 => ⟨S640000x128, .f32⟩
  | 77 => ⟨S_, .f32⟩
  | 78 => ⟨S50000x128, .f32⟩
  | 79 => ⟨S640000x1, .i32⟩
  | 80 => ⟨S50000x128, .f32⟩
  | 81 => ⟨S50000, .f32⟩
  | 82 => ⟨S50000x1, .f32⟩
  | 83 => ⟨S50000x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S_, .f32⟩
  | 93 => ⟨S128, .f32⟩
  | 94 => ⟨S50000x128, .f32⟩
  | 95 => ⟨S1x640000, .i32⟩
  | 96 => ⟨S640000, .i32⟩
  | 97 => ⟨S1x640000, .i32⟩
  | 98 => ⟨S640000, .i32⟩
  | 99 => ⟨S_, .f32⟩
  | 100 => ⟨S640000, .f32⟩
  | 101 => ⟨S_, .f32⟩
  | 102 => ⟨S50000, .f32⟩
  | 103 => ⟨S640000x1, .i32⟩
  | 104 => ⟨S50000, .f32⟩
  | 105 => ⟨S_, .f32⟩
  | 106 => ⟨S50000, .f32⟩
  | 107 => ⟨S50000, .f32⟩
  | 108 => ⟨S_, .f32⟩
  | 109 => ⟨S50000, .f32⟩
  | 110 => ⟨S50000, .f32⟩
  | 111 => ⟨S_, .i32⟩
  | 112 => ⟨S640000, .i32⟩
  | 113 => ⟨S640000, .i1⟩
  | 114 => ⟨S_, .i32⟩
  | 115 => ⟨S640000, .i32⟩
  | 116 => ⟨S640000, .i32⟩
  | 117 => ⟨S640000, .i32⟩
  | 118 => ⟨S640000x1, .i32⟩
  | 119 => ⟨S640000, .f32⟩
  | 120 => ⟨S_, .i32⟩
  | 121 => ⟨S640000, .i32⟩
  | 122 => ⟨S640000, .i1⟩
  | 123 => ⟨S_, .i32⟩
  | 124 => ⟨S640000, .i32⟩
  | 125 => ⟨S640000, .i32⟩
  | 126 => ⟨S640000, .i32⟩
  | 127 => ⟨S640000x1, .i32⟩
  | _ => ⟨S50000x128, .f32⟩

abbrev hbmTy0_2 (i : Nat) : BufTy := match i % 128 with
  | 0 => ⟨S640000, .f32⟩
  | 1 => ⟨S640000, .f32⟩
  | 2 => ⟨S640000x1, .f32⟩
  | 3 => ⟨S_, .i32⟩
  | 4 => ⟨S640000, .i32⟩
  | 5 => ⟨S640000, .i1⟩
  | 6 => ⟨S_, .i32⟩
  | 7 => ⟨S640000, .i32⟩
  | 8 => ⟨S640000, .i32⟩
  | 9 => ⟨S640000, .i32⟩
  | 10 => ⟨S640000x1, .i32⟩
  | 11 => ⟨S640000x128, .f32⟩
  | 12 => ⟨S640000x128, .f32⟩
  | 13 => ⟨S640000x128, .f32⟩
  | 14 => ⟨S_, .f32⟩
  | 15 => ⟨S50000x128, .f32⟩
  | 16 => ⟨S640000x1, .i32⟩
  | 17 => ⟨S50000x128, .f32⟩
  | 18 => ⟨S50000, .f32⟩
  | 19 => ⟨S50000x1, .f32⟩
  | 20 => ⟨S50000x128, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S50000x256, .f32⟩
  | 30 => ⟨S50000x128, .f32⟩
  | 31 => ⟨S50000x128, .f32⟩
  | 32 => ⟨S50000x1, .i32⟩
  | 33 => ⟨S128x128, .f32⟩
  | 34 => ⟨S128x128, .f32⟩
  | 35 => ⟨S128x1, .f32⟩
  | 36 => ⟨S1x1, .f32⟩
  | 37 => ⟨S128x1, .f32⟩
  | 38 => ⟨S128x1, .f32⟩
  | 39 => ⟨S128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x256, .f32⟩
  | .local _ .vmem, ⟨13, _⟩ => ⟨S5000x256, .f32⟩
  | .local _ .vmem, ⟨14, _⟩ => ⟨S256x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S128, .f32⟩
  | .local _ .vmem, ⟨34, _⟩ => ⟨S5000x128, .f32⟩
  | .local _ .vmem, ⟨35, _⟩ => ⟨S5000x128, .f32⟩
  | .local _ .vmem, ⟨36, _⟩ => ⟨S5000x256, .f32⟩
  | .local _ .vmem, ⟨37, _⟩ => ⟨S5000x256, .f32⟩
  | .local _ .vmem, ⟨38, _⟩ => ⟨S256x128, .f32⟩
  | .local _ .vmem, ⟨39, _⟩ => ⟨S128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S128, .f32⟩
  | .local _ .vmem, ⟨46, _⟩ => ⟨S5000x128, .f32⟩
  | .local _ .vmem, ⟨47, _⟩ => ⟨S5000x128, .f32⟩
  | .local _ .vmem, ⟨48, _⟩ => ⟨S5000x1, .i32⟩
  | .local _ .vmem, ⟨49, _⟩ => ⟨S5000x1, .i32⟩
  | .local _ .vmem, ⟨50, _⟩ => ⟨S5000x128, .f32⟩
  | .local _ .vmem, ⟨51, _⟩ => ⟨S5000x128, .f32⟩
  | .local _ .vmem, ⟨52, _⟩ => ⟨S128x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst_0 : Ref sig .tc := ⟨.hbm, 29, rfl⟩
abbrev main_v6 : Ref sig .tc := ⟨.hbm, 30, rfl⟩
abbrev main_cst_1 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_cst_3 : Ref sig .tc := ⟨.hbm, 38, rfl⟩
abbrev main_v12 : Ref sig .tc := ⟨.hbm, 39, rfl⟩
abbrev main_v13 : Ref sig .tc := ⟨.hbm, 40, rfl⟩
abbrev main_c : Ref sig .tc := ⟨.hbm, 41, rfl⟩
abbrev main_v14 : Ref sig .tc := ⟨.hbm, 42, rfl⟩
abbrev main_v15 : Ref sig .tc := ⟨.hbm, 43, rfl⟩
abbrev main_c_4 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_5 : Ref sig .tc := ⟨.hbm, 50, rfl⟩
abbrev main_v21 : Ref sig .tc := ⟨.hbm, 51, rfl⟩
abbrev main_v22 : Ref sig .tc := ⟨.hbm, 52, rfl⟩
abbrev main_c_6 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_7 : Ref sig .tc := ⟨.hbm, 61, rfl⟩
abbrev main_v30 : Ref sig .tc := ⟨.hbm, 62, rfl⟩
abbrev main_v31 : Ref sig .tc := ⟨.hbm, 63, rfl⟩
abbrev main_c_8 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_9 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_call0_cst : Ref sig .tc := ⟨.hbm, 84, rfl⟩
abbrev main_call0_v0 : Ref sig .tc := ⟨.hbm, 85, rfl⟩
abbrev main_v50 : Ref sig .tc := ⟨.hbm, 86, rfl⟩
abbrev main_cst_10 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_11 : Ref sig .tc := ⟨.hbm, 94, rfl⟩
abbrev main_v57 : Ref sig .tc := ⟨.hbm, 95, rfl⟩
abbrev main_cst_12 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_13 : Ref sig .tc := ⟨.hbm, 100, rfl⟩
abbrev main_v61 : Ref sig .tc := ⟨.hbm, 101, rfl⟩
abbrev main_v62 : Ref sig .tc := ⟨.hbm, 102, rfl⟩
abbrev main_cst_14 : Ref sig .tc := ⟨.hbm, 103, rfl⟩
abbrev main_v63 : Ref sig .tc := ⟨.hbm, 104, rfl⟩
abbrev main_v64 : Ref sig .tc := ⟨.hbm, 105, rfl⟩
abbrev main_c_15 : Ref sig .tc := ⟨.hbm, 106, rfl⟩
abbrev main_v65 : Ref sig .tc := ⟨.hbm, 107, rfl⟩
abbrev main_v66 : Ref sig .tc := ⟨.hbm, 108, rfl⟩
abbrev main_c_16 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_c_17 : Ref sig .tc := ⟨.hbm, 115, rfl⟩
abbrev main_v72 : Ref sig .tc := ⟨.hbm, 116, rfl⟩
abbrev main_v73 : Ref sig .tc := ⟨.hbm, 117, rfl⟩
abbrev main_c_18 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_c_19 : Ref sig .tc := ⟨.hbm, 126, rfl⟩
abbrev main_v81 : Ref sig .tc := ⟨.hbm, 127, rfl⟩
abbrev main_v82 : Ref sig .tc := ⟨.hbm, 128, rfl⟩
abbrev main_c_20 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst_21 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_call1_cst : Ref sig .tc := ⟨.hbm, 149, rfl⟩
abbrev main_call1_v0 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_cst_22 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_23 : Ref sig .tc := ⟨.hbm, 162, rfl⟩
abbrev main_v111 : Ref sig .tc := ⟨.hbm, 163, rfl⟩
abbrev main_cst_24 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_cst_25 : Ref sig .tc := ⟨.hbm, 168, rfl⟩
abbrev main_v115 : Ref sig .tc := ⟨.hbm, 169, rfl⟩
abbrev main_v116 : Ref sig .tc := ⟨.hbm, 170, rfl⟩
abbrev main_cst_26 : Ref sig .tc := ⟨.hbm, 171, rfl⟩
abbrev main_v117 : Ref sig .tc := ⟨.hbm, 172, rfl⟩
abbrev main_v118 : Ref sig .tc := ⟨.hbm, 173, rfl⟩
abbrev main_c_27 : Ref sig .tc := ⟨.hbm, 174, rfl⟩
abbrev main_v119 : Ref sig .tc := ⟨.hbm, 175, rfl⟩
abbrev main_v120 : Ref sig .tc := ⟨.hbm, 176, rfl⟩
abbrev main_c_28 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_c_29 : Ref sig .tc := ⟨.hbm, 183, rfl⟩
abbrev main_v126 : Ref sig .tc := ⟨.hbm, 184, rfl⟩
abbrev main_v127 : Ref sig .tc := ⟨.hbm, 185, rfl⟩
abbrev main_c_30 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_c_31 : Ref sig .tc := ⟨.hbm, 194, rfl⟩
abbrev main_v135 : Ref sig .tc := ⟨.hbm, 195, rfl⟩
abbrev main_v136 : Ref sig .tc := ⟨.hbm, 196, rfl⟩
abbrev main_c_32 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_cst_33 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_call2_cst : Ref sig .tc := ⟨.hbm, 217, rfl⟩
abbrev main_call2_v0 : Ref sig .tc := ⟨.hbm, 218, rfl⟩
abbrev main_v155 : Ref sig .tc := ⟨.hbm, 219, rfl⟩
abbrev main_cst_34 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_cst_35 : Ref sig .tc := ⟨.hbm, 227, rfl⟩
abbrev main_v162 : Ref sig .tc := ⟨.hbm, 228, rfl⟩
abbrev main_cst_36 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_cst_37 : Ref sig .tc := ⟨.hbm, 233, rfl⟩
abbrev main_v166 : Ref sig .tc := ⟨.hbm, 234, rfl⟩
abbrev main_v167 : Ref sig .tc := ⟨.hbm, 235, rfl⟩
abbrev main_cst_38 : Ref sig .tc := ⟨.hbm, 236, rfl⟩
abbrev main_v168 : Ref sig .tc := ⟨.hbm, 237, rfl⟩
abbrev main_v169 : Ref sig .tc := ⟨.hbm, 238, rfl⟩
abbrev main_c_39 : Ref sig .tc := ⟨.hbm, 239, rfl⟩
abbrev main_v170 : Ref sig .tc := ⟨.hbm, 240, rfl⟩
abbrev main_v171 : Ref sig .tc := ⟨.hbm, 241, rfl⟩
abbrev main_c_40 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_c_41 : Ref sig .tc := ⟨.hbm, 248, rfl⟩
abbrev main_v177 : Ref sig .tc := ⟨.hbm, 249, rfl⟩
abbrev main_v178 : Ref sig .tc := ⟨.hbm, 250, rfl⟩
abbrev main_c_42 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_c_43 : Ref sig .tc := ⟨.hbm, 259, rfl⟩
abbrev main_v186 : Ref sig .tc := ⟨.hbm, 260, rfl⟩
abbrev main_v187 : Ref sig .tc := ⟨.hbm, 261, rfl⟩
abbrev main_c_44 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_cst_45 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_call3_cst : Ref sig .tc := ⟨.hbm, 282, rfl⟩
abbrev main_call3_v0 : Ref sig .tc := ⟨.hbm, 283, rfl⟩
abbrev main_v206 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_v217 : Ref sig .tc := ⟨.hbm, 295, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg1_1 : Ref sig .tc := ⟨.vmem, 51, rfl⟩
abbrev cc8_stg2_0 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x1 .i32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

class Facts₀ : Prop where
  bcast_S_S128 : S_.BroadcastsInDim S128 (![] : Fin 0 → Fin S128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S5000x128_S5000x128 : S5000x128.ShapeCasts S5000x128
  shapeCasts_S50000_S50000x1 : S50000.ShapeCasts S50000x1
  iota_S5000x128_d1_w32 : S5000x128.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  natLt_1_32 : 1 < 32
  shapeCasts_S128x128_S128x128 : S128x128.ShapeCasts S128x128
  transposes_S128x128_S128x128_1_0 : S128x128.Transposes [1, 0] S128x128
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  dot_S5000x128_S128x128_S5000x128_1_0_0_1_n_n_wf : DotDims.WF S5000x128 S128x128 S5000x128 [1] [0] [0] [1] [] []
  scatter_S50000_S640000x1_S640000_n_0_0_1_wf : ScatterDims.WF S50000 S640000x1 S640000 [] [0] [0] 1
  gather_S50000_S640000x1_S640000_n_0_n_n_0_1_1_wf : GatherDims.WF S50000 S640000x1 S640000 [] [0] [] [0] [] 1 ![1]
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x256_S256x128_S5000x128_1_0_0_1_n_n_wf : DotDims.WF S5000x256 S256x128 S5000x128 [1] [0] [0] [1] [] []
  dot_S5000x128_S5000x128_S128x128_0_0_1_1_n_n_wf : DotDims.WF S5000x128 S5000x128 S128x128 [0] [0] [1] [1] [] []
  dot_S128x128_S128x1_S128x1_1_0_0_1_n_n_wf : DotDims.WF S128x128 S128x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x256.size a ≤ S50000x256.size a
  hwx6_0 : ∀ i : grid6.Coords, EltTy.bits .f32 = 32 ∨ (Rect.block (s := S50000x256) S5000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x128.size a ≤ S256x128.size a
  hwx6_1 : ∀ i : grid6.Coords, EltTy.bits .f32 = 32 ∨ (Rect.block (s := S256x128) S256x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128.size a ≤ S128.size a
  hwx7_2 : ∀ i : grid7.Coords, EltTy.bits .f32 = 32 ∨ (Rect.block (s := S128) S128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S50000x128.size a
  hwx7_3 : ∀ i : grid7.Coords, EltTy.bits .f32 = 32 ∨ (Rect.block (s := S50000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x1.size a ≤ S50000x1.size a
  hwx8_0 : ∀ i : grid8.Coords, EltTy.bits .i32 = 32 ∨ (Rect.block (s := S50000x1) S5000x1.size (cc8_transform_0 i) (hinb8_0 i)).WholeWords (EltTy.packing .i32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v102) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v103) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v103) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v104) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v104) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v105) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v106) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v104) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg14) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v156) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v157) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v207) S5000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg16) S256x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg17) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v208) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v208) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg18) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg19) S128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v209) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v210) S5000x1.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v209) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v211) S128x128.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S50000 : Shape := ⟨1, ![50000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000x1 : Shape := ⟨2, ![50000, 1]⟩
abbrev S1x128 : Shape := ⟨2, ![1, 128]⟩
abbrev S50000x256 : Shape := ⟨2, ![50000, 256]⟩
abbrev S1x1 : Shape := ⟨2, ![1, 1]⟩

abbrev nBuf : Space → Nat
  | .hbm => 307
  | .vmem => 0
  | .smem => 0
  | _ => 0

abbrev hbmTy0_0 (i : Nat) : BufTy := match i % 128 with
  | 0 => ⟨S50000x128, .f32⟩
  | 1 => ⟨S2x640000, .i32⟩
  | 2 => ⟨S2x640000, .i32⟩
  | 3 => ⟨S50000, .i32⟩
  | 4 => ⟨S128x128, .f32⟩
  | 5 => ⟨S128, .f32⟩
  | 6 => ⟨S128x128, .f32⟩
  | 7 => ⟨S128, .f32⟩
  | 8 => ⟨S256x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S256x128, .f32⟩
  | 17 => ⟨S128, .f32⟩
  | 18 => ⟨S128x128, .f32⟩
  | 19 => ⟨S128, .f32⟩
  | 20 => ⟨S128x1, .f32⟩
  | 21 => ⟨S1, .f32⟩
  | 22 => ⟨S50000x128, .f32⟩
  | 23 => ⟨S1x640000, .i32⟩
  | 24 => ⟨S640000, .i32⟩
  | 25 => ⟨S1x640000, .i32⟩
  | 26 => ⟨S640000, .i32⟩
  | 27 => ⟨S_, .f32⟩
  | 28 => ⟨S640000, .f32⟩
  | 29 => ⟨S_, .f32⟩
  | 30 => ⟨S50000, .f32⟩
  | 31 => ⟨S640000x1, .i32⟩
  | 32 => ⟨S50000, .f32⟩
  | 33 => ⟨S_, .f32⟩
  | 34 => ⟨S50000, .f32⟩
  | 35 => ⟨S50000, .f32⟩
  | 36 => ⟨S_, .f32⟩
  | 37 => ⟨S50000, .f32⟩
  | 38 => ⟨S50000, .f32⟩
  | 39 => ⟨S_, .i32⟩
  | 40 => ⟨S640000, .i32⟩
  | 41 => ⟨S640000, .i1⟩
  | 42 => ⟨S_, .i32⟩
  | 43 => ⟨S640000, .i32⟩
  | 44 => ⟨S640000, .i32⟩
  | 45 => ⟨S640000, .i32⟩
  | 46 => ⟨S640000x1, .i32⟩
  | 47 => ⟨S640000, .f32⟩
  | 48 => ⟨S_, .i32⟩
  | 49 => ⟨S640000, .i32⟩
  | 50 => ⟨S640000, .i1⟩
  | 51 => ⟨S_, .i32⟩
  | 52 => ⟨S640000, .i32⟩
  | 53 => ⟨S640000, .i32⟩
  | 54 => ⟨S640000, .i32⟩
  | 55 => ⟨S640000x1, .i32⟩
  | 56 => ⟨S640000, .f32⟩
  | 57 => ⟨S640000, .f32⟩
  | 58 => ⟨S640000x1, .f32⟩
  | 59 => ⟨S_, .i32⟩
  | 60 => ⟨S640000, .i32⟩
  | 61 => ⟨S640000, .i1⟩
  | 62 => ⟨S_, .i32⟩
  | 63 => ⟨S640000, .i32⟩
  | 64 => ⟨S640000, .i32⟩
  | 65 => ⟨S640000, .i32⟩
  | 66 => ⟨S640000x1, .i32⟩
  | 67 => ⟨S640000x128, .f32⟩
  | 68 => ⟨S640000x128, .f32⟩
  | 69 => ⟨S640000x128, .f32⟩
  | 70 => ⟨S_, .f32⟩
  | 71 => ⟨S50000x128, .f32⟩
  | 72 => ⟨S640000x1, .i32⟩
  | 73 => ⟨S50000x128, .f32⟩
  | 74 => ⟨S50000, .f32⟩
  | 75 => ⟨S50000x1, .f32⟩
  | 76 => ⟨S50000x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S50000x128, .f32⟩
  | 86 => ⟨S1x640000, .i32⟩
  | 87 => ⟨S640000, .i32⟩
  | 88 => ⟨S1x640000, .i32⟩
  | 89 => ⟨S640000, .i32⟩
  | 90 => ⟨S_, .f32⟩
  | 91 => ⟨S640000, .f32⟩
  | 92 => ⟨S_, .f32⟩
  | 93 => ⟨S50000, .f32⟩
  | 94 => ⟨S640000x1, .i32⟩
  | 95 => ⟨S50000, .f32⟩
  | 96 => ⟨S_, .f32⟩
  | 97 => ⟨S50000, .f32⟩
  | 98 => ⟨S50000, .f32⟩
  | 99 => ⟨S_, .f32⟩
  | 100 => ⟨S50000, .f32⟩
  | 101 => ⟨S50000, .f32⟩
  | 102 => ⟨S_, .i32⟩
  | 103 => ⟨S640000, .i32⟩
  | 104 => ⟨S640000, .i1⟩
  | 105 => ⟨S_, .i32⟩
  | 106 => ⟨S640000, .i32⟩
  | 107 => ⟨S640000, .i32⟩
  | 108 => ⟨S640000, .i32⟩
  | 109 => ⟨S640000x1, .i32⟩
  | 110 => ⟨S640000, .f32⟩
  | 111 => ⟨S_, .i32⟩
  | 112 => ⟨S640000, .i32⟩
  | 113 => ⟨S640000, .i1⟩
  | 114 => ⟨S_, .i32⟩
  | 115 => ⟨S640000, .i32⟩
  | 116 => ⟨S640000, .i32⟩
  | 117 => ⟨S640000, .i32⟩
  | 118 => ⟨S640000x1, .i32⟩
  | 119 => ⟨S640000, .f32⟩
  | 120 => ⟨S640000, .f32⟩
  | 121 => ⟨S640000x1, .f32⟩
  | 122 => ⟨S_, .i32⟩
  | 123 => ⟨S640000, .i32⟩
  | 124 => ⟨S640000, .i1⟩
  | 125 => ⟨S_, .i32⟩
  | 126 => ⟨S640000, .i32⟩
  | 127 => ⟨S640000, .i32⟩
  | _ => ⟨S50000x128, .f32⟩

abbrev hbmTy0_1 (i : Nat) : BufTy := match i % 128 with
  | 0 => ⟨S640000, .i32⟩
  | 1 => ⟨S640000x1, .i32⟩
  | 2 => ⟨S640000x128, .f32⟩
  | 3 => ⟨S640000x128, .f32⟩
  | 4 => ⟨S640000x128, .f32⟩
  | 5 => ⟨S_, .f32⟩
  | 6 => ⟨S50000x128, .f32⟩
  | 7 => ⟨S640000x1, .i32⟩
  | 8 => ⟨S50000x128, .f32⟩
  | 9 => ⟨S50000, .f32⟩
  | 10 => ⟨S50000x1, .f32⟩
  | 11 => ⟨S50000x128, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S50000x256, .f32⟩
  | 21 => ⟨S50000x128, .f32⟩
  | 22 => ⟨S1x128, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S50000x128, .f32⟩
  | 29 => ⟨S1x128, .f32⟩
  | 30 => ⟨S50000x128, .f32⟩
  | 31 => ⟨S50000x128, .f32⟩
  | 32 => ⟨S50000x128, .f32⟩
  | 33 => ⟨S1x640000, .i32⟩
  | 34 => ⟨S640000, .i32⟩
  | 35 => ⟨S1x640000, .i32⟩
  | 36 => ⟨S640000, .i32⟩
  | 37 => ⟨S_, .f32⟩
  | 38 => ⟨S640000, .f32⟩
  | 39 => ⟨S_, .f32⟩
  | 40 => ⟨S50000, .f32⟩
  | 41 => ⟨S640000x1, .i32⟩
  | 42 => ⟨S50000, .f32⟩
  | 43 => ⟨S_, .f32⟩
  | 44 => ⟨S50000, .f32⟩
  | 45 => ⟨S50000, .f32⟩
  | 46 => ⟨S_, .f32⟩
  | 47 => ⟨S50000, .f32⟩
  | 48 => ⟨S50000, .f32⟩
  | 49 => ⟨S_, .i32⟩
  | 50 => ⟨S640000, .i32⟩
  | 51 => ⟨S640000, .i1⟩
  | 52 => ⟨S_, .i32⟩
  | 53 => ⟨S640000, .i32⟩
  | 54 => ⟨S640000, .i32⟩
  | 55 => ⟨S640000, .i32⟩
  | 56 => ⟨S640000x1, .i32⟩
  | 57 => ⟨S640000, .f32⟩
  | 58 => ⟨S_, .i32⟩
  | 59 => ⟨S640000, .i32⟩
  | 60 => ⟨S640000, .i1⟩
  | 61 => ⟨S_, .i32⟩
  | 62 => ⟨S640000, .i32⟩
  | 63 => ⟨S640000, .i32⟩
  | 64 => ⟨S640000, .i32⟩
  | 65 => ⟨S640000x1, .i32⟩
  | 66 => ⟨S640000, .f32⟩
  | 67 => ⟨S640000, .f32⟩
  | 68 => ⟨S640000x1, .f32⟩
  | 69 => ⟨S_, .i32⟩
  | 70 => ⟨S640000, .i32⟩
  | 71 => ⟨S640000, .i1⟩
  | 72 => ⟨S_, .i32⟩
  | 73 => ⟨S640000, .i32⟩
  | 74 => ⟨S640000, .i32⟩
  | 75 => ⟨S640000, .i32⟩
  | 76 => ⟨S640000x1, .i32⟩
  | 77 => ⟨S640000x128, .f32⟩
  | 78 => ⟨S640000x128, .f32⟩
  | 79 => ⟨S640000x128, .f32⟩
  | 80 => ⟨S_, .f32⟩
  | 81 => ⟨S50000x128, .f32⟩
  | 82 => ⟨S640000x1, .i32⟩
  | 83 => ⟨S50000x128, .f32⟩
  | 84 => ⟨S50000, .f32⟩
  | 85 => ⟨S50000x1, .f32⟩
  | 86 => ⟨S50000x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S50000x128, .f32⟩
  | 96 => ⟨S1x640000, .i32⟩
  | 97 => ⟨S640000, .i32⟩
  | 98 => ⟨S1x640000, .i32⟩
  | 99 => ⟨S640000, .i32⟩
  | 100 => ⟨S_, .f32⟩
  | 101 => ⟨S640000, .f32⟩
  | 102 => ⟨S_, .f32⟩
  | 103 => ⟨S50000, .f32⟩
  | 104 => ⟨S640000x1, .i32⟩
  | 105 => ⟨S50000, .f32⟩
  | 106 => ⟨S_, .f32⟩
  | 107 => ⟨S50000, .f32⟩
  | 108 => ⟨S50000, .f32⟩
  | 109 => ⟨S_, .f32⟩
  | 110 => ⟨S50000, .f32⟩
  | 111 => ⟨S50000, .f32⟩
  | 112 => ⟨S_, .i32⟩
  | 113 => ⟨S640000, .i32⟩
  | 114 => ⟨S640000, .i1⟩
  | 115 => ⟨S_, .i32⟩
  | 116 => ⟨S640000, .i32⟩
  | 117 => ⟨S640000, .i32⟩
  | 118 => ⟨S640000, .i32⟩
  | 119 => ⟨S640000x1, .i32⟩
  | 120 => ⟨S640000, .f32⟩
  | 121 => ⟨S_, .i32⟩
  | 122 => ⟨S640000, .i32⟩
  | 123 => ⟨S640000, .i1⟩
  | 124 => ⟨S_, .i32⟩
  | 125 => ⟨S640000, .i32⟩
  | 126 => ⟨S640000, .i32⟩
  | 127 => ⟨S640000, .i32⟩
  | _ => ⟨S50000x128, .f32⟩

abbrev hbmTy0_2 (i : Nat) : BufTy := match i % 128 with
  | 0 => ⟨S640000x1, .i32⟩
  | 1 => ⟨S640000, .f32⟩
  | 2 => ⟨S640000, .f32⟩
  | 3 => ⟨S640000x1, .f32⟩
  | 4 => ⟨S_, .i32⟩
  | 5 => ⟨S640000, .i32⟩
  | 6 => ⟨S640000, .i1⟩
  | 7 => ⟨S_, .i32⟩
  | 8 => ⟨S640000, .i32⟩
  | 9 => ⟨S640000, .i32⟩
  | 10 => ⟨S640000, .i32⟩
  | 11 => ⟨S640000x1, .i32⟩
  | 12 => ⟨S640000x128, .f32⟩
  | 13 => ⟨S640000x128, .f32⟩
  | 14 => ⟨S640000x128, .f32⟩
  | 15 => ⟨S_, .f32⟩
  | 16 => ⟨S50000x128, .f32⟩
  | 17 => ⟨S640000x1, .i32⟩
  | 18 => ⟨S50000x128, .f32⟩
  | 19 => ⟨S50000, .f32⟩
  | 20 => ⟨S50000x1, .f32⟩
  | 21 => ⟨S50000x128, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S50000x256, .f32⟩
  | 31 => ⟨S50000x128, .f32⟩
  | 32 => ⟨S1x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S_, .f32⟩
  | 43 => ⟨S128x128, .f32⟩
  | 44 => ⟨S50000x1, .i32⟩
  | 45 => ⟨S128x128, .f32⟩
  | 46 => ⟨S128x1, .f32⟩
  | 47 => ⟨S1x1, .f32⟩
  | 48 => ⟨S128x1, .f32⟩
  | 49 => ⟨S128x1, .f32⟩
  | 50 => ⟨S128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst : Ref sig .tc := ⟨.hbm, 27, rfl⟩
abbrev main_v5 : Ref sig .tc := ⟨.hbm, 28, rfl⟩
abbrev main_cst_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst_1 : Ref sig .tc := ⟨.hbm, 33, rfl⟩
abbrev main_v9 : Ref sig .tc := ⟨.hbm, 34, rfl⟩
abbrev main_v10 : Ref sig .tc := ⟨.hbm, 35, rfl⟩
abbrev main_cst_2 : Ref sig .tc := ⟨.hbm, 36, rfl⟩
abbrev main_v11 : Ref sig .tc := ⟨.hbm, 37, rfl⟩
abbrev main_v12 : Ref sig .tc := ⟨.hbm, 38, rfl⟩
abbrev main_c : Ref sig .tc := ⟨.hbm, 39, rfl⟩
abbrev main_v13 : Ref sig .tc := ⟨.hbm, 40, rfl⟩
abbrev main_v14 : Ref sig .tc := ⟨.hbm, 41, rfl⟩
abbrev main_c_3 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_v21 : Ref sig .tc := ⟨.hbm, 50, rfl⟩
abbrev main_c_5 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c_6 : Ref sig .tc := ⟨.hbm, 59, rfl⟩
abbrev main_v29 : Ref sig .tc := ⟨.hbm, 60, rfl⟩
abbrev main_v30 : Ref sig .tc := ⟨.hbm, 61, rfl⟩
abbrev main_c_7 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_8 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_call0_cst : Ref sig .tc := ⟨.hbm, 82, rfl⟩
abbrev main_call0_v0 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_9 : Ref sig .tc := ⟨.hbm, 90, rfl⟩
abbrev main_v55 : Ref sig .tc := ⟨.hbm, 91, rfl⟩
abbrev main_cst_10 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_11 : Ref sig .tc := ⟨.hbm, 96, rfl⟩
abbrev main_v59 : Ref sig .tc := ⟨.hbm, 97, rfl⟩
abbrev main_v60 : Ref sig .tc := ⟨.hbm, 98, rfl⟩
abbrev main_cst_12 : Ref sig .tc := ⟨.hbm, 99, rfl⟩
abbrev main_v61 : Ref sig .tc := ⟨.hbm, 100, rfl⟩
abbrev main_v62 : Ref sig .tc := ⟨.hbm, 101, rfl⟩
abbrev main_c_13 : Ref sig .tc := ⟨.hbm, 102, rfl⟩
abbrev main_v63 : Ref sig .tc := ⟨.hbm, 103, rfl⟩
abbrev main_v64 : Ref sig .tc := ⟨.hbm, 104, rfl⟩
abbrev main_c_14 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_15 : Ref sig .tc := ⟨.hbm, 111, rfl⟩
abbrev main_v70 : Ref sig .tc := ⟨.hbm, 112, rfl⟩
abbrev main_v71 : Ref sig .tc := ⟨.hbm, 113, rfl⟩
abbrev main_c_16 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_c_17 : Ref sig .tc := ⟨.hbm, 122, rfl⟩
abbrev main_v79 : Ref sig .tc := ⟨.hbm, 123, rfl⟩
abbrev main_v80 : Ref sig .tc := ⟨.hbm, 124, rfl⟩
abbrev main_c_18 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_19 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_call1_cst : Ref sig .tc := ⟨.hbm, 145, rfl⟩
abbrev main_call1_v0 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_call2_cst : Ref sig .tc := ⟨.hbm, 153, rfl⟩
abbrev main_call2_v0 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_cst_20 : Ref sig .tc := ⟨.hbm, 165, rfl⟩
abbrev main_v115 : Ref sig .tc := ⟨.hbm, 166, rfl⟩
abbrev main_cst_21 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_cst_22 : Ref sig .tc := ⟨.hbm, 171, rfl⟩
abbrev main_v119 : Ref sig .tc := ⟨.hbm, 172, rfl⟩
abbrev main_v120 : Ref sig .tc := ⟨.hbm, 173, rfl⟩
abbrev main_cst_23 : Ref sig .tc := ⟨.hbm, 174, rfl⟩
abbrev main_v121 : Ref sig .tc := ⟨.hbm, 175, rfl⟩
abbrev main_v122 : Ref sig .tc := ⟨.hbm, 176, rfl⟩
abbrev main_c_24 : Ref sig .tc := ⟨.hbm, 177, rfl⟩
abbrev main_v123 : Ref sig .tc := ⟨.hbm, 178, rfl⟩
abbrev main_v124 : Ref sig .tc := ⟨.hbm, 179, rfl⟩
abbrev main_c_25 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_c_26 : Ref sig .tc := ⟨.hbm, 186, rfl⟩
abbrev main_v130 : Ref sig .tc := ⟨.hbm, 187, rfl⟩
abbrev main_v131 : Ref sig .tc := ⟨.hbm, 188, rfl⟩
abbrev main_c_27 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_c_28 : Ref sig .tc := ⟨.hbm, 197, rfl⟩
abbrev main_v139 : Ref sig .tc := ⟨.hbm, 198, rfl⟩
abbrev main_v140 : Ref sig .tc := ⟨.hbm, 199, rfl⟩
abbrev main_c_29 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_cst_30 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_call3_cst : Ref sig .tc := ⟨.hbm, 220, rfl⟩
abbrev main_call3_v0 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_cst_31 : Ref sig .tc := ⟨.hbm, 228, rfl⟩
abbrev main_v165 : Ref sig .tc := ⟨.hbm, 229, rfl⟩
abbrev main_cst_32 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_cst_33 : Ref sig .tc := ⟨.hbm, 234, rfl⟩
abbrev main_v169 : Ref sig .tc := ⟨.hbm, 235, rfl⟩
abbrev main_v170 : Ref sig .tc := ⟨.hbm, 236, rfl⟩
abbrev main_cst_34 : Ref sig .tc := ⟨.hbm, 237, rfl⟩
abbrev main_v171 : Ref sig .tc := ⟨.hbm, 238, rfl⟩
abbrev main_v172 : Ref sig .tc := ⟨.hbm, 239, rfl⟩
abbrev main_c_35 : Ref sig .tc := ⟨.hbm, 240, rfl⟩
abbrev main_v173 : Ref sig .tc := ⟨.hbm, 241, rfl⟩
abbrev main_v174 : Ref sig .tc := ⟨.hbm, 242, rfl⟩
abbrev main_c_36 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_c_37 : Ref sig .tc := ⟨.hbm, 249, rfl⟩
abbrev main_v180 : Ref sig .tc := ⟨.hbm, 250, rfl⟩
abbrev main_v181 : Ref sig .tc := ⟨.hbm, 251, rfl⟩
abbrev main_c_38 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_c_39 : Ref sig .tc := ⟨.hbm, 260, rfl⟩
abbrev main_v189 : Ref sig .tc := ⟨.hbm, 261, rfl⟩
abbrev main_v190 : Ref sig .tc := ⟨.hbm, 262, rfl⟩
abbrev main_c_40 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_cst_41 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_call4_cst : Ref sig .tc := ⟨.hbm, 283, rfl⟩
abbrev main_call4_v0 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_call5_cst : Ref sig .tc := ⟨.hbm, 291, rfl⟩
abbrev main_call5_v0 : Ref sig .tc := ⟨.hbm, 292, rfl⟩
abbrev main_v215 : Ref sig .tc := ⟨.hbm, 293, rfl⟩
abbrev main_v216 : Ref sig .tc := ⟨.hbm, 294, rfl⟩
abbrev main_v217 : Ref sig .tc := ⟨.hbm, 295, rfl⟩
abbrev main_v218 : Ref sig .tc := ⟨.hbm, 296, rfl⟩
abbrev main_v219 : Ref sig .tc := ⟨.hbm, 297, rfl⟩
abbrev main_cst_42 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_v227 : Ref sig .tc := ⟨.hbm, 306, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  bcast_S_S128x128 : S_.BroadcastsInDim S128x128 (![] : Fin 0 → Fin S128x128.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  dot_S50000x128_S128x128_S50000x128_1_0_0_1_n_n_wf : DotDims.WF S50000x128 S128x128 S50000x128 [1] [0] [0] [1] [] []
  scatter_S50000_S640000x1_S640000_n_0_0_1_wf : ScatterDims.WF S50000 S640000x1 S640000 [] [0] [0] 1
  gather_S50000_S640000x1_S640000_n_0_n_n_0_1_1_wf : GatherDims.WF S50000 S640000x1 S640000 [] [0] [] [0] [] 1 ![1]
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x256_S256x128_S50000x128_1_0_0_1_n_n_wf : DotDims.WF S50000x256 S256x128 S50000x128 [1] [0] [0] [1] [] []
  scatter_S128x128_S50000x1_S50000x128_1_0_0_1_wf : ScatterDims.WF S128x128 S50000x1 S50000x128 [1] [0] [0] 1
  dot_S128x128_S128x1_S128x1_1_0_0_1_n_n_wf : DotDims.WF S128x128 S128x1 S128x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf

class Facts : Prop extends Facts₀ where

variable [Facts]
-- ==== Proof.KKeep.lean ====
/-
  Across a kernel region only the region's output array changes: every other buffer of the TensorCore holds at the region's exit what
  it held at its entry — an array an input window stages is read, never written back; a buffer no window stages is not touched.
  With that, and the host stretches' results read operation by operation, a buffer's contents at any segment boundary of the
  kernel program walk back to the launch memory.
-/
import proofs.«406451_j67508295958856_1_alg».proof.Proof.Gen.KernelIdeal.Frame
import Idealize.ShloMosaic.Lib.StableHlo.Run

set_option maxRecDepth 16384

noncomputable section

namespace Cert.KernelIdeal.Gen

open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Region 0 writes `main_v1` only. -/
theorem W2_keep (c : Dev nD) (b : Ref sig .tc) (hb : b ≠ main_v1) :
    W2 m ρ c (Proc.devRef .tc b) = W1 m ρ c (Proc.devRef .tc b) := by
  by_cases h0 : b = main_arg0
  · subst h0
    exact (W2_arr m ρ c 0).trans (((dat0 (V1 m ρ) c).arrAt_in 0 rfl _).trans (A_eq0 (V1 m ρ) c 0))
  by_cases h1 : b = main_arg4
  · subst h1
    exact (W2_arr m ρ c 1).trans (((dat0 (V1 m ρ) c).arrAt_in 1 rfl _).trans (A_eq0 (V1 m ρ) c 1))
  by_cases h2 : b = main_v0
  · subst h2
    exact (W2_arr m ρ c 2).trans (((dat0 (V1 m ρ) c).arrAt_in 2 rfl _).trans (A_eq0 (V1 m ρ) c 2))
  refine W2_of_ne m ρ c b fun w e => ?_
  match w with
  | ⟨0, _⟩ => exact h0 e.symm
  | ⟨1, _⟩ => exact h1 e.symm
  | ⟨2, _⟩ => exact h2 e.symm
  | ⟨3, _⟩ => exact hb e.symm

/-- Region 1 writes `main_v52` only. -/
theorem W6_keep (c : Dev nD) (b : Ref sig .tc) (hb : b ≠ main_v52) :
    W6 m ρ c (Proc.devRef .tc b) = W5 m ρ c (Proc.devRef .tc b) := by
  by_cases h0 : b = main_arg0
  · subst h0
    exact (W6_arr m ρ c 0).trans (((dat1 (V5 m ρ) c).arrAt_in 0 rfl _).trans (A_eq1 (V5 m ρ) c 0))
  by_cases h1 : b = main_arg6
  · subst h1
    exact (W6_arr m ρ c 1).trans (((dat1 (V5 m ρ) c).arrAt_in 1 rfl _).trans (A_eq1 (V5 m ρ) c 1))
  by_cases h2 : b = main_v51
  · subst h2
    exact (W6_arr m ρ c 2).trans (((dat1 (V5 m ρ) c).arrAt_in 2 rfl _).trans (A_eq1 (V5 m ρ) c 2))
  refine W6_of_ne m ρ c b fun w e => ?_
  match w with
  | ⟨0, _⟩ => exact h0 e.symm
  | ⟨1, _⟩ => exact h1 e.symm
  | ⟨2, _⟩ => exact h2 e.symm
  | ⟨3, _⟩ => exact hb e.symm

/-- Region 2 writes `main_v103` only. -/
theorem W10_keep (c : Dev nD) (b : Ref sig .tc) (hb : b ≠ main_v103) :
    W10 m ρ c (Proc.devRef .tc b) = W9 m ρ c (Proc.devRef .tc b) := by
  by_cases h0 : b = main_v102
  · subst h0
    exact (W10_arr m ρ c 0).trans (((dat2 (V9 m ρ) c).arrAt_in 0 rfl _).trans (A_eq2 (V9 m ρ) c 0))
  by_cases h1 : b = main_arg8
  · subst h1
    exact (W10_arr m ρ c 1).trans (((dat2 (V9 m ρ) c).arrAt_in 1 rfl _).trans (A_eq2 (V9 m ρ) c 1))
  by_cases h2 : b = main_arg9
  · subst h2
    exact (W10_arr m ρ c 2).trans (((dat2 (V9 m ρ) c).arrAt_in 2 rfl _).trans (A_eq2 (V9 m ρ) c 2))
  refine W10_of_ne m ρ c b fun w e => ?_
  match w with
  | ⟨0, _⟩ => exact h0 e.symm
  | ⟨1, _⟩ => exact h1 e.symm
  | ⟨2, _⟩ => exact h2 e.symm
  | ⟨3, _⟩ => exact hb e.symm

/-- Region 3 writes `main_v104` only. -/
theorem W11_keep (c : Dev nD) (b : Ref sig .tc) (hb : b ≠ main_v104) :
    W11 m ρ c (Proc.devRef .tc b) = W10 m ρ c (Proc.devRef .tc b) := by
  by_cases h0 : b = main_v103
  · subst h0
    exact (W11_arr m ρ c 0).trans (((dat3 (V10 m ρ) c).arrAt_in 0 rfl _).trans (A_eq3 (V10 m ρ) c 0))
  by_cases h1 : b = main_arg10
  · subst h1
    exact (W11_arr m ρ c 1).trans (((dat3 (V10 m ρ) c).arrAt_in 1 rfl _).trans (A_eq3 (V10 m ρ) c 1))
  by_cases h2 : b = main_arg11
  · subst h2
    exact (W11_arr m ρ c 2).trans (((dat3 (V10 m ρ) c).arrAt_in 2 rfl _).trans (A_eq3 (V10 m ρ) c 2))
  refine W11_of_ne m ρ c b fun w e => ?_
  match w with
  | ⟨0, _⟩ => exact h0 e.symm
  | ⟨1, _⟩ => exact h1 e.symm
  | ⟨2, _⟩ => exact h2 e.symm
  | ⟨3, _⟩ => exact hb e.symm

/-- Region 4 writes `main_v106` only. -/
theorem W13_keep (c : Dev nD) (b : Ref sig .tc) (hb : b ≠ main_v106) :
    W13 m ρ c (Proc.devRef .tc b) = W12 m ρ c (Proc.devRef .tc b) := by
  by_cases h0 : b = main_v104
  · subst h0
    exact (W13_arr m ρ c 0).trans (((dat4 (V12 m ρ) c).arrAt_in 0 rfl _).trans (A_eq4 (V12 m ρ) c 0))
  by_cases h1 : b = main_arg12
  · subst h1
    exact (W13_arr m ρ c 1).trans (((dat4 (V12 m ρ) c).arrAt_in 1 rfl _).trans (A_eq4 (V12 m ρ) c 1))
  by_cases h2 : b = main_v105
  · subst h2
    exact (W13_arr m ρ c 2).trans (((dat4 (V12 m ρ) c).arrAt_in 2 rfl _).trans (A_eq4 (V12 m ρ) c 2))
  refine W13_of_ne m ρ c b fun w e => ?_
  match w with
  | ⟨0, _⟩ => exact h0 e.symm
  | ⟨1, _⟩ => exact h1 e.symm
  | ⟨2, _⟩ => exact h2 e.symm
  | ⟨3, _⟩ => exact hb e.symm

/-- Region 5 writes `main_v157` only. -/
theorem W17_keep (c : Dev nD) (b : Ref sig .tc) (hb : b ≠ main_v157) :
    W17 m ρ c (Proc.devRef .tc b) = W16 m ρ c (Proc.devRef .tc b) := by
  by_cases h0 : b = main_v104
  · subst h0
    exact (W17_arr m ρ c 0).trans (((dat5 (V16 m ρ) c).arrAt_in 0 rfl _).trans (A_eq5 (V16 m ρ) c 0))
  by_cases h1 : b = main_arg14
  · subst h1
    exact (W17_arr m ρ c 1).trans (((dat5 (V16 m ρ) c).arrAt_in 1 rfl _).trans (A_eq5 (V16 m ρ) c 1))
  by_cases h2 : b = main_v156
  · subst h2
    exact (W17_arr m ρ c 2).trans (((dat5 (V16 m ρ) c).arrAt_in 2 rfl _).trans (A_eq5 (V16 m ρ) c 2))
  refine W17_of_ne m ρ c b fun w e => ?_
  match w with
  | ⟨0, _⟩ => exact h0 e.symm
  | ⟨1, _⟩ => exact h1 e.symm
  | ⟨2, _⟩ => exact h2 e.symm
  | ⟨3, _⟩ => exact hb e.symm

/-- Region 6 writes `main_v208` only. -/
theorem W21_keep (c : Dev nD) (b : Ref sig .tc) (hb : b ≠ main_v208) :
    W21 m ρ c (Proc.devRef .tc b) = W20 m ρ c (Proc.devRef .tc b) := by
  by_cases h0 : b = main_v207
  · subst h0
    exact (W21_arr m ρ c 0).trans (((dat6 (V20 m ρ) c).arrAt_in 0 rfl _).trans (A_eq6 (V20 m ρ) c 0))
  by_cases h1 : b = main_arg16
  · subst h1
    exact (W21_arr m ρ c 1).trans (((dat6 (V20 m ρ) c).arrAt_in 1 rfl _).trans (A_eq6 (V20 m ρ) c 1))
  by_cases h2 : b = main_arg17
  · subst h2
    exact (W21_arr m ρ c 2).trans (((dat6 (V20 m ρ) c).arrAt_in 2 rfl _).trans (A_eq6 (V20 m ρ) c 2))
  refine W21_of_ne m ρ c b fun w e => ?_
  match w with
  | ⟨0, _⟩ => exact h0 e.symm
  | ⟨1, _⟩ => exact h1 e.symm
  | ⟨2, _⟩ => exact h2 e.symm
  | ⟨3, _⟩ => exact hb e.symm

/-- Region 7 writes `main_v209` only. -/
theorem W22_keep (c : Dev nD) (b : Ref sig .tc) (hb : b ≠ main_v209) :
    W22 m ρ c (Proc.devRef .tc b) = W21 m ρ c (Proc.devRef .tc b) := by
  by_cases h0 : b = main_v208
  · subst h0
    exact (W22_arr m ρ c 0).trans (((dat7 (V21 m ρ) c).arrAt_in 0 rfl _).trans (A_eq7 (V21 m ρ) c 0))
  by_cases h1 : b = main_arg18
  · subst h1
    exact (W22_arr m ρ c 1).trans (((dat7 (V21 m ρ) c).arrAt_in 1 rfl _).trans (A_eq7 (V21 m ρ) c 1))
  by_cases h2 : b = main_arg19
  · subst h2
    exact (W22_arr m ρ c 2).trans (((dat7 (V21 m ρ) c).arrAt_in 2 rfl _).trans (A_eq7 (V21 m ρ) c 2))
  refine W22_of_ne m ρ c b fun w e => ?_
  match w with
  | ⟨0, _⟩ => exact h0 e.symm
  | ⟨1, _⟩ => exact h1 e.symm
  | ⟨2, _⟩ => exact h2 e.symm
  | ⟨3, _⟩ => exact hb e.symm

/-- Region 8 writes `main_v211` only. -/
theorem W24_keep (c : Dev nD) (b : Ref sig .tc) (hb : b ≠ main_v211) :
    W24 m ρ c (Proc.devRef .tc b) = W23 m ρ c (Proc.devRef .tc b) := by
  by_cases h0 : b = main_v210
  · subst h0
    exact (W24_arr m ρ c 0).trans (((dat8 (V23 m ρ) c).arrAt_in 0 rfl _).trans (A_eq8 (V23 m ρ) c 0))
  by_cases h1 : b = main_v209
  · subst h1
    exact (W24_arr m ρ c 1).trans (((dat8 (V23 m ρ) c).arrAt_in 1 rfl _).trans (A_eq8 (V23 m ρ) c 1))
  refine W24_of_ne m ρ c b fun w e => ?_
  match w with
  | ⟨0, _⟩ => exact h0 e.symm
  | ⟨1, _⟩ => exact h1 e.symm
  | ⟨2, _⟩ => exact hb e.symm

/-- At the launch boundary a buffer holds the launch memory. -/
theorem W0_eq (c : Dev nD) (b : Ref sig .tc) : W0 m ρ c (Proc.devRef .tc b) = m ((c : Thread nD τ).loc b) := rfl

/-- One pass of steps back: across a region by the lemmas above (the buffer is not the region's output: decided), across a host
    stretch by reading the stretch's operations (none writes it). -/
macro "walk_steps" : tactic =>
  `(tactic| repeat (first
    | (rw [W24_keep]; rotate_left; decide)
    | (rw [W22_keep]; rotate_left; decide)
    | (rw [W21_keep]; rotate_left; decide)
    | (rw [W17_keep]; rotate_left; decide)
    | (rw [W13_keep]; rotate_left; decide)
    | (rw [W11_keep]; rotate_left; decide)
    | (rw [W10_keep]; rotate_left; decide)
    | (rw [W6_keep]; rotate_left; decide)
    | (rw [W2_keep]; rotate_left; decide)
    | (simp (disch := decide) only [StableHlo.after_cons, StableHlo.after_nil,
        StableHlo.nullary_result_ne', StableHlo.unary_result_ne', StableHlo.binary_result_ne', StableHlo.ternary_result_ne',
        StableHlo.quaternary_result_ne', StableHlo.reshape_result_ne', StableHlo.nary_result_ne', StableHlo.unaryIndexed_result_ne',
        StableHlo.binaryIndexed_result_ne'])))

/-- Walks a buffer's contents at a segment boundary back to the launch memory (or to the very buffer asked for, when the walk stops
    at a region's output): the last step unfolds the launch boundary only, and never evaluates a region. -/
macro "walk_back" : tactic =>
  `(tactic| (walk_steps
             all_goals (first
               | exact W0_eq _ _ _ _
               | with_reducible rfl)))

end Cert.KernelIdeal.Gen

end
-- ==== Proof.GlueK.lean ====
import proofs.«406451_j67508295958856_1_alg».proof.Proof.Gen.KernelIdeal

noncomputable section

namespace Cert.KernelIdeal.Gen

open Idealize.ShloMosaic Idealize.SL.Sem

variable {F : FTy → Type} [FloatOps F]

/-- The host operations of the lists hostOps1 of the generated launch module, in order, as one function of the buffers they read:
    each line is one operation's printed function applied to its operands' values. -/
def gcnPre (main_v1 : (⟨S50000x128, .f32⟩ : BufTy).Contents (Elt F)) (main_arg1 : (⟨S2x640000, .i32⟩ : BufTy).Contents (Elt F)) (main_arg5 : (⟨S128, .f32⟩ : BufTy).Contents (Elt F)) :
    (⟨S50000x128, .f32⟩ : BufTy).Contents (Elt F) :=
  have main_v2 : (⟨S1x640000, .i32⟩ : BufTy).Contents (Elt F) := ((extractStridedSlice S1x640000 ![0, 0] · slices_S2x640000_S1x640000_0_0) : (⟨S2x640000, .i32⟩ : BufTy).Contents (Elt F) → (⟨S1x640000, .i32⟩ : BufTy).Contents (Elt F)) main_arg1
  have main_v3 := shapeCast S640000 main_v2 shapeCasts_S1x640000_S640000
  have main_v4 : (⟨S1x640000, .i32⟩ : BufTy).Contents (Elt F) := ((extractStridedSlice S1x640000 ![1, 0] · slices_S2x640000_S1x640000_1_0) : (⟨S2x640000, .i32⟩ : BufTy).Contents (Elt F) → (⟨S1x640000, .i32⟩ : BufTy).Contents (Elt F)) main_arg1
  have main_v5 := shapeCast S640000 main_v4 shapeCasts_S1x640000_S640000
  have main_cst_0 : (⟨S_, .f32⟩ : BufTy).Contents (Elt F) := (constant S_ .f32 0x3F800000#32)
  have main_v6 : (⟨S640000, .f32⟩ : BufTy).Contents (Elt F) := (broadcastInDim S640000 ![] bcast_S_S640000 : (⟨S_, .f32⟩ : BufTy).Contents (Elt F) → (⟨S640000, .f32⟩ : BufTy).Contents (Elt F)) main_cst_0
  have main_cst_1 : (⟨S_, .f32⟩ : BufTy).Contents (Elt F) := (constant S_ .f32 0x00000000#32)
  have main_v7 : (⟨S50000, .f32⟩ : BufTy).Contents (Elt F) := (broadcastInDim S50000 ![] bcast_S_S50000 : (⟨S_, .f32⟩ : BufTy).Contents (Elt F) → (⟨S50000, .f32⟩ : BufTy).Contents (Elt F)) main_cst_1
  have main_v8 : (⟨S640000x1, .i32⟩ : BufTy).Contents (Elt F) := (broadcastInDim S640000x1 ![0] bcast_S640000_S640000x1_0 : (⟨S640000, .i32⟩ : BufTy).Contents (Elt F) → (⟨S640000x1, .i32⟩ : BufTy).Contents (Elt F)) main_v5
  have main_v9 : (⟨S50000, .f32⟩ : BufTy).Contents (Elt F) := ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)) main_v7 main_v8 main_v6
  have main_cst_2 : (⟨S_, .f32⟩ : BufTy).Contents (Elt F) := (constant S_ .f32 0x3F800000#32)
  have main_v10 : (⟨S50000, .f32⟩ : BufTy).Contents (Elt F) := (broadcastInDim S50000 ![] bcast_S_S50000 : (⟨S_, .f32⟩ : BufTy).Contents (Elt F) → (⟨S50000, .f32⟩ : BufTy).Contents (Elt F)) main_cst_2
  have main_v11 : (⟨S50000, .f32⟩ : BufTy).Contents (Elt F) := (addf : (⟨S50000, .f32⟩ : BufTy).Contents (Elt F) → (⟨S50000, .f32⟩ : BufTy).Contents (Elt F) → (⟨S50000, .f32⟩ : BufTy).Contents (Elt F)) main_v9 main_v10
  have main_cst_3 : (⟨S_, .f32⟩ : BufTy).Contents (Elt F) := (constant S_ .f32 0xBF000000#32)
  have main_v12 : (⟨S50000, .f32⟩ : BufTy).Contents (Elt F) := (broadcastInDim S50000 ![] bcast_S_S50000 : (⟨S_, .f32⟩ : BufTy).Contents (Elt F) → (⟨S50000, .f32⟩ : BufTy).Contents (Elt F)) main_cst_3
  have main_v13 : (⟨S50000, .f32⟩ : BufTy).Contents (Elt F) := (Host.powf : (⟨S50000, .f32⟩ : BufTy).Contents (Elt F) → (⟨S50000, .f32⟩ : BufTy).Contents (Elt F) → (⟨S50000, .f32⟩ : BufTy).Contents (Elt F)) main_v11 main_v12
  have main_c : (⟨S_, .i32⟩ : BufTy).Contents (Elt F) := (constantI S_ 32 0#32)
  have main_v14 : (⟨S640000, .i32⟩ : BufTy).Contents (Elt F) := (broadcastInDim S640000 ![] bcast_S_S640000 : (⟨S_, .i32⟩ : BufTy).Contents (Elt F) → (⟨S640000, .i32⟩ : BufTy).Contents (Elt F)) main_c
  have main_v15 : (⟨S640000, .i1⟩ : BufTy).Contents (Elt F) := (cmpi .slt : (⟨S640000, .i32⟩ : BufTy).Contents (Elt F) → (⟨S640000, .i32⟩ : BufTy).Contents (Elt F) → (⟨S640000, .i1⟩ : BufTy).Contents (Elt F)) main_v3 main_v14
  have main_c_4 : (⟨S_, .i32⟩ : BufTy).Contents (Elt F) := (constantI S_ 32 50000#32)
  have main_v16 : (⟨S640000, .i32⟩ : BufTy).Contents (Elt F) := (broadcastInDim S640000 ![] bcast_S_S640000 : (⟨S_, .i32⟩ : BufTy).Contents (Elt F) → (⟨S640000, .i32⟩ : BufTy).Contents (Elt F)) main_c_4
  have main_v17 : (⟨S640000, .i32⟩ : BufTy).Contents (Elt F) := (addi : (⟨S640000, .i32⟩ : BufTy).Contents (Elt F) → (⟨S640000, .i32⟩ : BufTy).Contents (Elt F) → (⟨S640000, .i32⟩ : BufTy).Contents (Elt F)) main_v3 main_v16
  have main_v18 : (⟨S640000, .i32⟩ : BufTy).Contents (Elt F) := (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)) main_v15 main_v17 main_v3
  have main_v19 : (⟨S640000x1, .i32⟩ : BufTy).Contents (Elt F) := (broadcastInDim S640000x1 ![0] bcast_S640000_S640000x1_0 : (⟨S640000, .i32⟩ : BufTy).Contents (Elt F) → (⟨S640000x1, .i32⟩ : BufTy).Contents (Elt F)) main_v18
  have main_v20 : (⟨S640000, .f32⟩ : BufTy).Contents (Elt F) := ((fun x i => Host.gather gather_S50000_S640000x1_S640000_n_0_n_n_0_1_1 x i) : (⟨S50000, .f32⟩ : BufTy).Contents (Elt F) → (⟨S640000x1, .i32⟩ : BufTy).Contents (Elt F) → (⟨S640000, .f32⟩ : BufTy).Contents (Elt F)) main_v13 main_v19
  have main_c_5 : (⟨S_, .i32⟩ : BufTy).Contents (Elt F) := (constantI S_ 32 0#32)
  have main_v21 : (⟨S640000, .i32⟩ : BufTy).Contents (Elt F) := (broadcastInDim S640000 ![] bcast_S_S640000 : (⟨S_, .i32⟩ : BufTy).Contents (Elt F) → (⟨S640000, .i32⟩ : BufTy).Contents (Elt F)) main_c_5
  have main_v22 : (⟨S640000, .i1⟩ : BufTy).Contents (Elt F) := (cmpi .slt : (⟨S640000, .i32⟩ : BufTy).Contents (Elt F) → (⟨S640000, .i32⟩ : BufTy).Contents (Elt F) → (⟨S640000, .i1⟩ : BufTy).Contents (Elt F)) main_v5 main_v21
  have main_c_6 : (⟨S_, .i32⟩ : BufTy).Contents (Elt F) := (constantI S_ 32 50000#32)
  have main_v23 : (⟨S640000, .i32⟩ : BufTy).Contents (Elt F) := (broadcastInDim S640000 ![] bcast_S_S640000 : (⟨S_, .i32⟩ : BufTy).Contents (Elt F) → (⟨S640000, .i32⟩ : BufTy).Contents (Elt F)) main_c_6
  have main_v24 : (⟨S640000, .i32⟩ : BufTy).Contents (Elt F) := (addi : (⟨S640000, .i32⟩ : BufTy).Contents (Elt F) → (⟨S640000, .i32⟩ : BufTy).Contents (Elt F) → (⟨S640000, .i32⟩ : BufTy).Contents (Elt F)) main_v5 main_v23
  have main_v25 : (⟨S640000, .i32⟩ : BufTy).Contents (Elt F) := (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)) main_v22 main_v24 main_v5
  have main_v26 : (⟨S640000x1, .i32⟩ : BufTy).Contents (Elt F) := (broadcastInDim S640000x1 ![0] bcast_S640000_S640000x1_0 : (⟨S640000, .i32⟩ : BufTy).Contents (Elt F) → (⟨S640000x1, .i32⟩ : BufTy).Contents (Elt F)) main_v25
  have main_v27 : (⟨S640000, .f32⟩ : BufTy).Contents (Elt F) := ((fun x i => Host.gather gather_S50000_S640000x1_S640000_n_0_n_n_0_1_1 x i) : (⟨S50000, .f32⟩ : BufTy).Contents (Elt F) → (⟨S640000x1, .i32⟩ : BufTy).Contents (Elt F) → (⟨S640000, .f32⟩ : BufTy).Contents (Elt F)) main_v13 main_v26
  have main_v28 : (⟨S640000, .f32⟩ : BufTy).Contents (Elt F) := (mulf : (⟨S640000, .f32⟩ : BufTy).Contents (Elt F) → (⟨S640000, .f32⟩ : BufTy).Contents (Elt F) → (⟨S640000, .f32⟩ : BufTy).Contents (Elt F)) main_v20 main_v27
  have main_v29 : (⟨S640000x1, .f32⟩ : BufTy).Contents (Elt F) := (broadcastInDim S640000x1 ![0] bcast_S640000_S640000x1_0 : (⟨S640000, .f32⟩ : BufTy).Contents (Elt F) → (⟨S640000x1, .f32⟩ : BufTy).Contents (Elt F)) main_v28
  have main_c_7 : (⟨S_, .i32⟩ : BufTy).Contents (Elt F) := (constantI S_ 32 0#32)
  have main_v30 : (⟨S640000, .i32⟩ : BufTy).Contents (Elt F) := (broadcastInDim S640000 ![] bcast_S_S640000 : (⟨S_, .i32⟩ : BufTy).Contents (Elt F) → (⟨S640000, .i32⟩ : BufTy).Contents (Elt F)) main_c_7
  have main_v31 : (⟨S640000, .i1⟩ : BufTy).Contents (Elt F) := (cmpi .slt : (⟨S640000, .i32⟩ : BufTy).Contents (Elt F) → (⟨S640000, .i32⟩ : BufTy).Contents (Elt F) → (⟨S640000, .i1⟩ : BufTy).Contents (Elt F)) main_v3 main_v30
  have main_c_8 : (⟨S_, .i32⟩ : BufTy).Contents (Elt F) := (constantI S_ 32 50000#32)
  have main_v32 : (⟨S640000, .i32⟩ : BufTy).Contents (Elt F) := (broadcastInDim S640000 ![] bcast_S_S640000 : (⟨S_, .i32⟩ : BufTy).Contents (Elt F) → (⟨S640000, .i32⟩ : BufTy).Contents (Elt F)) main_c_8
  have main_v33 : (⟨S640000, .i32⟩ : BufTy).Contents (Elt F) := (addi : (⟨S640000, .i32⟩ : BufTy).Contents (Elt F) → (⟨S640000, .i32⟩ : BufTy).Contents (Elt F) → (⟨S640000, .i32⟩ : BufTy).Contents (Elt F)) main_v3 main_v32
  have main_v34 : (⟨S640000, .i32⟩ : BufTy).Contents (Elt F) := (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)) main_v31 main_v33 main_v3
  have main_v35 : (⟨S640000x1, .i32⟩ : BufTy).Contents (Elt F) := (broadcastInDim S640000x1 ![0] bcast_S640000_S640000x1_0 : (⟨S640000, .i32⟩ : BufTy).Contents (Elt F) → (⟨S640000x1, .i32⟩ : BufTy).Contents (Elt F)) main_v34
  have main_v36 : (⟨S640000x128, .f32⟩ : BufTy).Contents (Elt F) := ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)) main_v1 main_v35
  have main_v37 : (⟨S640000x128, .f32⟩ : BufTy).Contents (Elt F) := (broadcastInDim S640000x128 ![0, 1] bcast_S640000x1_S640000x128_0_1 : (⟨S640000x1, .f32⟩ : BufTy).Contents (Elt F) → (⟨S640000x128, .f32⟩ : BufTy).Contents (Elt F)) main_v29
  have main_v38 : (⟨S640000x128, .f32⟩ : BufTy).Contents (Elt F) := (mulf : (⟨S640000x128, .f32⟩ : BufTy).Contents (Elt F) → (⟨S640000x128, .f32⟩ : BufTy).Contents (Elt F) → (⟨S640000x128, .f32⟩ : BufTy).Contents (Elt F)) main_v37 main_v36
  have main_cst_9 : (⟨S_, .f32⟩ : BufTy).Contents (Elt F) := (constant S_ .f32 0x00000000#32)
  have main_v39 : (⟨S50000x128, .f32⟩ : BufTy).Contents (Elt F) := (broadcastInDim S50000x128 ![] bcast_S_S50000x128 : (⟨S_, .f32⟩ : BufTy).Contents (Elt F) → (⟨S50000x128, .f32⟩ : BufTy).Contents (Elt F)) main_cst_9
  have main_v40 : (⟨S640000x1, .i32⟩ : BufTy).Contents (Elt F) := (broadcastInDim S640000x1 ![0] bcast_S640000_S640000x1_0 : (⟨S640000, .i32⟩ : BufTy).Contents (Elt F) → (⟨S640000x1, .i32⟩ : BufTy).Contents (Elt F)) main_v5
  have main_v41 : (⟨S50000x128, .f32⟩ : BufTy).Contents (Elt F) := ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)) main_v39 main_v40 main_v38
  have main_v42 : (⟨S50000, .f32⟩ : BufTy).Contents (Elt F) := (mulf : (⟨S50000, .f32⟩ : BufTy).Contents (Elt F) → (⟨S50000, .f32⟩ : BufTy).Contents (Elt F) → (⟨S50000, .f32⟩ : BufTy).Contents (Elt F)) main_v13 main_v13
  have main_v43 : (⟨S50000x1, .f32⟩ : BufTy).Contents (Elt F) := (broadcastInDim S50000x1 ![0] bcast_S50000_S50000x1_0 : (⟨S50000, .f32⟩ : BufTy).Contents (Elt F) → (⟨S50000x1, .f32⟩ : BufTy).Contents (Elt F)) main_v42
  have main_v44 : (⟨S50000x128, .f32⟩ : BufTy).Contents (Elt F) := (broadcastInDim S50000x128 ![0, 1] bcast_S50000x1_S50000x128_0_1 : (⟨S50000x1, .f32⟩ : BufTy).Contents (Elt F) → (⟨S50000x128, .f32⟩ : BufTy).Contents (Elt F)) main_v43
  have main_v45 : (⟨S50000x128, .f32⟩ : BufTy).Contents (Elt F) := (mulf : (⟨S50000x128, .f32⟩ : BufTy).Contents (Elt F) → (⟨S50000x128, .f32⟩ : BufTy).Contents (Elt F) → (⟨S50000x128, .f32⟩ : BufTy).Contents (Elt F)) main_v44 main_v1
  have main_v46 : (⟨S50000x128, .f32⟩ : BufTy).Contents (Elt F) := (addf : (⟨S50000x128, .f32⟩ : BufTy).Contents (Elt F) → (⟨S50000x128, .f32⟩ : BufTy).Contents (Elt F) → (⟨S50000x128, .f32⟩ : BufTy).Contents (Elt F)) main_v41 main_v45
  have main_v47 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_arg5
  have main_v48 : (⟨S50000x128, .f32⟩ : BufTy).Contents (Elt F) := (broadcastInDim S50000x128 ![0, 1] bcast_S1x128_S50000x128_0_1 : (⟨S1x128, .f32⟩ : BufTy).Contents (Elt F) → (⟨S50000x128, .f32⟩ : BufTy).Contents (Elt F)) main_v47
  have main_v49 : (⟨S50000x128, .f32⟩ : BufTy).Contents (Elt F) := (addf : (⟨S50000x128, .f32⟩ : BufTy).Contents (Elt F) → (⟨S50000x128, .f32⟩ : BufTy).Contents (Elt F) → (⟨S50000x128, .f32⟩ : BufTy).Contents (Elt F)) main_v46 main_v48
  main_v49

end Cert.KernelIdeal.Gen

end
-- ==== Proof.GlueTail.lean ====
import proofs.«406451_j67508295958856_1_alg».proof.Proof.Gen.KernelIdeal

noncomputable section

namespace Cert.KernelIdeal.Gen

open Idealize.ShloMosaic Idealize.SL.Sem

variable {F : FTy → Type} [FloatOps F]

/-- The host operations of the lists hostOps9 of the generated launch module, in order, as one function of the buffers they read:
    each line is one operation's printed function applied to its operands' values. -/
def tailGlue (main_v211 : (⟨S128x128, .f32⟩ : BufTy).Contents (Elt F)) (main_arg20 : (⟨S128x1, .f32⟩ : BufTy).Contents (Elt F)) (main_arg21 : (⟨S1, .f32⟩ : BufTy).Contents (Elt F)) :
    (⟨S128, .f32⟩ : BufTy).Contents (Elt F) :=
  have main_v212 : (⟨S128x128, .f32⟩ : BufTy).Contents (Elt F) := ((transpose S128x128 [1, 0] · transposes_S128x128_S128x128_1_0) : (⟨S128x128, .f32⟩ : BufTy).Contents (Elt F) → (⟨S128x128, .f32⟩ : BufTy).Contents (Elt F)) main_v211
  have main_v213 : (⟨S128x1, .f32⟩ : BufTy).Contents (Elt F) := ((fun l r => Host.dotGeneral dot_S128x128_S128x1_S128x1_1_0_0_1_n_n none l r) : (⟨S128x128, .f32⟩ : BufTy).Contents (Elt F) → (⟨S128x1, .f32⟩ : BufTy).Contents (Elt F) → (⟨S128x1, .f32⟩ : BufTy).Contents (Elt F)) main_v212 main_arg20
  have main_v214 : (⟨S1x1, .f32⟩ : BufTy).Contents (Elt F) := (broadcastInDim S1x1 ![1] bcast_S1_S1x1_1 : (⟨S1, .f32⟩ : BufTy).Contents (Elt F) → (⟨S1x1, .f32⟩ : BufTy).Contents (Elt F)) main_arg21
  have main_v215 : (⟨S128x1, .f32⟩ : BufTy).Contents (Elt F) := (broadcastInDim S128x1 ![0, 1] bcast_S1x1_S128x1_0_1 : (⟨S1x1, .f32⟩ : BufTy).Contents (Elt F) → (⟨S128x1, .f32⟩ : BufTy).Contents (Elt F)) main_v214
  have main_v216 : (⟨S128x1, .f32⟩ : BufTy).Contents (Elt F) := (addf : (⟨S128x1, .f32⟩ : BufTy).Contents (Elt F) → (⟨S128x1, .f32⟩ : BufTy).Contents (Elt F) → (⟨S128x1, .f32⟩ : BufTy).Contents (Elt F)) main_v213 main_v215
  have main_v217 := shapeCast S128 main_v216 shapeCasts_S128x1_S128
  main_v217

end Cert.KernelIdeal.Gen

end
-- ==== Proof.Spec.lean ====
/-
  The three whole-array functions the kernel program's regions compute, read at the ideal instance
  (floats are extended reals, every operation exact), index by index.

  * `dense x w b`      : row `r`, column `q` is `(∑ k, x r k · w k q) + b q` — a dense layer over 128 input columns.
  * `denseRelu x w b`  : the same over 256 input columns, then the maximum with zero.
  * `poolT bt h`       : entry `(d, g)` is the sum over ALL 50000 rows `n` of `h n d · [bt n = g]`, the indicator being
                         `1` when the row's 32-bit label word equals the word of `g` and `0` otherwise: the rows of `h`
                         summed per label, transposed. A label outside `0 … 127` matches no `g` and contributes nothing.
-/
import Idealize.ShloMosaic.PureOps.Ideal
import Idealize.ShloMosaic.Lib.ValueIdx

noncomputable section

namespace Cert.Bridge

open Idealize.ShloMosaic Idealize.ShloMosaic.ValueIdx

/-- The shapes the functions are stated over, as literals. -/
abbrev SN128 : Shape := ⟨2, ![50000, 128]⟩
abbrev SN256 : Shape := ⟨2, ![50000, 256]⟩
abbrev SN1 : Shape := ⟨2, ![50000, 1]⟩
abbrev SW128 : Shape := ⟨2, ![128, 128]⟩
abbrev SW256 : Shape := ⟨2, ![256, 128]⟩
abbrev SB128 : Shape := ⟨1, ![128]⟩

/-- A dense layer over 128 input columns: `x · w + b`, the bias added along the rows. -/
def dense (x : FVec Ideal SN128 .f32) (w : FVec Ideal SW128 .f32) (b : FVec Ideal SB128 .f32) : FVec Ideal SN128 .f32 :=
  fun i => (∑ k : Fin 128, x (ix2 (i 0) k) * w (ix2 k (i 1))) + b (ix1 (i 1))

/-- A dense layer over 256 input columns followed by the maximum with zero. -/
def denseRelu (x : FVec Ideal SN256 .f32) (w : FVec Ideal SW256 .f32) (b : FVec Ideal SB128 .f32) : FVec Ideal SN128 .f32 :=
  fun i => max ((∑ k : Fin 256, x (ix2 (i 0) k) * w (ix2 k (i 1))) + b (ix1 (i 1))) 0

/-- The per-label column sums, transposed: entry `(d, g)` sums `h n d` over the rows `n` whose label word is `g`'s. -/
def poolT (bt : IVec SN1 32) (h : FVec Ideal SN128 .f32) : FVec Ideal SW128 .f32 :=
  fun i => ∑ n : Fin 50000, h (ix2 n (i 0)) * (if bt (ix2 n 0) = BitVec.ofNat 32 (i 1).val then (1 : EReal) else 0)

end Cert.Bridge

end
-- ==== Proof.KTerms.lean ====
/-
  The kernel program's result as ONE function of its 22 argument arrays, at the ideal instance, built from the functions its regions
  and host stretches compute: a graph-convolution layer is a dense layer without bias followed by the shared edge aggregation
  (`gcnPre`: degree normalisation, gather, weighted scatter-add, self-loop term, bias) and the maximum with zero; a block of the network is two
  such layers (over the local and the global edge list) joined along the columns and passed through a two-layer perceptron; the
  network is two blocks, the per-label sums of the rows (`poolT`, transposed back), and a final [128]-to-[1] linear map.
-/
import proofs.«406451_j67508295958856_1_alg».proof.Proof.GlueK
import proofs.«406451_j67508295958856_1_alg».proof.Proof.GlueTail
import proofs.«406451_j67508295958856_1_alg».proof.Proof.Spec

noncomputable section

namespace Cert.KernelIdeal.Gen

open Idealize.ShloMosaic Idealize.SL.Sem Cert.Bridge

/-- The contents type of a buffer of shape `s` and element type `e`, at the ideal instance. -/
abbrev T (s : Shape) (e : EltTy) : Type := (⟨s, e⟩ : BufTy).Contents (Elt Ideal)

/-- The zero bias the bias-free dense layers are given. -/
def zb : T S128 .f32 := broadcastInDim S128 ![] bcast_S_S128 (constant (F := Ideal) S_ .f32 0x00000000#32)

/-- The maximum with zero, entry by entry. -/
def reluZ (x : T S50000x128 .f32) : T S50000x128 .f32 :=
  maximumf (F := Ideal) x (broadcastInDim S50000x128 ![] bcast_S_S50000x128 (constant (F := Ideal) S_ .f32 0x00000000#32))

/-- A graph-convolution layer: `x · w`, then the edge aggregation over the edge list `ei` with bias `b` (`gcnPre`: degree
    normalisation, gather, weighted scatter-add, self-loop term, bias), then the maximum with zero. -/
def kgcn (x : T S50000x128 .f32) (ei : T S2x640000 .i32) (w : T S128x128 .f32) (b : T S128 .f32) : T S50000x128 .f32 :=
  reluZ (gcnPre (F := Ideal) (dense x w zb) ei b)

/-- Two [50000,128] arrays side by side. -/
def kcat (p q : T S50000x128 .f32) : T S50000x256 .f32 :=
  concatenate S50000x256 1 [⟨S50000x128, p⟩, ⟨S50000x128, q⟩] concatenates_S50000x128_S50000x128_S50000x256_d1

/-- The perceptron on the joined layers: dense, maximum with zero, dense. -/
def kmlp (p q : T S50000x128 .f32) (w1 : T S256x128 .f32) (b1 : T S128 .f32) (w2 : T S128x128 .f32) (b2 : T S128 .f32) :
    T S50000x128 .f32 :=
  dense (denseRelu (kcat p q) w1 b1) w2 b2

/-- One block of the network. -/
def klayer (x : T S50000x128 .f32) (el eg : T S2x640000 .i32) (wl : T S128x128 .f32) (bl : T S128 .f32) (wg : T S128x128 .f32)
    (bg : T S128 .f32) (w1 : T S256x128 .f32) (b1 : T S128 .f32) (w2 : T S128x128 .f32) (b2 : T S128 .f32) : T S50000x128 .f32 :=
  kmlp (kgcn x el wl bl) (kgcn x eg wg bg) w1 b1 w2 b2

/-- The labels as a column. -/
def kcol (a3 : T S50000 .i32) : T S50000x1 .i32 := fun i => shapeCast S50000x1 a3 shapeCasts_S50000_S50000x1 i

/-- The last linear map, from the transposed per-label sums: the program's closing host stretch (transpose, product with the
    [128,1] weight, bias, reshape) as one function. -/
def ktail (p : T S128x128 .f32) (wl : T S128x1 .f32) (bl : T S1 .f32) : T S128 .f32 :=
  tailGlue (F := Ideal) p wl bl

/-- The whole network. -/
def kout (a0 : T S50000x128 .f32) (a1 a2 : T S2x640000 .i32) (a3 : T S50000 .i32) (a4 : T S128x128 .f32) (a5 : T S128 .f32)
    (a6 : T S128x128 .f32) (a7 : T S128 .f32) (a8 : T S256x128 .f32) (a9 : T S128 .f32) (a10 : T S128x128 .f32) (a11 : T S128 .f32)
    (a12 : T S128x128 .f32) (a13 : T S128 .f32) (a14 : T S128x128 .f32) (a15 : T S128 .f32) (a16 : T S256x128 .f32) (a17 : T S128 .f32)
    (a18 : T S128x128 .f32) (a19 : T S128 .f32) (a20 : T S128x1 .f32) (a21 : T S1 .f32) : T S128 .f32 :=
  ktail (poolT (kcol a3)
    (klayer (klayer a0 a1 a2 a4 a5 a6 a7 a8 a9 a10 a11) a1 a2 a12 a13 a14 a15 a16 a17 a18 a19)) a20 a21

end Cert.KernelIdeal.Gen

end
-- ==== Proof.KGlue1.lean ====
/-
  The host stretch of the kernel program between regions 0 and 1, read operation by operation: it is the shared edge aggregation
  (`gcnPre`) of region 0's output over the local edge list, then the maximum with zero.
-/
import proofs.«406451_j67508295958856_1_alg».proof.Proof.KKeep
import proofs.«406451_j67508295958856_1_alg».proof.Proof.KTerms

set_option maxRecDepth 16384

noncomputable section

namespace Cert.KernelIdeal.Gen

open Idealize.ShloMosaic Idealize.ShloMosaic.TcCoe Idealize.SL.Sem Idealize.ShloMosaic.StableHlo Cert.Bridge

variable (m : (ℓ : Loc nD τ sig) → Buf (Elt Ideal) ℓ) (ρ : Dev nD → PrngReg) (c : Dev nD)

/-- The 59 operations after region 0 are the edge aggregation of region 0's output over the local edge list. -/
theorem W3_v49 : W3 m ρ c (Proc.devRef .tc main_v49)
    = gcnPre (F := Ideal) (W2 m ρ c (Proc.devRef .tc main_v1)) (W2 m ρ c (Proc.devRef .tc main_arg1)) (W2 m ρ c (Proc.devRef .tc main_arg5)) := by
  show StableHlo.after hostOps1 (W2 m ρ c) (Proc.devRef .tc main_v49) = _
  generalize W2 m ρ c = Wp
  after_results_simp
  rfl

/-- The three operations after them take the maximum with zero. -/
theorem W5_v50 : W5 m ρ c (Proc.devRef .tc main_v50) = reluZ (W3 m ρ c (Proc.devRef .tc main_v49)) := by
  show StableHlo.after hostOps1_2 (StableHlo.after hostOps1_1 (W3 m ρ c)) (Proc.devRef .tc main_v50) = _
  generalize W3 m ρ c = Wq
  after_results_simp
  rfl

end Cert.KernelIdeal.Gen

end
-- ==== Proof.KGlue2.lean ====
/-
  The host stretch of the kernel program between regions 1 and 2, read operation by operation: the shared edge aggregation
  (`gcnPre`) of region 1's output over the global edge list, then the maximum with zero.
-/
import proofs.«406451_j67508295958856_1_alg».proof.Proof.KKeep
import proofs.«406451_j67508295958856_1_alg».proof.Proof.KTerms

set_option maxRecDepth 16384

noncomputable section

namespace Cert.KernelIdeal.Gen

open Idealize.ShloMosaic Idealize.ShloMosaic.TcCoe Idealize.SL.Sem Idealize.ShloMosaic.StableHlo Cert.Bridge

variable (m : (ℓ : Loc nD τ sig) → Buf (Elt Ideal) ℓ) (ρ : Dev nD → PrngReg) (c : Dev nD)

/-- The 59 operations after region 1 are the same aggregation, of region 1's output over the global edge list. -/
theorem W7_v100 : W7 m ρ c (Proc.devRef .tc main_v100)
    = gcnPre (F := Ideal) (W6 m ρ c (Proc.devRef .tc main_v52)) (W6 m ρ c (Proc.devRef .tc main_arg2)) (W6 m ρ c (Proc.devRef .tc main_arg7)) := by
  show StableHlo.after hostOps2 (W6 m ρ c) (Proc.devRef .tc main_v100) = _
  generalize W6 m ρ c = Wp
  after_results_simp
  rfl

/-- The three operations after them take the maximum with zero. -/
theorem W8_v101 : W8 m ρ c (Proc.devRef .tc main_v101) = reluZ (W7 m ρ c (Proc.devRef .tc main_v100)) := by
  show StableHlo.after hostOps2_1 (W7 m ρ c) (Proc.devRef .tc main_v101) = _
  generalize W7 m ρ c = Wq
  after_results_simp
  rfl

end Cert.KernelIdeal.Gen

end
-- ==== Proof.KArgs1.lean ====
/-
  Which buffers still hold their earlier contents at which segment boundary of the kernel program: an argument array is never
  written, and a region's output stays as it is until the next region or operation that writes it. One lemma per case the run's
  reading needs.
-/
import proofs.«406451_j67508295958856_1_alg».proof.Proof.KKeep

set_option maxRecDepth 16384

noncomputable section

namespace Cert.KernelIdeal.Gen

open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

set_option maxHeartbeats 2000000 in
/-- No host operation and no region before boundary 1 writes argument 0. -/
theorem W1_arg0 : W1 m ρ c (Proc.devRef .tc main_arg0) = m ((c : Thread nD τ).loc main_arg0) := by walk_back

set_option maxHeartbeats 2000000 in
/-- No host operation and no region before boundary 1 writes argument 4. -/
theorem W1_arg4 : W1 m ρ c (Proc.devRef .tc main_arg4) = m ((c : Thread nD τ).loc main_arg4) := by walk_back

set_option maxHeartbeats 2000000 in
/-- No host operation and no region before boundary 2 writes argument 1. -/
theorem W2_arg1 : W2 m ρ c (Proc.devRef .tc main_arg1) = m ((c : Thread nD τ).loc main_arg1) := by walk_back

set_option maxHeartbeats 2000000 in
/-- No host operation and no region before boundary 2 writes argument 5. -/
theorem W2_arg5 : W2 m ρ c (Proc.devRef .tc main_arg5) = m ((c : Thread nD τ).loc main_arg5) := by walk_back

set_option maxHeartbeats 2000000 in
/-- No host operation and no region before boundary 5 writes argument 0. -/
theorem W5_arg0 : W5 m ρ c (Proc.devRef .tc main_arg0) = m ((c : Thread nD τ).loc main_arg0) := by walk_back

set_option maxHeartbeats 2000000 in
/-- No host operation and no region before boundary 5 writes argument 6. -/
theorem W5_arg6 : W5 m ρ c (Proc.devRef .tc main_arg6) = m ((c : Thread nD τ).loc main_arg6) := by walk_back

set_option maxHeartbeats 2000000 in
/-- No host operation and no region before boundary 6 writes argument 2. -/
theorem W6_arg2 : W6 m ρ c (Proc.devRef .tc main_arg2) = m ((c : Thread nD τ).loc main_arg2) := by walk_back

set_option maxHeartbeats 2000000 in
/-- No host operation and no region before boundary 6 writes argument 7. -/
theorem W6_arg7 : W6 m ρ c (Proc.devRef .tc main_arg7) = m ((c : Thread nD τ).loc main_arg7) := by walk_back

set_option maxHeartbeats 2000000 in
/-- No host operation and no region before boundary 9 writes argument 8. -/
theorem W9_arg8 : W9 m ρ c (Proc.devRef .tc main_arg8) = m ((c : Thread nD τ).loc main_arg8) := by walk_back

set_option maxHeartbeats 2000000 in
/-- No host operation and no region before boundary 9 writes argument 9. -/
theorem W9_arg9 : W9 m ρ c (Proc.devRef .tc main_arg9) = m ((c : Thread nD τ).loc main_arg9) := by walk_back

set_option maxHeartbeats 2000000 in
/-- No host operation and no region before boundary 10 writes argument 10. -/
theorem W10_arg10 : W10 m ρ c (Proc.devRef .tc main_arg10) = m ((c : Thread nD τ).loc main_arg10) := by walk_back

set_option maxHeartbeats 2000000 in
/-- No host operation and no region before boundary 10 writes argument 11. -/
theorem W10_arg11 : W10 m ρ c (Proc.devRef .tc main_arg11) = m ((c : Thread nD τ).loc main_arg11) := by walk_back

end Cert.KernelIdeal.Gen

end
-- ==== Proof.KChain1.lean ====
/-
  The kernel program's first block, read off its segment boundaries: what region 3's output array holds, as a function of the
  argument arrays, GIVEN what each of regions 0 to 3 leaves in its output array (the hypotheses `hR0` … `hR3`: a dense layer of the
  arrays the region finds). Between the regions the host stretches are read operation by operation; an argument array met at a
  boundary is walked back to the launch memory.
-/
import proofs.«406451_j67508295958856_1_alg».proof.Proof.KGlue1
import proofs.«406451_j67508295958856_1_alg».proof.Proof.KGlue2
import proofs.«406451_j67508295958856_1_alg».proof.Proof.KArgs1

set_option maxRecDepth 16384

noncomputable section

namespace Cert.KernelIdeal.Gen

open Idealize.ShloMosaic Idealize.ShloMosaic.TcCoe Idealize.SL.Sem Idealize.ShloMosaic.StableHlo Cert.Bridge

variable (m : (ℓ : Loc nD τ sig) → Buf (Elt Ideal) ℓ) (ρ : Dev nD → PrngReg) (c : Dev nD)

/-! ## The first block: from the launch to region 3's output -/

/-- Region 0's bias operand is the zero vector the first host stretch writes. -/
theorem W1_v0 : W1 m ρ c (Proc.devRef .tc main_v0) = zb := by
  show StableHlo.after hostOps0 (W0 m ρ c) (Proc.devRef .tc main_v0) = _
  after_results_simp
  rfl

/-- Region 0 leaves `x · W11` (a dense layer with the zero bias). -/
theorem W2_v1 (hR0 : ∀ (V : (c : Dev nD) → (b : Ref sig .tc) → Buf (Elt Ideal) ((c : Thread nD τ).loc b)) (c : Dev nD), (dat0 (F := Ideal) V c).arrAt 3 cfg0.N = dense (V c main_arg0) (V c main_arg4) (V c main_v0)) :
    W2 m ρ c (Proc.devRef .tc main_v1) = dense (m ((c : Thread nD τ).loc main_arg0)) (m ((c : Thread nD τ).loc main_arg4)) zb := by
  refine (W2_arr m ρ c 3).trans ((hR0 (V1 m ρ) c).trans ?_)
  show dense (W1 m ρ c (Proc.devRef .tc main_arg0)) (W1 m ρ c (Proc.devRef .tc main_arg4)) (W1 m ρ c (Proc.devRef .tc main_v0)) = _
  rw [W1_v0 m ρ c, W1_arg0 m ρ c, W1_arg4 m ρ c]

/-- The stretch after region 0 ends by writing region 1's zero bias. -/
theorem W5_v51 : W5 m ρ c (Proc.devRef .tc main_v51) = zb := by
  show StableHlo.after hostOps1_2 (W4 m ρ c) (Proc.devRef .tc main_v51) = _
  generalize W4 m ρ c = Wp
  after_results_simp
  rfl

/-- The stretch after region 1 does not write the first layer's output. -/
theorem W8_v50 : W8 m ρ c (Proc.devRef .tc main_v50) = W6 m ρ c (Proc.devRef .tc main_v50) := by
  show StableHlo.after hostOps2_1 (StableHlo.after hostOps2 (W6 m ρ c)) (Proc.devRef .tc main_v50) = _
  generalize W6 m ρ c = Wp
  walk_steps

/-- The first graph-convolution layer, over the local edges. -/
theorem W5_x1 (hR0 : ∀ (V : (c : Dev nD) → (b : Ref sig .tc) → Buf (Elt Ideal) ((c : Thread nD τ).loc b)) (c : Dev nD), (dat0 (F := Ideal) V c).arrAt 3 cfg0.N = dense (V c main_arg0) (V c main_arg4) (V c main_v0)) :
    W5 m ρ c (Proc.devRef .tc main_v50) = kgcn (m ((c : Thread nD τ).loc main_arg0)) (m ((c : Thread nD τ).loc main_arg1)) (m ((c : Thread nD τ).loc main_arg4)) (m ((c : Thread nD τ).loc main_arg5)) := by
  rw [W5_v50 m ρ c, W3_v49 m ρ c, W2_v1 m ρ c hR0, W2_arg1 m ρ c, W2_arg5 m ρ c]
  rfl

/-- Region 1 leaves `x · W12`. -/
theorem W6_v52 (hR1 : ∀ (V : (c : Dev nD) → (b : Ref sig .tc) → Buf (Elt Ideal) ((c : Thread nD τ).loc b)) (c : Dev nD), (dat1 (F := Ideal) V c).arrAt 3 cfg1.N = dense (V c main_arg0) (V c main_arg6) (V c main_v51)) :
    W6 m ρ c (Proc.devRef .tc main_v52) = dense (m ((c : Thread nD τ).loc main_arg0)) (m ((c : Thread nD τ).loc main_arg6)) zb := by
  refine (W6_arr m ρ c 3).trans ((hR1 (V5 m ρ) c).trans ?_)
  show dense (W5 m ρ c (Proc.devRef .tc main_arg0)) (W5 m ρ c (Proc.devRef .tc main_arg6)) (W5 m ρ c (Proc.devRef .tc main_v51)) = _
  rw [W5_v51 m ρ c, W5_arg0 m ρ c, W5_arg6 m ρ c]

/-- The second graph-convolution layer, over the global edges. -/
theorem W8_x2 (hR1 : ∀ (V : (c : Dev nD) → (b : Ref sig .tc) → Buf (Elt Ideal) ((c : Thread nD τ).loc b)) (c : Dev nD), (dat1 (F := Ideal) V c).arrAt 3 cfg1.N = dense (V c main_arg0) (V c main_arg6) (V c main_v51)) :
    W8 m ρ c (Proc.devRef .tc main_v101) = kgcn (m ((c : Thread nD τ).loc main_arg0)) (m ((c : Thread nD τ).loc main_arg2)) (m ((c : Thread nD τ).loc main_arg6)) (m ((c : Thread nD τ).loc main_arg7)) := by
  rw [W8_v101 m ρ c, W7_v100 m ρ c, W6_v52 m ρ c hR1, W6_arg2 m ρ c, W6_arg7 m ρ c]
  rfl

/-- The two layers joined along the columns: region 2's input. -/
theorem W9_v102 (hR0 : ∀ (V : (c : Dev nD) → (b : Ref sig .tc) → Buf (Elt Ideal) ((c : Thread nD τ).loc b)) (c : Dev nD), (dat0 (F := Ideal) V c).arrAt 3 cfg0.N = dense (V c main_arg0) (V c main_arg4) (V c main_v0)) (hR1 : ∀ (V : (c : Dev nD) → (b : Ref sig .tc) → Buf (Elt Ideal) ((c : Thread nD τ).loc b)) (c : Dev nD), (dat1 (F := Ideal) V c).arrAt 3 cfg1.N = dense (V c main_arg0) (V c main_arg6) (V c main_v51)) :
    W9 m ρ c (Proc.devRef .tc main_v102) = kcat (kgcn (m ((c : Thread nD τ).loc main_arg0)) (m ((c : Thread nD τ).loc main_arg1)) (m ((c : Thread nD τ).loc main_arg4)) (m ((c : Thread nD τ).loc main_arg5))) (kgcn (m ((c : Thread nD τ).loc main_arg0)) (m ((c : Thread nD τ).loc main_arg2)) (m ((c : Thread nD τ).loc main_arg6)) (m ((c : Thread nD τ).loc main_arg7))) := by
  have e : W9 m ρ c (Proc.devRef .tc main_v102) = kcat (W8 m ρ c (Proc.devRef .tc main_v50)) (W8 m ρ c (Proc.devRef .tc main_v101)) := by
    show StableHlo.after hostOps2_2 (W8 m ρ c) (Proc.devRef .tc main_v102) = _
    generalize W8 m ρ c = Wp
    after_results
    rfl
  rw [e, W8_x2 m ρ c hR1, W8_v50 m ρ c, W6_keep m ρ c main_v50 (by decide), W5_x1 m ρ c hR0]

/-- Regions 2 and 3: the perceptron. -/
theorem W11_v104 (hR0 : ∀ (V : (c : Dev nD) → (b : Ref sig .tc) → Buf (Elt Ideal) ((c : Thread nD τ).loc b)) (c : Dev nD), (dat0 (F := Ideal) V c).arrAt 3 cfg0.N = dense (V c main_arg0) (V c main_arg4) (V c main_v0)) (hR1 : ∀ (V : (c : Dev nD) → (b : Ref sig .tc) → Buf (Elt Ideal) ((c : Thread nD τ).loc b)) (c : Dev nD), (dat1 (F := Ideal) V c).arrAt 3 cfg1.N = dense (V c main_arg0) (V c main_arg6) (V c main_v51)) (hR2 : ∀ (V : (c : Dev nD) → (b : Ref sig .tc) → Buf (Elt Ideal) ((c : Thread nD τ).loc b)) (c : Dev nD), (dat2 (F := Ideal) V c).arrAt 3 cfg2.N = denseRelu (V c main_v102) (V c main_arg8) (V c main_arg9)) (hR3 : ∀ (V : (c : Dev nD) → (b : Ref sig .tc) → Buf (Elt Ideal) ((c : Thread nD τ).loc b)) (c : Dev nD), (dat3 (F := Ideal) V c).arrAt 3 cfg3.N = dense (V c main_v103) (V c main_arg10) (V c main_arg11)) :
    W11 m ρ c (Proc.devRef .tc main_v104) = klayer (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W11_arr m ρ c 3).trans ((hR3 (V10 m ρ) c).trans ?_)
  show dense (W10 m ρ c (Proc.devRef .tc main_v103)) (W10 m ρ c (Proc.devRef .tc main_arg10)) (W10 m ρ c (Proc.devRef .tc main_arg11)) = _
  rw [W10_arg10 m ρ c, W10_arg11 m ρ c]
  rw [show W10 m ρ c (Proc.devRef .tc main_v103) = denseRelu (W9 m ρ c (Proc.devRef .tc main_v102)) (W9 m ρ c (Proc.devRef .tc main_arg8)) (W9 m ρ c (Proc.devRef .tc main_arg9)) from
    (W10_arr m ρ c 3).trans (hR2 (V9 m ρ) c)]
  rw [W9_v102 m ρ c hR0 hR1, W9_arg8 m ρ c, W9_arg9 m ρ c]
  rfl

end Cert.KernelIdeal.Gen

end
-- ==== Proof.KGlue3.lean ====
/-
  The host stretch of the kernel program between regions 4 and 5, read operation by operation: it is the shared edge aggregation
  (`gcnPre`) of region 4's output over the local edge list, then the maximum with zero.
-/
import proofs.«406451_j67508295958856_1_alg».proof.Proof.KKeep
import proofs.«406451_j67508295958856_1_alg».proof.Proof.KTerms

set_option maxRecDepth 16384

noncomputable section

namespace Cert.KernelIdeal.Gen

open Idealize.ShloMosaic Idealize.ShloMosaic.TcCoe Idealize.SL.Sem Idealize.ShloMosaic.StableHlo Cert.Bridge

variable (m : (ℓ : Loc nD τ sig) → Buf (Elt Ideal) ℓ) (ρ : Dev nD → PrngReg) (c : Dev nD)

/-- The 59 operations after region 4 are the edge aggregation of region 4's output over the local edge list. -/
theorem W14_v154 : W14 m ρ c (Proc.devRef .tc main_v154)
    = gcnPre (F := Ideal) (W13 m ρ c (Proc.devRef .tc main_v106)) (W13 m ρ c (Proc.devRef .tc main_arg1)) (W13 m ρ c (Proc.devRef .tc main_arg13)) := by
  show StableHlo.after hostOps5 (W13 m ρ c) (Proc.devRef .tc main_v154) = _
  generalize W13 m ρ c = Wp
  after_results_simp
  rfl

/-- The three operations after them take the maximum with zero. -/
theorem W16_v155 : W16 m ρ c (Proc.devRef .tc main_v155) = reluZ (W14 m ρ c (Proc.devRef .tc main_v154)) := by
  show StableHlo.after hostOps5_2 (StableHlo.after hostOps5_1 (W14 m ρ c)) (Proc.devRef .tc main_v155) = _
  generalize W14 m ρ c = Wq
  after_results_simp
  rfl

end Cert.KernelIdeal.Gen

end
-- ==== Proof.KGlue4.lean ====
/-
  The host stretch of the kernel program between regions 5 and 6, read operation by operation: the shared edge aggregation
  (`gcnPre`) of region 5's output over the global edge list, then the maximum with zero.
-/
import proofs.«406451_j67508295958856_1_alg».proof.Proof.KKeep
import proofs.«406451_j67508295958856_1_alg».proof.Proof.KTerms

set_option maxRecDepth 16384

noncomputable section

namespace Cert.KernelIdeal.Gen

open Idealize.ShloMosaic Idealize.ShloMosaic.TcCoe Idealize.SL.Sem Idealize.ShloMosaic.StableHlo Cert.Bridge

variable (m : (ℓ : Loc nD τ sig) → Buf (Elt Ideal) ℓ) (ρ : Dev nD → PrngReg) (c : Dev nD)

/-- The 59 operations after region 5 are the same aggregation, of region 5's output over the global edge list. -/
theorem W18_v205 : W18 m ρ c (Proc.devRef .tc main_v205)
    = gcnPre (F := Ideal) (W17 m ρ c (Proc.devRef .tc main_v157)) (W17 m ρ c (Proc.devRef .tc main_arg2)) (W17 m ρ c (Proc.devRef .tc main_arg15)) := by
  show StableHlo.after hostOps6 (W17 m ρ c) (Proc.devRef .tc main_v205) = _
  generalize W17 m ρ c = Wp
  after_results_simp
  rfl

/-- The three operations after them take the maximum with zero. -/
theorem W19_v206 : W19 m ρ c (Proc.devRef .tc main_v206) = reluZ (W18 m ρ c (Proc.devRef .tc main_v205)) := by
  show StableHlo.after hostOps6_1 (W18 m ρ c) (Proc.devRef .tc main_v206) = _
  generalize W18 m ρ c = Wq
  after_results_simp
  rfl

end Cert.KernelIdeal.Gen

end
-- ==== Proof.KArgs2.lean ====
/-
  Which buffers still hold their earlier contents at which segment boundary of the kernel program: an argument array is never
  written, and a region's output stays as it is until the next region or operation that writes it. One lemma per case the run's
  reading needs.
-/
import proofs.«406451_j67508295958856_1_alg».proof.Proof.KKeep

set_option maxRecDepth 16384

noncomputable section

namespace Cert.KernelIdeal.Gen

open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

set_option maxHeartbeats 2000000 in
/-- Between boundaries 11 and 12 nothing writes `main_v104`. -/
theorem W12_v104_from11 : W12 m ρ c (Proc.devRef .tc main_v104) = W11 m ρ c (Proc.devRef .tc main_v104) := by walk_back

set_option maxHeartbeats 2000000 in
/-- No host operation and no region before boundary 12 writes argument 12. -/
theorem W12_arg12 : W12 m ρ c (Proc.devRef .tc main_arg12) = m ((c : Thread nD τ).loc main_arg12) := by walk_back

set_option maxHeartbeats 2000000 in
/-- No host operation and no region before boundary 13 writes argument 1. -/
theorem W13_arg1 : W13 m ρ c (Proc.devRef .tc main_arg1) = m ((c : Thread nD τ).loc main_arg1) := by walk_back

set_option maxHeartbeats 2000000 in
/-- No host operation and no region before boundary 13 writes argument 13. -/
theorem W13_arg13 : W13 m ρ c (Proc.devRef .tc main_arg13) = m ((c : Thread nD τ).loc main_arg13) := by walk_back

set_option maxHeartbeats 2000000 in
/-- Between boundaries 11 and 16 nothing writes `main_v104`. -/
theorem W16_v104_from11 : W16 m ρ c (Proc.devRef .tc main_v104) = W11 m ρ c (Proc.devRef .tc main_v104) := by walk_back

set_option maxHeartbeats 2000000 in
/-- No host operation and no region before boundary 16 writes argument 14. -/
theorem W16_arg14 : W16 m ρ c (Proc.devRef .tc main_arg14) = m ((c : Thread nD τ).loc main_arg14) := by walk_back

set_option maxHeartbeats 2000000 in
/-- No host operation and no region before boundary 17 writes argument 2. -/
theorem W17_arg2 : W17 m ρ c (Proc.devRef .tc main_arg2) = m ((c : Thread nD τ).loc main_arg2) := by walk_back

set_option maxHeartbeats 2000000 in
/-- No host operation and no region before boundary 17 writes argument 15. -/
theorem W17_arg15 : W17 m ρ c (Proc.devRef .tc main_arg15) = m ((c : Thread nD τ).loc main_arg15) := by walk_back

set_option maxHeartbeats 2000000 in
/-- No host operation and no region before boundary 20 writes argument 16. -/
theorem W20_arg16 : W20 m ρ c (Proc.devRef .tc main_arg16) = m ((c : Thread nD τ).loc main_arg16) := by walk_back

set_option maxHeartbeats 2000000 in
/-- No host operation and no region before boundary 20 writes argument 17. -/
theorem W20_arg17 : W20 m ρ c (Proc.devRef .tc main_arg17) = m ((c : Thread nD τ).loc main_arg17) := by walk_back

set_option maxHeartbeats 2000000 in
/-- No host operation and no region before boundary 21 writes argument 18. -/
theorem W21_arg18 : W21 m ρ c (Proc.devRef .tc main_arg18) = m ((c : Thread nD τ).loc main_arg18) := by walk_back

set_option maxHeartbeats 2000000 in
/-- No host operation and no region before boundary 21 writes argument 19. -/
theorem W21_arg19 : W21 m ρ c (Proc.devRef .tc main_arg19) = m ((c : Thread nD τ).loc main_arg19) := by walk_back

end Cert.KernelIdeal.Gen

end
-- ==== Proof.KChain2.lean ====
/-
  The kernel program's second block, read off its segment boundaries: what region 7's output array holds, as a function of the
  argument arrays and of the first block's output (the contents of main_v209 at the boundary after region 3), GIVEN what each of regions 4 to 7 leaves in its output array (the hypotheses `hR4` … `hR7`: a dense layer of the
  arrays the region finds). Between the regions the host stretches are read operation by operation; an argument array met at a
  boundary is walked back to the launch memory.
-/
import proofs.«406451_j67508295958856_1_alg».proof.Proof.KGlue3
import proofs.«406451_j67508295958856_1_alg».proof.Proof.KGlue4
import proofs.«406451_j67508295958856_1_alg».proof.Proof.KArgs2

set_option maxRecDepth 16384

noncomputable section

namespace Cert.KernelIdeal.Gen

open Idealize.ShloMosaic Idealize.ShloMosaic.TcCoe Idealize.SL.Sem Idealize.ShloMosaic.StableHlo Cert.Bridge

variable (m : (ℓ : Loc nD τ sig) → Buf (Elt Ideal) ℓ) (ρ : Dev nD → PrngReg) (c : Dev nD)

/-! ## The first block: from the launch to region 3's output -/

/-- Region 4's bias operand is the zero vector the host stretch before it writes. -/
theorem W12_v105 : W12 m ρ c (Proc.devRef .tc main_v105) = zb := by
  show StableHlo.after hostOps4 (W11 m ρ c) (Proc.devRef .tc main_v105) = _
  after_results_simp
  rfl

/-- Region 4 leaves `x · W22` (a dense layer with the zero bias). -/
theorem W13_v106 (hR4 : ∀ (V : (c : Dev nD) → (b : Ref sig .tc) → Buf (Elt Ideal) ((c : Thread nD τ).loc b)) (c : Dev nD), (dat4 (F := Ideal) V c).arrAt 3 cfg4.N = dense (V c main_v104) (V c main_arg12) (V c main_v105)) :
    W13 m ρ c (Proc.devRef .tc main_v106) = dense (W11 m ρ c (Proc.devRef .tc main_v104)) (m ((c : Thread nD τ).loc main_arg12)) zb := by
  refine (W13_arr m ρ c 3).trans ((hR4 (V12 m ρ) c).trans ?_)
  show dense (W12 m ρ c (Proc.devRef .tc main_v104)) (W12 m ρ c (Proc.devRef .tc main_arg12)) (W12 m ρ c (Proc.devRef .tc main_v105)) = _
  rw [W12_v105 m ρ c, W12_v104_from11 m ρ c, W12_arg12 m ρ c]

/-- The stretch after region 4 ends by writing region 5's zero bias. -/
theorem W16_v156 : W16 m ρ c (Proc.devRef .tc main_v156) = zb := by
  show StableHlo.after hostOps5_2 (W15 m ρ c) (Proc.devRef .tc main_v156) = _
  generalize W15 m ρ c = Wp
  after_results_simp
  rfl

/-- The stretch after region 5 does not write the first layer's output. -/
theorem W19_v155 : W19 m ρ c (Proc.devRef .tc main_v155) = W17 m ρ c (Proc.devRef .tc main_v155) := by
  show StableHlo.after hostOps6_1 (StableHlo.after hostOps6 (W17 m ρ c)) (Proc.devRef .tc main_v155) = _
  generalize W17 m ρ c = Wp
  walk_steps

/-- The first graph-convolution layer, over the local edges. -/
theorem W16_x1 (hR4 : ∀ (V : (c : Dev nD) → (b : Ref sig .tc) → Buf (Elt Ideal) ((c : Thread nD τ).loc b)) (c : Dev nD), (dat4 (F := Ideal) V c).arrAt 3 cfg4.N = dense (V c main_v104) (V c main_arg12) (V c main_v105)) :
    W16 m ρ c (Proc.devRef .tc main_v155) = kgcn (W11 m ρ c (Proc.devRef .tc main_v104)) (m ((c : Thread nD τ).loc main_arg1)) (m ((c : Thread nD τ).loc main_arg12)) (m ((c : Thread nD τ).loc main_arg13)) := by
  rw [W16_v155 m ρ c, W14_v154 m ρ c, W13_v106 m ρ c hR4, W13_arg1 m ρ c, W13_arg13 m ρ c]
  rfl

/-- Region 5 leaves `x · W12`. -/
theorem W17_v157 (hR5 : ∀ (V : (c : Dev nD) → (b : Ref sig .tc) → Buf (Elt Ideal) ((c : Thread nD τ).loc b)) (c : Dev nD), (dat5 (F := Ideal) V c).arrAt 3 cfg5.N = dense (V c main_v104) (V c main_arg14) (V c main_v156)) :
    W17 m ρ c (Proc.devRef .tc main_v157) = dense (W11 m ρ c (Proc.devRef .tc main_v104)) (m ((c : Thread nD τ).loc main_arg14)) zb := by
  refine (W17_arr m ρ c 3).trans ((hR5 (V16 m ρ) c).trans ?_)
  show dense (W16 m ρ c (Proc.devRef .tc main_v104)) (W16 m ρ c (Proc.devRef .tc main_arg14)) (W16 m ρ c (Proc.devRef .tc main_v156)) = _
  rw [W16_v156 m ρ c, W16_v104_from11 m ρ c, W16_arg14 m ρ c]

/-- The second graph-convolution layer, over the global edges. -/
theorem W19_x2 (hR5 : ∀ (V : (c : Dev nD) → (b : Ref sig .tc) → Buf (Elt Ideal) ((c : Thread nD τ).loc b)) (c : Dev nD), (dat5 (F := Ideal) V c).arrAt 3 cfg5.N = dense (V c main_v104) (V c main_arg14) (V c main_v156)) :
    W19 m ρ c (Proc.devRef .tc main_v206) = kgcn (W11 m ρ c (Proc.devRef .tc main_v104)) (m ((c : Thread nD τ).loc main_arg2)) (m ((c : Thread nD τ).loc main_arg14)) (m ((c : Thread nD τ).loc main_arg15)) := by
  rw [W19_v206 m ρ c, W18_v205 m ρ c, W17_v157 m ρ c hR5, W17_arg2 m ρ c, W17_arg15 m ρ c]
  rfl

/-- The two layers joined along the columns: region 6's input. -/
theorem W20_v207 (hR4 : ∀ (V : (c : Dev nD) → (b : Ref sig .tc) → Buf (Elt Ideal) ((c : Thread nD τ).loc b)) (c : Dev nD), (dat4 (F := Ideal) V c).arrAt 3 cfg4.N = dense (V c main_v104) (V c main_arg12) (V c main_v105)) (hR5 : ∀ (V : (c : Dev nD) → (b : Ref sig .tc) → Buf (Elt Ideal) ((c : Thread nD τ).loc b)) (c : Dev nD), (dat5 (F := Ideal) V c).arrAt 3 cfg5.N = dense (V c main_v104) (V c main_arg14) (V c main_v156)) :
    W20 m ρ c (Proc.devRef .tc main_v207) = kcat (kgcn (W11 m ρ c (Proc.devRef .tc main_v104)) (m ((c : Thread nD τ).loc main_arg1)) (m ((c : Thread nD τ).loc main_arg12)) (m ((c : Thread nD τ).loc main_arg13))) (kgcn (W11 m ρ c (Proc.devRef .tc main_v104)) (m ((c : Thread nD τ).loc main_arg2)) (m ((c : Thread nD τ).loc main_arg14)) (m ((c : Thread nD τ).loc main_arg15))) := by
  have e : W20 m ρ c (Proc.devRef .tc main_v207) = kcat (W19 m ρ c (Proc.devRef .tc main_v155)) (W19 m ρ c (Proc.devRef .tc main_v206)) := by
    show StableHlo.after hostOps6_2 (W19 m ρ c) (Proc.devRef .tc main_v207) = _
    generalize W19 m ρ c = Wp
    after_results
    rfl
  rw [e, W19_x2 m ρ c hR5, W19_v155 m ρ c, W17_keep m ρ c main_v155 (by decide), W16_x1 m ρ c hR4]

/-- Regions 6 and 7: the perceptron. -/
theorem W22_v209 (hR4 : ∀ (V : (c : Dev nD) → (b : Ref sig .tc) → Buf (Elt Ideal) ((c : Thread nD τ).loc b)) (c : Dev nD), (dat4 (F := Ideal) V c).arrAt 3 cfg4.N = dense (V c main_v104) (V c main_arg12) (V c main_v105)) (hR5 : ∀ (V : (c : Dev nD) → (b : Ref sig .tc) → Buf (Elt Ideal) ((c : Thread nD τ).loc b)) (c : Dev nD), (dat5 (F := Ideal) V c).arrAt 3 cfg5.N = dense (V c main_v104) (V c main_arg14) (V c main_v156)) (hR6 : ∀ (V : (c : Dev nD) → (b : Ref sig .tc) → Buf (Elt Ideal) ((c : Thread nD τ).loc b)) (c : Dev nD), (dat6 (F := Ideal) V c).arrAt 3 cfg6.N = denseRelu (V c main_v207) (V c main_arg16) (V c main_arg17)) (hR7 : ∀ (V : (c : Dev nD) → (b : Ref sig .tc) → Buf (Elt Ideal) ((c : Thread nD τ).loc b)) (c : Dev nD), (dat7 (F := Ideal) V c).arrAt 3 cfg7.N = dense (V c main_v208) (V c main_arg18) (V c main_arg19)) :
    W22 m ρ c (Proc.devRef .tc main_v209) = klayer (W11 m ρ c (Proc.devRef .tc main_v104)) (m ((c : Thread nD τ).loc main_arg1)) (m ((c : Thread nD τ).loc main_arg2)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine (W22_arr m ρ c 3).trans ((hR7 (V21 m ρ) c).trans ?_)
  show dense (W21 m ρ c (Proc.devRef .tc main_v208)) (W21 m ρ c (Proc.devRef .tc main_arg18)) (W21 m ρ c (Proc.devRef .tc main_arg19)) = _
  rw [W21_arg18 m ρ c, W21_arg19 m ρ c]
  rw [show W21 m ρ c (Proc.devRef .tc main_v208) = denseRelu (W20 m ρ c (Proc.devRef .tc main_v207)) (W20 m ρ c (Proc.devRef .tc main_arg16)) (W20 m ρ c (Proc.devRef .tc main_arg17)) from
    (W21_arr m ρ c 3).trans (hR6 (V20 m ρ) c)]
  rw [W20_v207 m ρ c hR4 hR5, W20_arg16 m ρ c, W20_arg17 m ρ c]
  rfl

end Cert.KernelIdeal.Gen

end
-- ==== Proof.KArgs3.lean ====
/-
  Which buffers still hold their earlier contents at which segment boundary of the kernel program: an argument array is never
  written, and a region's output stays as it is until the next region or operation that writes it. One lemma per case the run's
  reading needs.
-/
import proofs.«406451_j67508295958856_1_alg».proof.Proof.KKeep

set_option maxRecDepth 16384

noncomputable section

namespace Cert.KernelIdeal.Gen

open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

set_option maxHeartbeats 2000000 in
/-- No host operation and no region before boundary 22 writes argument 3. -/
theorem W22_arg3 : W22 m ρ c (Proc.devRef .tc main_arg3) = m ((c : Thread nD τ).loc main_arg3) := by walk_back

set_option maxHeartbeats 2000000 in
/-- No host operation and no region before boundary 24 writes argument 20. -/
theorem W24_arg20 : W24 m ρ c (Proc.devRef .tc main_arg20) = m ((c : Thread nD τ).loc main_arg20) := by walk_back

set_option maxHeartbeats 2000000 in
/-- No host operation and no region before boundary 24 writes argument 21. -/
theorem W24_arg21 : W24 m ρ c (Proc.devRef .tc main_arg21) = m ((c : Thread nD τ).loc main_arg21) := by walk_back

set_option maxHeartbeats 2000000 in
/-- Between boundaries 22 and 23 nothing writes `main_v209`. -/
theorem W23_v209_from22 : W23 m ρ c (Proc.devRef .tc main_v209) = W22 m ρ c (Proc.devRef .tc main_v209) := by walk_back

end Cert.KernelIdeal.Gen

end
-- ==== Proof.KChain3.lean ====
/-
  The kernel program's last part, read off its segment boundaries — the label column, the pooling region, the closing host stretch —
  and the three parts composed: the result buffer at the last boundary is ONE function (`kout`) of the 22 argument arrays, GIVEN what
  each of the nine regions leaves in its output array (`hR0` … `hR8`).
-/
import proofs.«406451_j67508295958856_1_alg».proof.Proof.KChain1
import proofs.«406451_j67508295958856_1_alg».proof.Proof.KChain2
import proofs.«406451_j67508295958856_1_alg».proof.Proof.KArgs3

set_option maxRecDepth 16384

noncomputable section

namespace Cert.KernelIdeal.Gen

open Idealize.ShloMosaic Idealize.ShloMosaic.TcCoe Idealize.SL.Sem Idealize.ShloMosaic.StableHlo Cert.Bridge

variable (m : (ℓ : Loc nD τ sig) → Buf (Elt Ideal) ℓ) (ρ : Dev nD → PrngReg) (c : Dev nD)

/-! ## The pooling region and the closing stretch -/

/-- The stretch before region 8 reshapes the labels into a column. -/
theorem W23_v210 : W23 m ρ c (Proc.devRef .tc main_v210) = kcol (m ((c : Thread nD τ).loc main_arg3)) := by
  show StableHlo.after hostOps8 (W22 m ρ c) (Proc.devRef .tc main_v210) = _
  after_results_simp
  rw [W22_arg3 m ρ c]
  rfl

/-- Region 8 leaves the per-label column sums (transposed) of the second block's output. -/
theorem W24_v211 (hR8 : ∀ (V : (c : Dev nD) → (b : Ref sig .tc) → Buf (Elt Ideal) ((c : Thread nD τ).loc b)) (c : Dev nD), (dat8 (F := Ideal) V c).arrAt 2 cfg8.N = poolT (V c main_v210) (V c main_v209)) :
    W24 m ρ c (Proc.devRef .tc main_v211) = poolT (kcol (m ((c : Thread nD τ).loc main_arg3))) (W22 m ρ c (Proc.devRef .tc main_v209)) := by
  refine (W24_arr m ρ c 2).trans ((hR8 (V23 m ρ) c).trans ?_)
  show poolT (W23 m ρ c (Proc.devRef .tc main_v210)) (W23 m ρ c (Proc.devRef .tc main_v209)) = _
  rw [W23_v210 m ρ c, W23_v209_from22 m ρ c]

/-- The closing stretch: the program's result buffer at the last boundary. -/
theorem W25_v217 (hR8 : ∀ (V : (c : Dev nD) → (b : Ref sig .tc) → Buf (Elt Ideal) ((c : Thread nD τ).loc b)) (c : Dev nD), (dat8 (F := Ideal) V c).arrAt 2 cfg8.N = poolT (V c main_v210) (V c main_v209)) :
    W25 m ρ c (Proc.devRef .tc main_v217) = ktail (poolT (kcol (m ((c : Thread nD τ).loc main_arg3))) (W22 m ρ c (Proc.devRef .tc main_v209))) (m ((c : Thread nD τ).loc main_arg20)) (m ((c : Thread nD τ).loc main_arg21)) := by
  show StableHlo.after hostOps9 (W24 m ρ c) (Proc.devRef .tc main_v217) = _
  after_results_simp
  rw [W24_v211 m ρ c hR8, W24_arg20 m ρ c, W24_arg21 m ρ c]
  rfl

/-! ## The whole program -/

/-- The result buffer at the last boundary is the network's function of the 22 argument arrays. -/
theorem W25_kout (hR0 : ∀ (V : (c : Dev nD) → (b : Ref sig .tc) → Buf (Elt Ideal) ((c : Thread nD τ).loc b)) (c : Dev nD), (dat0 (F := Ideal) V c).arrAt 3 cfg0.N = dense (V c main_arg0) (V c main_arg4) (V c main_v0))
    (hR1 : ∀ (V : (c : Dev nD) → (b : Ref sig .tc) → Buf (Elt Ideal) ((c : Thread nD τ).loc b)) (c : Dev nD), (dat1 (F := Ideal) V c).arrAt 3 cfg1.N = dense (V c main_arg0) (V c main_arg6) (V c main_v51))
    (hR2 : ∀ (V : (c : Dev nD) → (b : Ref sig .tc) → Buf (Elt Ideal) ((c : Thread nD τ).loc b)) (c : Dev nD), (dat2 (F := Ideal) V c).arrAt 3 cfg2.N = denseRelu (V c main_v102) (V c main_arg8) (V c main_arg9))
    (hR3 : ∀ (V : (c : Dev nD) → (b : Ref sig .tc) → Buf (Elt Ideal) ((c : Thread nD τ).loc b)) (c : Dev nD), (dat3 (F := Ideal) V c).arrAt 3 cfg3.N = dense (V c main_v103) (V c main_arg10) (V c main_arg11))
    (hR4 : ∀ (V : (c : Dev nD) → (b : Ref sig .tc) → Buf (Elt Ideal) ((c : Thread nD τ).loc b)) (c : Dev nD), (dat4 (F := Ideal) V c).arrAt 3 cfg4.N = dense (V c main_v104) (V c main_arg12) (V c main_v105))
    (hR5 : ∀ (V : (c : Dev nD) → (b : Ref sig .tc) → Buf (Elt Ideal) ((c : Thread nD τ).loc b)) (c : Dev nD), (dat5 (F := Ideal) V c).arrAt 3 cfg5.N = dense (V c main_v104) (V c main_arg14) (V c main_v156))
    (hR6 : ∀ (V : (c : Dev nD) → (b : Ref sig .tc) → Buf (Elt Ideal) ((c : Thread nD τ).loc b)) (c : Dev nD), (dat6 (F := Ideal) V c).arrAt 3 cfg6.N = denseRelu (V c main_v207) (V c main_arg16) (V c main_arg17))
    (hR7 : ∀ (V : (c : Dev nD) → (b : Ref sig .tc) → Buf (Elt Ideal) ((c : Thread nD τ).loc b)) (c : Dev nD), (dat7 (F := Ideal) V c).arrAt 3 cfg7.N = dense (V c main_v208) (V c main_arg18) (V c main_arg19))
    (hR8 : ∀ (V : (c : Dev nD) → (b : Ref sig .tc) → Buf (Elt Ideal) ((c : Thread nD τ).loc b)) (c : Dev nD), (dat8 (F := Ideal) V c).arrAt 2 cfg8.N = poolT (V c main_v210) (V c main_v209)) :
    W25 m ρ c (Proc.devRef .tc main_v217) = kout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  rw [W25_v217 m ρ c hR8, W22_v209 m ρ c hR4 hR5 hR6 hR7, W11_v104 m ρ c hR0 hR1 hR2 hR3]
  rfl

end Cert.KernelIdeal.Gen

end
-- ==== Proof.DenseA.lean ====
/-
  Regions 0 and 1 of the kernel program are dense layers over 128 input columns. Each runs ten grid points; point `t`
  stages rows `5000 t … 5000 t + 4999` of the input array, the whole 128 × 128 weight matrix and the whole bias vector,
  and writes back rows `5000 t …` of the output array. At the ideal instance the body's value at row `p`, column `q`
  of a block is `(∑ k, x p k · w k q) + b q` (the truncations to bf16 are the identity, the matrix product into the
  zero accumulator is the plain sum over the inner index, the bias is one row repeated down the block). Since row `p`
  of block `t` is row `5000 t + p` of the array, each block written back is the block of ONE whole-array function,
  `Cert.Bridge.dense` of the three arrays as the region finds them; the ten blocks cover the 50000 rows (row `r` is in
  block `r / 5000`), so the output array after the region is that function.
-/
import proofs.«406451_j67508295958856_1_alg».proof.Proof.Gen.KernelIdeal.Frame
import proofs.«406451_j67508295958856_1_alg».proof.Proof.Spec
import Idealize.ShloMosaic.Lib.Pipeline.Value
import Idealize.ShloMosaic.PureOps.Ideal.Laws
import Idealize.ShloMosaic.Lib.ValueIdx
import Idealize.ShloMosaic.Lib.ValueLayout
noncomputable section
namespace Cert.KernelIdeal.RegVal
open Idealize.ShloMosaic Idealize.ShloMosaic.TcCoe Idealize.SL.Sem Cert.KernelIdeal Cert.KernelIdeal.Gen Cert.Bridge
variable (V : (c : Dev nD) → (b : Ref sig .tc) → Buf (Elt Ideal) ((c : Thread nD τ).loc b))

namespace DenseA

/-! ## The body's arithmetic at an entry

The contraction of the dot record is over the second axis of the left operand and the first axis of the right
operand; the four lemmas below say which coordinate of the output index and of the contraction index each operand
index carries. -/

theorem lhs_dense_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dense_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dense_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dense_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a 5000 × 128 block with a 128 × 128 matrix into the zero accumulator, at row `p` and column `q`:
    the sum over the 128 inner positions of the products. -/
theorem matmul_dense_apply (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ValueIdx.ix2 p q)
      = ∑ k : Fin 128, x (ValueIdx.ix2 p k) * w (ValueIdx.ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ValueIdx.ix2 p q) ((ValueIdx.contrEquiv1 dot_S5000x128_S128x128_S5000x128_1_0_0_1_n_n 128 rfl rfl).symm k) = ValueIdx.ix2 p k := funext fun a => Fin.ext (by
    match a with
    | ⟨0, _⟩ => exact lhs_dense_0 _ _
    | ⟨1, _⟩ => exact (lhs_dense_1 _ _).trans hk)
  have er : dot_S5000x128_S128x128_S5000x128_1_0_0_1_n_n.rhsIdx (ValueIdx.ix2 p q) ((ValueIdx.contrEquiv1 dot_S5000x128_S128x128_S5000x128_1_0_0_1_n_n 128 rfl rfl).symm k) = ValueIdx.ix2 k q := funext fun a => Fin.ext (by
    match a with
    | ⟨0, _⟩ => exact (rhs_dense_0 _ _).trans hk
    | ⟨1, _⟩ => exact rhs_dense_1 _ _)
  rw [el, er]

/-- The dense layer at row `r`, column `q`, written out. -/
theorem dense_apply (x : FVec Ideal SN128 .f32) (w : FVec Ideal SW128 .f32) (b : FVec Ideal SB128 .f32) (r : Fin 50000) (q : Fin 128) :
    dense x w b (ValueIdx.ix2 r q) = (∑ k : Fin 128, x (ValueIdx.ix2 r k) * w (ValueIdx.ix2 k q)) + b (ValueIdx.ix1 q) := rfl

/-! ## From the blocks to the array -/

theorem hz2 : (![0, 0] : Fin 2 → Nat) = fun _ => 0 := funext fun a => by fin_cases a <;> rfl
theorem hz1 : (![0] : Fin 1 → Nat) = fun _ => 0 := funext fun a => by fin_cases a; rfl

/-! # Region 0 -/

/-- The body of region 0 at row `p`, column `q` of its block: the row of the input block against the column of
    the weight matrix, plus the bias at `q` (the truncations are the identity on extended reals; the bias vector
    is laid out as one row and repeated down the 5000 rows). -/
theorem pay0_apply (x : Vec Ideal S5000x128 .f32) (w : Vec Ideal S128x128 .f32) (b : Vec Ideal S128 .f32) (p : Fin 5000) (q : Fin 128) :
    (k0_pay1 (F := Ideal) x w b) (ValueIdx.ix2 p q)
      = (∑ k : Fin 128, x (ValueIdx.ix2 p k) * w (ValueIdx.ix2 k q)) + b (ValueIdx.ix1 q) := by
  unfold k0_pay1
  refine (ValueIdx.addf_apply _ _ _).trans ?_
  refine congrArg₂ (· + ·) ((matmul_dense_apply _ _ p q).trans ?_) ?_
  · rfl
  · refine (ValueIdx.broadcastTo_1b_ab_apply _ _ p q).trans ?_
    refine (ValueIdx.shapeCast_a_1a_apply _ _ 0 q).trans ?_
    rw [shapeCast_self]

/-- If row `p` of a block is row `r` of the input array, and the block's weight column and bias entry at `q` are the
    arrays', then the body's value at `(p, q)` is the dense layer of the arrays at `(r, q)`. -/
theorem pay0_eq_dense (X : Vec Ideal S5000x128 .f32) (W : Vec Ideal S128x128 .f32) (B : Vec Ideal S128 .f32)
    (x : FVec Ideal SN128 .f32) (w : FVec Ideal SW128 .f32) (b : FVec Ideal SB128 .f32) (p : Fin 5000) (q : Fin 128) (r : Fin 50000)
    (hX : ∀ k : Fin 128, X (ValueIdx.ix2 p k) = x (ValueIdx.ix2 r k))
    (hW : ∀ k : Fin 128, W (ValueIdx.ix2 k q) = w (ValueIdx.ix2 k q))
    (hB : B (ValueIdx.ix1 q) = b (ValueIdx.ix1 q)) :
    (k0_pay1 (F := Ideal) X W B) (ValueIdx.ix2 p q) = dense x w b (ValueIdx.ix2 r q) := by
  rw [pay0_apply, dense_apply, hB]
  exact congrArg (· + b (ValueIdx.ix1 q)) (Finset.sum_congr rfl fun k _ => by rw [hX k, hW k])

/-- The block indices of region 0's four windows at grid point `t`: the input rows and the output rows move
    with the point, the weight matrix and the bias vector stay whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row `p`, column `k` of the input block at point `t` is row `5000 t + p` of the input array. -/
theorem read0_x (c : Dev nD) (t : Fin cfg0.N) (p : Fin 5000) (k : Fin 128) (h : 5000 * t.val + p.val < 50000) :
    (iblk0 V c 0 t : Vec Ideal S5000x128 .f32) (ValueIdx.ix2 p k)
      = (V c main_arg0 : FVec Ideal SN128 .f32) (ValueIdx.ix2 (⟨5000 * t.val + p.val, h⟩ : Fin 50000) k) := by
  obtain ⟨e00, e01, -, -, -, -, -⟩ := idx_facts0 t
  show V c main_arg0 (((cfg0.win 0).blk t).view.emb (ValueIdx.ix2 p k)) = V c main_arg0 _
  refine congrArg (V c main_arg0) ?_
  funext a; apply Fin.ext
  match a with
  | ⟨0, _⟩ => show win0_0.index t (0 : Fin 2) * 5000 + 1 * p.val = 5000 * t.val + p.val; omega
  | ⟨1, _⟩ => show win0_0.index t (1 : Fin 2) * 128 + 1 * k.val = k.val; omega

/-- The weight block at every point is the whole weight matrix. -/
theorem read0_w (c : Dev nD) (t : Fin cfg0.N) (k : Fin 128) (q : Fin 128) :
    (iblk0 V c 1 t : Vec Ideal S128x128 .f32) (ValueIdx.ix2 k q)
      = (V c main_arg4 : FVec Ideal SW128 .f32) (ValueIdx.ix2 k q) := by
  obtain ⟨-, -, e10, e11, -, -, -⟩ := idx_facts0 t
  show V c main_arg4 (((cfg0.win 1).blk t).view.emb (ValueIdx.ix2 k q)) = V c main_arg4 _
  refine congrArg (V c main_arg4) ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- The bias block at every point is the whole bias vector. -/
theorem read0_b (c : Dev nD) (t : Fin cfg0.N) (q : Fin 128) :
    (iblk0 V c 2 t : Vec Ideal S128 .f32) (ValueIdx.ix1 q)
      = (V c main_v0 : FVec Ideal SB128 .f32) (ValueIdx.ix1 q) := by
  obtain ⟨-, -, -, -, e20, -, -⟩ := idx_facts0 t
  show V c main_v0 (((cfg0.win 2).blk t).view.emb (ValueIdx.ix1 q)) = V c main_v0 _
  refine congrArg (V c main_v0) ?_
  funext a; apply Fin.ext
  match a with
  | ⟨0, _⟩ => show win0_2.index t (0 : Fin 1) * 128 + 1 * q.val = q.val; omega

/-- What point `t` writes back is block `t` of the dense layer of the three arrays as the region finds them. -/
theorem flushed0_eq (c : Dev nD) (t : Fin cfg0.N) :
    (dat0 (F := Ideal) V c).flushed 3 t
      = ((cfg0.win 3).blk t).view.read (Elt Ideal) (dense (V c main_arg0) (V c main_arg4) (V c main_v0)) := by
  show (cfg0.win 3).cut (grid0.coords t) ((dat0 (F := Ideal) V c).after 3 t) = _
  rw [after0_3]
  unfold out0_3
  rw [View.canon_unit_zero hz2]
  simp only [View.ld_unit_zero (S := S5000x128) hz2, View.ld_unit_zero (S := S128x128) hz2, View.ld_unit_zero (S := S128) hz1]
  funext j
  have hp : (j 0).val < 5000 := (j 0).isLt
  have hq : (j 1).val < 128 := (j 1).isLt
  have hN : t.val < 10 := Nat.lt_of_lt_of_eq t.isLt N_0
  obtain ⟨-, -, -, -, -, e30, e31⟩ := idx_facts0 t
  have hr : 5000 * t.val + (j 0).val < 50000 := by omega
  have hL : (win0 3).xinj (grid0.coords t) j = ValueIdx.ix2 (⟨(j 0).val, hp⟩ : Fin 5000) (⟨(j 1).val, hq⟩ : Fin 128) := by
    funext a; apply Fin.ext
    match a with
    | ⟨0, _⟩ => rfl
    | ⟨1, _⟩ => rfl
  have hR : ((cfg0.win 3).blk t).view.emb j = ValueIdx.ix2 (⟨5000 * t.val + (j 0).val, hr⟩ : Fin 50000) (⟨(j 1).val, hq⟩ : Fin 128) := by
    funext a; apply Fin.ext
    match a with
    | ⟨0, _⟩ => show win0_3.index t (0 : Fin 2) * 5000 + 1 * (j 0).val = 5000 * t.val + (j 0).val; omega
    | ⟨1, _⟩ => show win0_3.index t (1 : Fin 2) * 128 + 1 * (j 1).val = (j 1).val; omega
  show k0_pay1 (F := Ideal) (iblk0 V c 0 t) (iblk0 V c 1 t) (iblk0 V c 2 t) ((win0 3).xinj (grid0.coords t) j)
    = dense (V c main_arg0) (V c main_arg4) (V c main_v0) (((cfg0.win 3).blk t).view.emb j)
  rw [hL, hR]
  exact pay0_eq_dense (iblk0 V c 0 t) (iblk0 V c 1 t) (iblk0 V c 2 t) (V c main_arg0) (V c main_arg4) (V c main_v0)
    ⟨(j 0).val, hp⟩ ⟨(j 1).val, hq⟩ ⟨5000 * t.val + (j 0).val, hr⟩
    (fun k => read0_x V c t ⟨(j 0).val, hp⟩ k hr) (fun k => read0_w V c t k ⟨(j 1).val, hq⟩) (read0_b V c t ⟨(j 1).val, hq⟩)

/-- An index of the output array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1).slice (win0_3.rect t)).set ↔ _
  rw [View.set_slice_whole, Rect.mem_set_unit]
  exact Iff.rfl

/-- Every row `r` of the output array lies in the block of the point `r / 5000`, which writes back. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hlt : (i 0).val / 5000 < cfg0.N := by rw [show cfg0.N = 10 from N_0]; omega
  obtain ⟨-, -, -, -, -, e30, e31⟩ := idx_facts0 ⟨(i 0).val / 5000, hlt⟩
  have e30' : win0_3.index ⟨(i 0).val / 5000, hlt⟩ (0 : Fin 2) = (i 0).val / 5000 := e30
  refine ⟨⟨(i 0).val / 5000, hlt⟩, flush0_3 _, ?_⟩
  rw [mem_blk0]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [e30']; omega
  | ⟨1, _⟩ =>
    show win0_3.index ⟨(i 0).val / 5000, hlt⟩ (1 : Fin 2) * 128 ≤ (i 1).val ∧ (i 1).val < win0_3.index ⟨(i 0).val / 5000, hlt⟩ (1 : Fin 2) * 128 + 128
    rw [e31]; omega

/-! # Region 1 -/

/-- The body of region 1 at row `p`, column `q` of its block: the row of the input block against the column of
    the weight matrix, plus the bias at `q` (the truncations are the identity on extended reals; the bias vector
    is laid out as one row and repeated down the 5000 rows). -/
theorem pay1_apply (x : Vec Ideal S5000x128 .f32) (w : Vec Ideal S128x128 .f32) (b : Vec Ideal S128 .f32) (p : Fin 5000) (q : Fin 128) :
    (k1_pay1 (F := Ideal) x w b) (ValueIdx.ix2 p q)
      = (∑ k : Fin 128, x (ValueIdx.ix2 p k) * w (ValueIdx.ix2 k q)) + b (ValueIdx.ix1 q) := by
  unfold k1_pay1
  refine (ValueIdx.addf_apply _ _ _).trans ?_
  refine congrArg₂ (· + ·) ((matmul_dense_apply _ _ p q).trans ?_) ?_
  · rfl
  · refine (ValueIdx.broadcastTo_1b_ab_apply _ _ p q).trans ?_
    refine (ValueIdx.shapeCast_a_1a_apply _ _ 0 q).trans ?_
    rw [shapeCast_self]

/-- If row `p` of a block is row `r` of the input array, and the block's weight column and bias entry at `q` are the
    arrays', then the body's value at `(p, q)` is the dense layer of the arrays at `(r, q)`. -/
theorem pay1_eq_dense (X : Vec Ideal S5000x128 .f32) (W : Vec Ideal S128x128 .f32) (B : Vec Ideal S128 .f32)
    (x : FVec Ideal SN128 .f32) (w : FVec Ideal SW128 .f32) (b : FVec Ideal SB128 .f32) (p : Fin 5000) (q : Fin 128) (r : Fin 50000)
    (hX : ∀ k : Fin 128, X (ValueIdx.ix2 p k) = x (ValueIdx.ix2 r k))
    (hW : ∀ k : Fin 128, W (ValueIdx.ix2 k q) = w (ValueIdx.ix2 k q))
    (hB : B (ValueIdx.ix1 q) = b (ValueIdx.ix1 q)) :
    (k1_pay1 (F := Ideal) X W B) (ValueIdx.ix2 p q) = dense x w b (ValueIdx.ix2 r q) := by
  rw [pay1_apply, dense_apply, hB]
  exact congrArg (· + b (ValueIdx.ix1 q)) (Finset.sum_congr rfl fun k _ => by rw [hX k, hW k])

/-- The block indices of region 1's four windows at grid point `t`: the input rows and the output rows move
    with the point, the weight matrix and the bias vector stay whole. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Row `p`, column `k` of the input block at point `t` is row `5000 t + p` of the input array. -/
theorem read1_x (c : Dev nD) (t : Fin cfg1.N) (p : Fin 5000) (k : Fin 128) (h : 5000 * t.val + p.val < 50000) :
    (iblk1 V c 0 t : Vec Ideal S5000x128 .f32) (ValueIdx.ix2 p k)
      = (V c main_arg0 : FVec Ideal SN128 .f32) (ValueIdx.ix2 (⟨5000 * t.val + p.val, h⟩ : Fin 50000) k) := by
  obtain ⟨e00, e01, -, -, -, -, -⟩ := idx_facts1 t
  show V c main_arg0 (((cfg1.win 0).blk t).view.emb (ValueIdx.ix2 p k)) = V c main_arg0 _
  refine congrArg (V c main_arg0) ?_
  funext a; apply Fin.ext
  match a with
  | ⟨0, _⟩ => show win1_0.index t (0 : Fin 2) * 5000 + 1 * p.val = 5000 * t.val + p.val; omega
  | ⟨1, _⟩ => show win1_0.index t (1 : Fin 2) * 128 + 1 * k.val = k.val; omega

/-- The weight block at every point is the whole weight matrix. -/
theorem read1_w (c : Dev nD) (t : Fin cfg1.N) (k : Fin 128) (q : Fin 128) :
    (iblk1 V c 1 t : Vec Ideal S128x128 .f32) (ValueIdx.ix2 k q)
      = (V c main_arg6 : FVec Ideal SW128 .f32) (ValueIdx.ix2 k q) := by
  obtain ⟨-, -, e10, e11, -, -, -⟩ := idx_facts1 t
  show V c main_arg6 (((cfg1.win 1).blk t).view.emb (ValueIdx.ix2 k q)) = V c main_arg6 _
  refine congrArg (V c main_arg6) ?_
  funext a; apply Fin.ext
  match a with
  | ⟨0, _⟩ => show win1_1.index t (0 : Fin 2) * 128 + 1 * k.val = k.val; omega
  | ⟨1, _⟩ => show win1_1.index t (1 : Fin 2) * 128 + 1 * q.val = q.val; omega

/-- The bias block at every point is the whole bias vector. -/
theorem read1_b (c : Dev nD) (t : Fin cfg1.N) (q : Fin 128) :
    (iblk1 V c 2 t : Vec Ideal S128 .f32) (ValueIdx.ix1 q)
      = (V c main_v51 : FVec Ideal SB128 .f32) (ValueIdx.ix1 q) := by
  obtain ⟨-, -, -, -, e20, -, -⟩ := idx_facts1 t
  show V c main_v51 (((cfg1.win 2).blk t).view.emb (ValueIdx.ix1 q)) = V c main_v51 _
  refine congrArg (V c main_v51) ?_
  funext a; apply Fin.ext
  match a with
  | ⟨0, _⟩ => show win1_2.index t (0 : Fin 1) * 128 + 1 * q.val = q.val; omega

/-- What point `t` writes back is block `t` of the dense layer of the three arrays as the region finds them. -/
theorem flushed1_eq (c : Dev nD) (t : Fin cfg1.N) :
    (dat1 (F := Ideal) V c).flushed 3 t
      = ((cfg1.win 3).blk t).view.read (Elt Ideal) (dense (V c main_arg0) (V c main_arg6) (V c main_v51)) := by
  show (cfg1.win 3).cut (grid1.coords t) ((dat1 (F := Ideal) V c).after 3 t) = _
  rw [after1_3]
  unfold out1_3
  rw [View.canon_unit_zero hz2]
  simp only [View.ld_unit_zero (S := S5000x128) hz2, View.ld_unit_zero (S := S128x128) hz2, View.ld_unit_zero (S := S128) hz1]
  funext j
  have hp : (j 0).val < 5000 := (j 0).isLt
  have hq : (j 1).val < 128 := (j 1).isLt
  have hN : t.val < 10 := Nat.lt_of_lt_of_eq t.isLt N_1
  obtain ⟨-, -, -, -, -, e30, e31⟩ := idx_facts1 t
  have hr : 5000 * t.val + (j 0).val < 50000 := by omega
  have hL : (win1 3).xinj (grid1.coords t) j = ValueIdx.ix2 (⟨(j 0).val, hp⟩ : Fin 5000) (⟨(j 1).val, hq⟩ : Fin 128) := by
    funext a; apply Fin.ext
    match a with
    | ⟨0, _⟩ => rfl
    | ⟨1, _⟩ => rfl
  have hR : ((cfg1.win 3).blk t).view.emb j = ValueIdx.ix2 (⟨5000 * t.val + (j 0).val, hr⟩ : Fin 50000) (⟨(j 1).val, hq⟩ : Fin 128) := by
    funext a; apply Fin.ext
    match a with
    | ⟨0, _⟩ => show win1_3.index t (0 : Fin 2) * 5000 + 1 * (j 0).val = 5000 * t.val + (j 0).val; omega
    | ⟨1, _⟩ => show win1_3.index t (1 : Fin 2) * 128 + 1 * (j 1).val = (j 1).val; omega
  show k1_pay1 (F := Ideal) (iblk1 V c 0 t) (iblk1 V c 1 t) (iblk1 V c 2 t) ((win1 3).xinj (grid1.coords t) j)
    = dense (V c main_arg0) (V c main_arg6) (V c main_v51) (((cfg1.win 3).blk t).view.emb j)
  rw [hL, hR]
  exact pay1_eq_dense (iblk1 V c 0 t) (iblk1 V c 1 t) (iblk1 V c 2 t) (V c main_arg0) (V c main_arg6) (V c main_v51)
    ⟨(j 0).val, hp⟩ ⟨(j 1).val, hq⟩ ⟨5000 * t.val + (j 0).val, hr⟩
    (fun k => read1_x V c t ⟨(j 0).val, hp⟩ k hr) (fun k => read1_w V c t k ⟨(j 1).val, hq⟩) (read1_b V c t ⟨(j 1).val, hq⟩)

/-- An index of the output array is in point `t`'s block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v52).slice (win1_3.rect t)).set ↔ _
  rw [View.set_slice_whole, Rect.mem_set_unit]
  exact Iff.rfl

/-- Every row `r` of the output array lies in the block of the point `r / 5000`, which writes back. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hlt : (i 0).val / 5000 < cfg1.N := by rw [show cfg1.N = 10 from N_1]; omega
  obtain ⟨-, -, -, -, -, e30, e31⟩ := idx_facts1 ⟨(i 0).val / 5000, hlt⟩
  have e30' : win1_3.index ⟨(i 0).val / 5000, hlt⟩ (0 : Fin 2) = (i 0).val / 5000 := e30
  refine ⟨⟨(i 0).val / 5000, hlt⟩, flush1_3 _, ?_⟩
  rw [mem_blk1]
  intro a
  match a with
  | ⟨0, _⟩ =>
    show win1_3.index ⟨(i 0).val / 5000, hlt⟩ (0 : Fin 2) * 5000 ≤ (i 0).val ∧ (i 0).val < win1_3.index ⟨(i 0).val / 5000, hlt⟩ (0 : Fin 2) * 5000 + 5000
    rw [e30']; omega
  | ⟨1, _⟩ =>
    show win1_3.index ⟨(i 0).val / 5000, hlt⟩ (1 : Fin 2) * 128 ≤ (i 1).val ∧ (i 1).val < win1_3.index ⟨(i 0).val / 5000, hlt⟩ (1 : Fin 2) * 128 + 128
    rw [e31]; omega

end DenseA

open DenseA

/-- REGION 0: after its ten points the output array holds the dense layer of the input array, the weight matrix and
    the bias vector as the region finds them. -/
theorem region0 (c : Dev nD) : (dat0 (F := Ideal) V c).arrAt 3 cfg0.N = dense (V c main_arg0) (V c main_arg4) (V c main_v0) :=
  (dat0 (F := Ideal) V c).arrAt_eq_of_cover 3 (dense (V c main_arg0) (V c main_arg4) (V c main_v0))
    (fun t _ => flushed0_eq V c t) cover0

/-- REGION 1: after its ten points the output array holds the dense layer of the input array, the weight matrix and
    the bias vector as the region finds them. -/
theorem region1 (c : Dev nD) : (dat1 (F := Ideal) V c).arrAt 3 cfg1.N = dense (V c main_arg0) (V c main_arg6) (V c main_v51) :=
  (dat1 (F := Ideal) V c).arrAt_eq_of_cover 3 (dense (V c main_arg0) (V c main_arg6) (V c main_v51))
    (fun t _ => flushed1_eq V c t) cover1

end Cert.KernelIdeal.RegVal
end
-- ==== Proof.DenseB.lean ====
import proofs.«406451_j67508295958856_1_alg».proof.Proof.Gen.KernelIdeal.Frame
import proofs.«406451_j67508295958856_1_alg».proof.Proof.Spec
import Idealize.ShloMosaic.Lib.Pipeline.Value
import Idealize.ShloMosaic.PureOps.Ideal.Laws
import Idealize.ShloMosaic.Lib.ValueIdx
import Idealize.ShloMosaic.Lib.ValueLayout
/-!
# Four dense layers over 128 input columns, block by block

Each of the regions 3, 4, 5 and 7 runs over ten points. Point t stages rows 5000·t … 5000·t + 4999 of a
50000 × 128 input array together with the whole 128 × 128 weight matrix and the whole bias vector of length 128,
and writes back the same rows of the region's output array. The body multiplies the block by the weights and adds
the bias along the rows; on the extended reals the change of float format is the identity and the product
accumulates into zero, so entry (p, q) of the block is (∑ k, x p k · w k q) + b q. Row r of the output array is
written by the point r / 5000 and the ten blocks of rows cover the array, so after the region the output array is
`dense` of the three arrays as the region finds them.
-/
noncomputable section
namespace Cert.KernelIdeal.RegVal
open Idealize.ShloMosaic Idealize.ShloMosaic.TcCoe Idealize.SL.Sem Cert.KernelIdeal Cert.KernelIdeal.Gen Cert.Bridge
open Idealize.ShloMosaic.ValueIdx
variable (V : (c : Dev nD) → (b : Ref sig .tc) → Buf (Elt Ideal) ((c : Thread nD τ).loc b))

/-! The lemmas of this module live in their own namespace; the four results are stated after it. -/
namespace DenseB

/-! ## The matrix product's operand indices

The body multiplies a 5000 × 128 block by the 128 × 128 weight matrix, contracting the block's columns with the
matrix's rows: at output entry (p, q) and contraction coordinate k the left operand is read at (p, k) and the right at
(k, q). -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator, at entry (p, q): the sum over the 128 contraction coordinates. -/
theorem blockProduct_apply (x : FVec Ideal S5000x128 .bf16) (w : FVec Ideal S128x128 .bf16) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row spread over the block's rows, at entry (p, q): the bias at q. -/
theorem biasRows_apply (b : FVec Ideal S128 .f32) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

/-- Region 3's body at entry (p, q) of the block: the block's row p against the weight matrix's column q,
    plus the bias at q. -/
theorem k3_pay1_apply (x : Vec Ideal S5000x128 .f32) (w : Vec Ideal S128x128 .f32) (b : Vec Ideal S128 .f32) (p : Fin 5000) (q : Fin 128) :
    (k3_pay1 (F := Ideal) x w b) (ix2 p q) = (∑ k : Fin 128, x (ix2 p k) * w (ix2 k q)) + b (ix1 q) := by
  unfold k3_pay1
  rw [shapeCast_self]
  rw [addf_apply, blockProduct_apply, biasRows_apply]
  rfl

/-- Region 4's body at entry (p, q) of the block: the block's row p against the weight matrix's column q,
    plus the bias at q. -/
theorem k4_pay1_apply (x : Vec Ideal S5000x128 .f32) (w : Vec Ideal S128x128 .f32) (b : Vec Ideal S128 .f32) (p : Fin 5000) (q : Fin 128) :
    (k4_pay1 (F := Ideal) x w b) (ix2 p q) = (∑ k : Fin 128, x (ix2 p k) * w (ix2 k q)) + b (ix1 q) := by
  unfold k4_pay1
  rw [shapeCast_self, shapeCast_self]
  rw [addf_apply, blockProduct_apply, biasRows_apply]
  rfl

/-- Region 5's body at entry (p, q) of the block: the block's row p against the weight matrix's column q,
    plus the bias at q. -/
theorem k5_pay1_apply (x : Vec Ideal S5000x128 .f32) (w : Vec Ideal S128x128 .f32) (b : Vec Ideal S128 .f32) (p : Fin 5000) (q : Fin 128) :
    (k5_pay1 (F := Ideal) x w b) (ix2 p q) = (∑ k : Fin 128, x (ix2 p k) * w (ix2 k q)) + b (ix1 q) := by
  unfold k5_pay1
  rw [shapeCast_self, shapeCast_self]
  rw [addf_apply, blockProduct_apply, biasRows_apply]
  rfl

/-- Region 7's body at entry (p, q) of the block: the block's row p against the weight matrix's column q,
    plus the bias at q. -/
theorem k7_pay1_apply (x : Vec Ideal S5000x128 .f32) (w : Vec Ideal S128x128 .f32) (b : Vec Ideal S128 .f32) (p : Fin 5000) (q : Fin 128) :
    (k7_pay1 (F := Ideal) x w b) (ix2 p q) = (∑ k : Fin 128, x (ix2 p k) * w (ix2 k q)) + b (ix1 q) := by
  unfold k7_pay1
  rw [shapeCast_self]
  rw [addf_apply, blockProduct_apply, biasRows_apply]
  rfl

/-! ## From the block to the array -/

theorem zeros2 : (![0, 0] : Fin 2 → Nat) = fun _ => 0 := funext fun a => by fin_cases a <;> rfl
theorem zeros1 : (![0] : Fin 1 → Nat) = fun _ => 0 := funext fun a => by fin_cases a <;> rfl

/-- Row p of a block against column q of the weights, plus the bias at q, is the dense layer's entry (r, q) when
    the block's row p is the array's row r and the staged weights and bias are the arrays'. -/
theorem dense_at (X : FVec Ideal SN128 .f32) (W : FVec Ideal SW128 .f32) (B : FVec Ideal SB128 .f32)
    (x : Vec Ideal S5000x128 .f32) (w : Vec Ideal S128x128 .f32) (b : Vec Ideal S128 .f32)
    (p : Fin 5000) (q : Fin 128) (r : Fin 50000)
    (hx : ∀ k : Fin 128, x (ix2 p k) = X (ix2 r k)) (hw : ∀ k : Fin 128, w (ix2 k q) = W (ix2 k q))
    (hb : b (ix1 q) = B (ix1 q)) :
    (∑ k : Fin 128, x (ix2 p k) * w (ix2 k q)) + b (ix1 q) = dense X W B (ix2 r q) := by
  unfold dense
  show _ = (∑ k : Fin 128, X (ix2 r k) * W (ix2 k q)) + B (ix1 q)
  rw [hb]
  exact congrArg (· + B (ix1 q)) (Finset.sum_congr rfl fun k _ => by rw [hx k, hw k])

/-! ### Region 3 -/

/-- The index maps over the ten points: the input block and the output block of point t are both the
    t-th block of rows; the weights and the bias are staged whole. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- Row p of point t's input block is row 5000·t + p of the input array. -/
theorem xblk3_read (c : Dev nD) (t : Fin cfg3.N) (p : Fin 5000) (k : Fin 128) (r : Fin 50000)
    (hr : r.val = 5000 * t.val + p.val) :
    (iblk3 V c 0 t : Vec Ideal S5000x128 .f32) (ix2 p k) = (V c main_v103 : FVec Ideal SN128 .f32) (ix2 r k) := by
  obtain ⟨e0, e1, -⟩ := idx3 t
  unfold iblk3
  rw [View.read_apply]
  show V c main_v103 _ = V c main_v103 _
  congr 1
  funext a
  apply Fin.ext
  match a with
  | ⟨0, _⟩ => show win3_0.index t (0 : Fin 2) * 5000 + 1 * p.val = r.val; rw [e0, hr]; omega
  | ⟨1, _⟩ => show win3_0.index t (1 : Fin 2) * 128 + 1 * k.val = k.val; rw [e1]; omega

/-- The staged weights at every point are the weight matrix. -/
theorem wblk3_read (c : Dev nD) (t : Fin cfg3.N) (k q : Fin 128) :
    (iblk3 V c 1 t : Vec Ideal S128x128 .f32) (ix2 k q) = (V c main_arg10 : FVec Ideal SW128 .f32) (ix2 k q) := by
  obtain ⟨-, -, e0, e1, -⟩ := idx3 t
  unfold iblk3
  rw [View.read_apply]
  show V c main_arg10 _ = V c main_arg10 _
  congr 1
  funext a
  apply Fin.ext
  match a with
  | ⟨0, _⟩ => show win3_1.index t (0 : Fin 2) * 128 + 1 * k.val = k.val; rw [e0]; omega
  | ⟨1, _⟩ => show win3_1.index t (1 : Fin 2) * 128 + 1 * q.val = q.val; rw [e1]; omega

/-- The staged bias at every point is the bias vector. -/
theorem bblk3_read (c : Dev nD) (t : Fin cfg3.N) (q : Fin 128) :
    (iblk3 V c 2 t : Vec Ideal S128 .f32) (ix1 q) = (V c main_arg11 : FVec Ideal SB128 .f32) (ix1 q) := by
  obtain ⟨-, -, -, -, e0, -⟩ := idx3 t
  unfold iblk3
  rw [View.read_apply]
  show V c main_arg11 _ = V c main_arg11 _
  congr 1
  funext a
  apply Fin.ext
  match a with
  | ⟨0, _⟩ => show win3_2.index t (0 : Fin 1) * 128 + 1 * q.val = q.val; rw [e0]; omega

/-- Entry (p, q) of point t's output block sits at row 5000·t + p, column q of the output array. -/
theorem oblk3_emb (t : Fin cfg3.N) (p : Fin 5000) (q : Fin 128) (r : Fin 50000) (hr : r.val = 5000 * t.val + p.val) :
    (((cfg3.win 3).blk t).view.emb (ix2 p q) : SN128.Idx) = ix2 r q := by
  obtain ⟨-, -, -, -, -, e0, e1⟩ := idx3 t
  funext a
  apply Fin.ext
  match a with
  | ⟨0, _⟩ => show win3_3.index t (0 : Fin 2) * 5000 + 1 * p.val = r.val; rw [e0, hr]; omega
  | ⟨1, _⟩ => show win3_3.index t (1 : Fin 2) * 128 + 1 * q.val = q.val; rw [e1]; omega

/-- What point t writes back is its block of rows of the dense layer of the three arrays as the region finds them. -/
theorem flushed3_eq (c : Dev nD) (t : Fin cfg3.N) :
    (dat3 (F := Ideal) V c).flushed 3 t
      = ((cfg3.win 3).blk t).view.read (Elt Ideal) (dense (V c main_v103) (V c main_arg10) (V c main_arg11)) := by
  show (cfg3.win 3).cut (grid3.coords t) ((dat3 (F := Ideal) V c).after 3 t) = _
  rw [after3_3]
  unfold out3_3
  rw [View.canon_unit_zero zeros2]
  simp only [View.ld_unit_zero (S := S5000x128) zeros2, View.ld_unit_zero (S := S128x128) zeros2, View.ld_unit_zero (S := S128) zeros1]
  funext j
  obtain ⟨p, q, rfl⟩ : ∃ (p : Fin 5000) (q : Fin 128), j = ix2 p q := ⟨j 0, j 1, eq_ix2 j⟩
  have ht : t.val < 10 := by have h : t.val < cfg3.N := t.isLt; have hN : cfg3.N = 10 := N_3; omega
  obtain ⟨r, hr⟩ : ∃ r : Fin 50000, r.val = 5000 * t.val + p.val := ⟨⟨5000 * t.val + p.val, by have := p.isLt; omega⟩, rfl⟩
  show k3_pay1 (F := Ideal) (iblk3 V c 0 t) (iblk3 V c 1 t) (iblk3 V c 2 t) (ix2 p q)
    = dense (V c main_v103) (V c main_arg10) (V c main_arg11) (((cfg3.win 3).blk t).view.emb (ix2 p q))
  rw [oblk3_emb t p q r hr]
  refine (k3_pay1_apply (iblk3 V c 0 t) (iblk3 V c 1 t) (iblk3 V c 2 t) p q).trans ?_
  exact dense_at (V c main_v103) (V c main_arg10) (V c main_arg11) (iblk3 V c 0 t) (iblk3 V c 1 t) (iblk3 V c 2 t) p q r
    (fun k => xblk3_read V c t p k r hr) (fun k => wblk3_read V c t k q) (bblk3_read V c t q)

/-- An index of the output array lies in point t's block iff each coordinate is in the block's range on its axis. -/
theorem mem_blk3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v104).slice (win3_3.rect t)).set ↔ _
  rw [View.set_slice_whole, Rect.mem_set_unit]
  exact Iff.rfl

/-- Every row r of the output array is written back: by the point r / 5000. -/
theorem cover3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, e0, e1⟩ := idx3 t
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; rw [e0, ht]; omega
  | ⟨1, _⟩ => show win3_3.index t (1 : Fin 2) * 128 ≤ (i 1).val ∧ (i 1).val < win3_3.index t (1 : Fin 2) * 128 + 128; rw [e1]; omega

/-! ### Region 4 -/

/-- The index maps over the ten points: the input block and the output block of point t are both the
    t-th block of rows; the weights and the bias are staged whole. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- Row p of point t's input block is row 5000·t + p of the input array. -/
theorem xblk4_read (c : Dev nD) (t : Fin cfg4.N) (p : Fin 5000) (k : Fin 128) (r : Fin 50000)
    (hr : r.val = 5000 * t.val + p.val) :
    (iblk4 V c 0 t : Vec Ideal S5000x128 .f32) (ix2 p k) = (V c main_v104 : FVec Ideal SN128 .f32) (ix2 r k) := by
  obtain ⟨e0, e1, -⟩ := idx4 t
  unfold iblk4
  rw [View.read_apply]
  show V c main_v104 _ = V c main_v104 _
  congr 1
  funext a
  apply Fin.ext
  match a with
  | ⟨0, _⟩ => show win4_0.index t (0 : Fin 2) * 5000 + 1 * p.val = r.val; rw [e0, hr]; omega
  | ⟨1, _⟩ => show win4_0.index t (1 : Fin 2) * 128 + 1 * k.val = k.val; rw [e1]; omega

/-- The staged weights at every point are the weight matrix. -/
theorem wblk4_read (c : Dev nD) (t : Fin cfg4.N) (k q : Fin 128) :
    (iblk4 V c 1 t : Vec Ideal S128x128 .f32) (ix2 k q) = (V c main_arg12 : FVec Ideal SW128 .f32) (ix2 k q) := by
  obtain ⟨-, -, e0, e1, -⟩ := idx4 t
  unfold iblk4
  rw [View.read_apply]
  show V c main_arg12 _ = V c main_arg12 _
  congr 1
  funext a
  apply Fin.ext
  match a with
  | ⟨0, _⟩ => show win4_1.index t (0 : Fin 2) * 128 + 1 * k.val = k.val; rw [e0]; omega
  | ⟨1, _⟩ => show win4_1.index t (1 : Fin 2) * 128 + 1 * q.val = q.val; rw [e1]; omega

/-- The staged bias at every point is the bias vector. -/
theorem bblk4_read (c : Dev nD) (t : Fin cfg4.N) (q : Fin 128) :
    (iblk4 V c 2 t : Vec Ideal S128 .f32) (ix1 q) = (V c main_v105 : FVec Ideal SB128 .f32) (ix1 q) := by
  obtain ⟨-, -, -, -, e0, -⟩ := idx4 t
  unfold iblk4
  rw [View.read_apply]
  show V c main_v105 _ = V c main_v105 _
  congr 1
  funext a
  apply Fin.ext
  match a with
  | ⟨0, _⟩ => show win4_2.index t (0 : Fin 1) * 128 + 1 * q.val = q.val; rw [e0]; omega

/-- Entry (p, q) of point t's output block sits at row 5000·t + p, column q of the output array. -/
theorem oblk4_emb (t : Fin cfg4.N) (p : Fin 5000) (q : Fin 128) (r : Fin 50000) (hr : r.val = 5000 * t.val + p.val) :
    (((cfg4.win 3).blk t).view.emb (ix2 p q) : SN128.Idx) = ix2 r q := by
  obtain ⟨-, -, -, -, -, e0, e1⟩ := idx4 t
  funext a
  apply Fin.ext
  match a with
  | ⟨0, _⟩ => show win4_3.index t (0 : Fin 2) * 5000 + 1 * p.val = r.val; rw [e0, hr]; omega
  | ⟨1, _⟩ => show win4_3.index t (1 : Fin 2) * 128 + 1 * q.val = q.val; rw [e1]; omega

/-- What point t writes back is its block of rows of the dense layer of the three arrays as the region finds them. -/
theorem flushed4_eq (c : Dev nD) (t : Fin cfg4.N) :
    (dat4 (F := Ideal) V c).flushed 3 t
      = ((cfg4.win 3).blk t).view.read (Elt Ideal) (dense (V c main_v104) (V c main_arg12) (V c main_v105)) := by
  show (cfg4.win 3).cut (grid4.coords t) ((dat4 (F := Ideal) V c).after 3 t) = _
  rw [after4_3]
  unfold out4_3
  rw [View.canon_unit_zero zeros2]
  simp only [View.ld_unit_zero (S := S5000x128) zeros2, View.ld_unit_zero (S := S128x128) zeros2, View.ld_unit_zero (S := S128) zeros1]
  funext j
  obtain ⟨p, q, rfl⟩ : ∃ (p : Fin 5000) (q : Fin 128), j = ix2 p q := ⟨j 0, j 1, eq_ix2 j⟩
  have ht : t.val < 10 := by have h : t.val < cfg4.N := t.isLt; have hN : cfg4.N = 10 := N_4; omega
  obtain ⟨r, hr⟩ : ∃ r : Fin 50000, r.val = 5000 * t.val + p.val := ⟨⟨5000 * t.val + p.val, by have := p.isLt; omega⟩, rfl⟩
  show k4_pay1 (F := Ideal) (iblk4 V c 0 t) (iblk4 V c 1 t) (iblk4 V c 2 t) (ix2 p q)
    = dense (V c main_v104) (V c main_arg12) (V c main_v105) (((cfg4.win 3).blk t).view.emb (ix2 p q))
  rw [oblk4_emb t p q r hr]
  refine (k4_pay1_apply (iblk4 V c 0 t) (iblk4 V c 1 t) (iblk4 V c 2 t) p q).trans ?_
  exact dense_at (V c main_v104) (V c main_arg12) (V c main_v105) (iblk4 V c 0 t) (iblk4 V c 1 t) (iblk4 V c 2 t) p q r
    (fun k => xblk4_read V c t p k r hr) (fun k => wblk4_read V c t k q) (bblk4_read V c t q)

/-- An index of the output array lies in point t's block iff each coordinate is in the block's range on its axis. -/
theorem mem_blk4 (t : Fin cfg4.N) (i : S50000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v106).slice (win4_3.rect t)).set ↔ _
  rw [View.set_slice_whole, Rect.mem_set_unit]
  exact Iff.rfl

/-- Every row r of the output array is written back: by the point r / 5000. -/
theorem cover4 (i : S50000x128.Idx) : ∃ t : Fin cfg4.N, (cfg4.win 3).flush t = true ∧ i ∈ ((cfg4.win 3).blk t).view.set := by
  have hi0 : (i 0).val < 50000 := (i 0).isLt
  have hi1 : (i 1).val < 128 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨-, -, -, -, -, e0, e1⟩ := idx4 t
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; rw [e0, ht]; omega
  | ⟨1, _⟩ => show win4_3.index t (1 : Fin 2) * 128 ≤ (i 1).val ∧ (i 1).val < win4_3.index t (1 : Fin 2) * 128 + 128; rw [e1]; omega

/-! ### Region 5 -/

/-- The index maps over the ten points: the input block and the output block of point t are both the
    t-th block of rows; the weights and the bias are staged whole. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

/-- Row p of point t's input block is row 5000·t + p of the input array. -/
theorem xblk5_read (c : Dev nD) (t : Fin cfg5.N) (p : Fin 5000) (k : Fin 128) (r : Fin 50000)
    (hr : r.val = 5000 * t.val + p.val) :
    (iblk5 V c 0 t : Vec Ideal S5000x128 .f32) (ix2 p k) = (V c main_v104 : FVec Ideal SN128 .f32) (ix2 r k) := by
  obtain ⟨e0, e1, -⟩ := idx5 t
  unfold iblk5
  rw [View.read_apply]
  show V c main_v104 _ = V c main_v104 _
  congr 1
  funext a
  apply Fin.ext
  match a with
  | ⟨0, _⟩ => show win5_0.index t (0 : Fin 2) * 5000 + 1 * p.val = r.val; rw [e0, hr]; omega
  | ⟨1, _⟩ => show win5_0.index t (1 : Fin 2) * 128 + 1 * k.val = k.val; rw [e1]; omega

/-- The staged weights at every point are the weight matrix. -/
theorem wblk5_read (c : Dev nD) (t : Fin cfg5.N) (k q : Fin 128) :
    (iblk5 V c 1 t : Vec Ideal S128x128 .f32) (ix2 k q) = (V c main_arg14 : FVec Ideal SW128 .f32) (ix2 k q) := by
  obtain ⟨-, -, e0, e1, -⟩ := idx5 t
  unfold iblk5
  rw [View.read_apply]
  show V c main_arg14 _ = V c main_arg14 _
  congr 1
  funext a
  apply Fin.ext
  match a with
  | ⟨0, _⟩ => show win5_1.index t (0 : Fin 2) * 128 + 1 * k.val = k.val; rw [e0]; omega
  | ⟨1, _⟩ => show win5_1.index t (1 : Fin 2) * 128 + 1 * q.val = q.val; rw [e1]; omega

/-- The staged bias at every point is the bias vector. -/
theorem bblk5_read (c : Dev nD) (t : Fin cfg5.N) (q : Fin 128) :
    (iblk5 V c 2 t : Vec Ideal S128 .f32) (ix1 q) = (V c main_v156 : FVec Ideal SB128 .f32) (ix1 q) := by
  obtain ⟨-, -, -, -, e0, -⟩ := idx5 t
  unfold iblk5
  rw [View.read_apply]
  show V c main_v156 _ = V c main_v156 _
  congr 1
  funext a
  apply Fin.ext
  match a with
  | ⟨0, _⟩ => show win5_2.index t (0 : Fin 1) * 128 + 1 * q.val = q.val; rw [e0]; omega

/-- Entry (p, q) of point t's output block sits at row 5000·t + p, column q of the output array. -/
theorem oblk5_emb (t : Fin cfg5.N) (p : Fin 5000) (q : Fin 128) (r : Fin 50000) (hr : r.val = 5000 * t.val + p.val) :
    (((cfg5.win 3).blk t).view.emb (ix2 p q) : SN128.Idx) = ix2 r q := by
  obtain ⟨-, -, -, -, -, e0, e1⟩ := idx5 t
  funext a
  apply Fin.ext
  match a with
  | ⟨0, _⟩ => show win5_3.index t (0 : Fin 2) * 5000 + 1 * p.val = r.val; rw [e0, hr]; omega
  | ⟨1, _⟩ => show win5_3.index t (1 : Fin 2) * 128 + 1 * q.val = q.val; rw [e1]; omega

/-- What point t writes back is its block of rows of the dense layer of the three arrays as the region finds them. -/
theorem flushed5_eq (c : Dev nD) (t : Fin cfg5.N) :
    (dat5 (F := Ideal) V c).flushed 3 t
      = ((cfg5.win 3).blk t).view.read (Elt Ideal) (dense (V c main_v104) (V c main_arg14) (V c main_v156)) := by
  show (cfg5.win 3).cut (grid5.coords t) ((dat5 (F := Ideal) V c).after 3 t) = _
  rw [after5_3]
  unfold out5_3
  rw [View.canon_unit_zero zeros2]
  simp only [View.ld_unit_zero (S := S5000x128) zeros2, View.ld_unit_zero (S := S128x128) zeros2, View.ld_unit_zero (S := S128) zeros1]
  funext j
  obtain ⟨p, q, rfl⟩ : ∃ (p : Fin 5000) (q : Fin 128), j = ix2 p q := ⟨j 0, j 1, eq_ix2 j⟩
  have ht : t.val < 10 := by have h : t.val < cfg5.N := t.isLt; have hN : cfg5.N = 10 := N_5; omega
  obtain ⟨r, hr⟩ : ∃ r : Fin 50000, r.val = 5000 * t.val + p.val := ⟨⟨5000 * t.val + p.val, by have := p.isLt; omega⟩, rfl⟩
  show k5_pay1 (F := Ideal) (iblk5 V c 0 t) (iblk5 V c 1 t) (iblk5 V c 2 t) (ix2 p q)
    = dense (V c main_v104) (V c main_arg14) (V c main_v156) (((cfg5.win 3).blk t).view.emb (ix2 p q))
  rw [oblk5_emb t p q r hr]
  refine (k5_pay1_apply (iblk5 V c 0 t) (iblk5 V c 1 t) (iblk5 V c 2 t) p q).trans ?_
  exact dense_at (V c main_v104) (V c main_arg14) (V c main_v156) (iblk5 V c 0 t) (iblk5 V c 1 t) (iblk5 V c 2 t) p q r
    (fun k => xblk5_read V c t p k r hr) (fun k => wblk5_read V c t k q) (bblk5_read V c t q)

/-- An index of the output array lies in point t's block iff each coordinate is in the block's range on its axis. -/
theorem mem_blk5 (t : Fin cfg5.N) (i : S50000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v157).slice (win5_3.rect t)).set ↔ _
  rw [View.set_slice_whole, Rect.mem_set_unit]
  exact Iff.rfl

/-- Every row r of the output array is written back: by the point r / 5000. -/
theorem cover5 (i : S50000x128.Idx) : ∃ t : Fin cfg5.N, (cfg5.win 3).flush t = true ∧ i ∈ ((cfg5.win 3).blk t).view.set := by
  have hi0 : (i 0).val < 50000 := (i 0).isLt
  have hi1 : (i 1).val < 128 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨-, -, -, -, -, e0, e1⟩ := idx5 t
  refine ⟨t, flush5_3 t, ?_⟩
  rw [mem_blk5]
  intro a
  match a with
  | ⟨0, _⟩ => show win5_3.index t (0 : Fin 2) * 5000 ≤ (i 0).val ∧ (i 0).val < win5_3.index t (0 : Fin 2) * 5000 + 5000; rw [e0, ht]; omega
  | ⟨1, _⟩ => show win5_3.index t (1 : Fin 2) * 128 ≤ (i 1).val ∧ (i 1).val < win5_3.index t (1 : Fin 2) * 128 + 128; rw [e1]; omega

/-! ### Region 7 -/

/-- The index maps over the ten points: the input block and the output block of point t are both the
    t-th block of rows; the weights and the bias are staged whole. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 1) = 0
    ∧ win7_3.index t (0 : Fin 2) = t.val ∧ win7_3.index t (1 : Fin 2) = 0 :=
  (by decide +kernel : ∀ t : Fin grid7.N, _)

/-- Row p of point t's input block is row 5000·t + p of the input array. -/
theorem xblk7_read (c : Dev nD) (t : Fin cfg7.N) (p : Fin 5000) (k : Fin 128) (r : Fin 50000)
    (hr : r.val = 5000 * t.val + p.val) :
    (iblk7 V c 0 t : Vec Ideal S5000x128 .f32) (ix2 p k) = (V c main_v208 : FVec Ideal SN128 .f32) (ix2 r k) := by
  obtain ⟨e0, e1, -⟩ := idx7 t
  unfold iblk7
  rw [View.read_apply]
  show V c main_v208 _ = V c main_v208 _
  congr 1
  funext a
  apply Fin.ext
  match a with
  | ⟨0, _⟩ => show win7_0.index t (0 : Fin 2) * 5000 + 1 * p.val = r.val; rw [e0, hr]; omega
  | ⟨1, _⟩ => show win7_0.index t (1 : Fin 2) * 128 + 1 * k.val = k.val; rw [e1]; omega

/-- The staged weights at every point are the weight matrix. -/
theorem wblk7_read (c : Dev nD) (t : Fin cfg7.N) (k q : Fin 128) :
    (iblk7 V c 1 t : Vec Ideal S128x128 .f32) (ix2 k q) = (V c main_arg18 : FVec Ideal SW128 .f32) (ix2 k q) := by
  obtain ⟨-, -, e0, e1, -⟩ := idx7 t
  unfold iblk7
  rw [View.read_apply]
  show V c main_arg18 _ = V c main_arg18 _
  congr 1
  funext a
  apply Fin.ext
  match a with
  | ⟨0, _⟩ => show win7_1.index t (0 : Fin 2) * 128 + 1 * k.val = k.val; rw [e0]; omega
  | ⟨1, _⟩ => show win7_1.index t (1 : Fin 2) * 128 + 1 * q.val = q.val; rw [e1]; omega

/-- The staged bias at every point is the bias vector. -/
theorem bblk7_read (c : Dev nD) (t : Fin cfg7.N) (q : Fin 128) :
    (iblk7 V c 2 t : Vec Ideal S128 .f32) (ix1 q) = (V c main_arg19 : FVec Ideal SB128 .f32) (ix1 q) := by
  obtain ⟨-, -, -, -, e0, -⟩ := idx7 t
  unfold iblk7
  rw [View.read_apply]
  show V c main_arg19 _ = V c main_arg19 _
  congr 1
  funext a
  apply Fin.ext
  match a with
  | ⟨0, _⟩ => show win7_2.index t (0 : Fin 1) * 128 + 1 * q.val = q.val; rw [e0]; omega

/-- Entry (p, q) of point t's output block sits at row 5000·t + p, column q of the output array. -/
theorem oblk7_emb (t : Fin cfg7.N) (p : Fin 5000) (q : Fin 128) (r : Fin 50000) (hr : r.val = 5000 * t.val + p.val) :
    (((cfg7.win 3).blk t).view.emb (ix2 p q) : SN128.Idx) = ix2 r q := by
  obtain ⟨-, -, -, -, -, e0, e1⟩ := idx7 t
  funext a
  apply Fin.ext
  match a with
  | ⟨0, _⟩ => show win7_3.index t (0 : Fin 2) * 5000 + 1 * p.val = r.val; rw [e0, hr]; omega
  | ⟨1, _⟩ => show win7_3.index t (1 : Fin 2) * 128 + 1 * q.val = q.val; rw [e1]; omega

/-- What point t writes back is its block of rows of the dense layer of the three arrays as the region finds them. -/
theorem flushed7_eq (c : Dev nD) (t : Fin cfg7.N) :
    (dat7 (F := Ideal) V c).flushed 3 t
      = ((cfg7.win 3).blk t).view.read (Elt Ideal) (dense (V c main_v208) (V c main_arg18) (V c main_arg19)) := by
  show (cfg7.win 3).cut (grid7.coords t) ((dat7 (F := Ideal) V c).after 3 t) = _
  rw [after7_3]
  unfold out7_3
  rw [View.canon_unit_zero zeros2]
  simp only [View.ld_unit_zero (S := S5000x128) zeros2, View.ld_unit_zero (S := S128x128) zeros2, View.ld_unit_zero (S := S128) zeros1]
  funext j
  obtain ⟨p, q, rfl⟩ : ∃ (p : Fin 5000) (q : Fin 128), j = ix2 p q := ⟨j 0, j 1, eq_ix2 j⟩
  have ht : t.val < 10 := by have h : t.val < cfg7.N := t.isLt; have hN : cfg7.N = 10 := N_7; omega
  obtain ⟨r, hr⟩ : ∃ r : Fin 50000, r.val = 5000 * t.val + p.val := ⟨⟨5000 * t.val + p.val, by have := p.isLt; omega⟩, rfl⟩
  show k7_pay1 (F := Ideal) (iblk7 V c 0 t) (iblk7 V c 1 t) (iblk7 V c 2 t) (ix2 p q)
    = dense (V c main_v208) (V c main_arg18) (V c main_arg19) (((cfg7.win 3).blk t).view.emb (ix2 p q))
  rw [oblk7_emb t p q r hr]
  refine (k7_pay1_apply (iblk7 V c 0 t) (iblk7 V c 1 t) (iblk7 V c 2 t) p q).trans ?_
  exact dense_at (V c main_v208) (V c main_arg18) (V c main_arg19) (iblk7 V c 0 t) (iblk7 V c 1 t) (iblk7 V c 2 t) p q r
    (fun k => xblk7_read V c t p k r hr) (fun k => wblk7_read V c t k q) (bblk7_read V c t q)

/-- An index of the output array lies in point t's block iff each coordinate is in the block's range on its axis. -/
theorem mem_blk7 (t : Fin cfg7.N) (i : S50000x128.Idx) :
    i ∈ ((cfg7.win 3).blk t).view.set ↔ ∀ a : Fin 2, win7_3.index t a * S5000x128.size a ≤ (i a).val ∧ (i a).val < win7_3.index t a * S5000x128.size a + S5000x128.size a := by
  show i ∈ ((View.whole main_v209).slice (win7_3.rect t)).set ↔ _
  rw [View.set_slice_whole, Rect.mem_set_unit]
  exact Iff.rfl

/-- Every row r of the output array is written back: by the point r / 5000. -/
theorem cover7 (i : S50000x128.Idx) : ∃ t : Fin cfg7.N, (cfg7.win 3).flush t = true ∧ i ∈ ((cfg7.win 3).blk t).view.set := by
  have hi0 : (i 0).val < 50000 := (i 0).isLt
  have hi1 : (i 1).val < 128 := (i 1).isLt
  have hN : cfg7.N = 10 := N_7
  obtain ⟨t, ht⟩ : ∃ t : Fin cfg7.N, t.val = (i 0).val / 5000 := ⟨⟨(i 0).val / 5000, by rw [hN]; omega⟩, rfl⟩
  obtain ⟨-, -, -, -, -, e0, e1⟩ := idx7 t
  refine ⟨t, flush7_3 t, ?_⟩
  rw [mem_blk7]
  intro a
  match a with
  | ⟨0, _⟩ => show win7_3.index t (0 : Fin 2) * 5000 ≤ (i 0).val ∧ (i 0).val < win7_3.index t (0 : Fin 2) * 5000 + 5000; rw [e0, ht]; omega
  | ⟨1, _⟩ => show win7_3.index t (1 : Fin 2) * 128 ≤ (i 1).val ∧ (i 1).val < win7_3.index t (1 : Fin 2) * 128 + 128; rw [e1]; omega

end DenseB

/-! ## The four regions' output arrays -/

/-- After region 3 its output array is the dense layer of the three arrays as the region finds them. -/
theorem region3 (c : Dev nD) : (dat3 (F := Ideal) V c).arrAt 3 cfg3.N = dense (V c main_v103) (V c main_arg10) (V c main_arg11) :=
  (dat3 (F := Ideal) V c).arrAt_eq_of_cover 3 (dense (V c main_v103) (V c main_arg10) (V c main_arg11))
    (fun t _ => DenseB.flushed3_eq V c t) DenseB.cover3

/-- After region 4 its output array is the dense layer of the three arrays as the region finds them. -/
theorem region4 (c : Dev nD) : (dat4 (F := Ideal) V c).arrAt 3 cfg4.N = dense (V c main_v104) (V c main_arg12) (V c main_v105) :=
  (dat4 (F := Ideal) V c).arrAt_eq_of_cover 3 (dense (V c main_v104) (V c main_arg12) (V c main_v105))
    (fun t _ => DenseB.flushed4_eq V c t) DenseB.cover4

/-- After region 5 its output array is the dense layer of the three arrays as the region finds them. -/
theorem region5 (c : Dev nD) : (dat5 (F := Ideal) V c).arrAt 3 cfg5.N = dense (V c main_v104) (V c main_arg14) (V c main_v156) :=
  (dat5 (F := Ideal) V c).arrAt_eq_of_cover 3 (dense (V c main_v104) (V c main_arg14) (V c main_v156))
    (fun t _ => DenseB.flushed5_eq V c t) DenseB.cover5

/-- After region 7 its output array is the dense layer of the three arrays as the region finds them. -/
theorem region7 (c : Dev nD) : (dat7 (F := Ideal) V c).arrAt 3 cfg7.N = dense (V c main_v208) (V c main_arg18) (V c main_arg19) :=
  (dat7 (F := Ideal) V c).arrAt_eq_of_cover 3 (dense (V c main_v208) (V c main_arg18) (V c main_arg19))
    (fun t _ => DenseB.flushed7_eq V c t) DenseB.cover7

end Cert.KernelIdeal.RegVal
end
-- ==== Proof.DenseC.lean ====
/-
  Regions 2 and 6 of the kernel program: the two dense layers over 256 input columns followed by the maximum with zero.

  Each is a pipeline of ten points; point `t` stages rows `5000 t … 5000 t + 4999` of the input array, the whole weight
  matrix and the whole bias vector, and writes back rows `5000 t …` of the output array. At the extended reals the body's
  truncations are identities and the product accumulated into the zero splat is the plain sum over the 256 columns, so the
  block a point writes is its rows of `denseRelu` of the three arrays as the region finds them; the ten blocks tile the
  output, hence the output array after the region is `denseRelu` of those arrays.
-/
import proofs.«406451_j67508295958856_1_alg».proof.Proof.Gen.KernelIdeal.Frame
import proofs.«406451_j67508295958856_1_alg».proof.Proof.Spec
import Idealize.ShloMosaic.Lib.Pipeline.Value
import Idealize.ShloMosaic.PureOps.Ideal.Laws
import Idealize.ShloMosaic.Lib.ValueIdx
import Idealize.ShloMosaic.Lib.ValueLayout
noncomputable section
namespace Cert.KernelIdeal.RegVal
open Idealize.ShloMosaic Idealize.ShloMosaic.TcCoe Idealize.SL.Sem Cert.KernelIdeal Cert.KernelIdeal.Gen Cert.Bridge
variable (V : (c : Dev nD) → (b : Ref sig .tc) → Buf (Elt Ideal) ((c : Thread nD τ).loc b))

namespace Relu256
open Idealize.ShloMosaic.ValueIdx

/-! ## The contraction over 256 input columns, read at an index -/

theorem lhs256_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs256_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs256_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs256_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- A 5000×256 block times a 256×128 matrix, accumulated into zero: entry `(p, q)` is `∑ k, x p k · w k q`. -/
theorem matmul256_apply (x : FVec Ideal S5000x256 .bf16) (w : FVec Ideal S256x128 .bf16) (p : Fin 5000) (q : Fin 128) :
    matmul dot_S5000x256_S256x128_S5000x128_1_0_0_1_n_n none x w (constant (F := Ideal) S5000x128 .f32 0x00000000#32) (ix2 p q)
      = ∑ k : Fin 256, x (ix2 p k) * w (ix2 k q) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhs256_0 _ _
    | ⟨1, _⟩ => exact (lhs256_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhs256_0 _ _).trans hk
    | ⟨1, _⟩ => exact rhs256_1 _ _)
  rw [el, er]

/-! ## A block of 5000 rows of the layer -/

theorem zeros2 : (![0, 0] : Fin 2 → Nat) = fun _ => 0 := funext fun a => by fin_cases a <;> rfl
theorem zeros1 : (![0] : Fin 1 → Nat) = fun _ => 0 := funext fun a => by fin_cases a <;> rfl

/-- If a block `f` is `max ((∑ k, x p k · w k q) + b q) 0` entry by entry, where `x` holds rows `5000 n …` of `X` and
    `w`, `b` are `W`, `B`, then `f` at `j` is the layer `denseRelu X W B` at row `5000 n + j₀`, column `j₁`. -/
theorem denseRelu_block (f : FVec Ideal S5000x128 .f32)
    (x : Vec Ideal S5000x256 .f32) (w : Vec Ideal S256x128 .f32) (b : Vec Ideal S128 .f32)
    (hf : ∀ (p : Fin 5000) (q : Fin 128), f (ix2 p q) = max ((∑ k : Fin 256, x (ix2 p k) * w (ix2 k q)) + b (ix1 q)) 0)
    (X : FVec Ideal SN256 .f32) (W : FVec Ideal SW256 .f32) (B : FVec Ideal SB128 .f32) (n : ℕ)
    (hx : ∀ (p : Fin 5000) (k : Fin 256) (r : Fin 50000), r.val = n * 5000 + p.val → x (ix2 p k) = X (ix2 r k))
    (hw : ∀ (k : Fin 256) (q : Fin 128), w (ix2 k q) = W (ix2 k q)) (hb : ∀ q : Fin 128, b (ix1 q) = B (ix1 q))
    (j : S5000x128.Idx) (i : SN128.Idx) (hi0 : (i 0).val = n * 5000 + (j 0).val) (hi1 : (i 1).val = (j 1).val) :
    f j = denseRelu X W B i := by
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q' = q := Fin.ext hi1
  rw [hf]
  show _ = max ((∑ k : Fin 256, X (ix2 r k) * W (ix2 k q')) + B (ix1 q')) 0
  rw [hb q']
  refine congrArg (fun s => max (s + B (ix1 q')) 0) (Finset.sum_congr rfl fun k _ => ?_)
  rw [hx p k r hi0, hw k q']

/-! ## Region 2 -/

/-- Region 2's body on a block of rows `x`, the weight matrix `w` and the bias `b`: entry `(p, q)` is
    `max ((∑ k, x p k · w k q) + b q) 0`. The cast of `x` to its own shape and the two truncations are identities at
    the extended reals; the bias row is broadcast down the rows; the zero splat's word is `0`. -/
theorem pay2_apply (x : Vec Ideal S5000x256 .f32) (w : Vec Ideal S256x128 .f32) (b : Vec Ideal S128 .f32) (p : Fin 5000) (q : Fin 128) :
    k2_pay1 (F := Ideal) x w b (ix2 p q) = max ((∑ k : Fin 256, x (ix2 p k) * w (ix2 k q)) + b (ix1 q)) 0 := by
  unfold k2_pay1
  refine (maximumf_apply _ _ _).trans ?_
  refine congrArg₂ max ?_ ?_
  · refine (addf_apply _ _ _).trans ?_
    refine congrArg₂ (· + ·) ?_ ?_
    · refine (matmul256_apply _ _ p q).trans ?_
      refine Finset.sum_congr rfl fun k _ => ?_
      rw [truncf_apply, truncf_apply, shapeCast_self]
    · exact (broadcastTo_1b_ab_apply _ _ p q).trans (shapeCast_a_1a_apply b _ 0 q)
  · exact (broadcast_apply _ _).trans Ideal.ofBits_zero_f32

/-- The printed index maps of region 2, decided over its ten points: the row blocks of the input and of the output move
    with the point, the weight matrix and the bias are staged whole. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- The input block at point `t` is rows `5000 t … 5000 t + 4999` of the input array. -/
theorem iblk2_0_apply (c : Dev nD) (t : Fin cfg2.N) (p : Fin 5000) (k : Fin 256) (r : Fin 50000) (hr : r.val = t.val * 5000 + p.val) :
    (iblk2 V c 0 t : Vec Ideal S5000x256 .f32) (ix2 p k) = (V c main_v102 : SN256.Idx → EReal) (ix2 r k) := by
  obtain ⟨e00, e01, -⟩ := idx2 t
  unfold iblk2
  rw [View.read_apply]
  show V c main_v102 (((cfg2.win 0).blk t).view.emb (ix2 p k)) = V c main_v102 (ix2 r k)
  refine congrArg (V c main_v102) (funext fun a => Fin.ext ?_)
  match a with
  | ⟨0, _⟩ => show win2_0.index t (0 : Fin 2) * 5000 + 1 * p.val = r.val; omega
  | ⟨1, _⟩ => show win2_0.index t (1 : Fin 2) * 256 + 1 * k.val = k.val; omega

/-- The weight block at every point is the whole weight matrix. -/
theorem iblk2_1_apply (c : Dev nD) (t : Fin cfg2.N) (k : Fin 256) (q : Fin 128) :
    (iblk2 V c 1 t : Vec Ideal S256x128 .f32) (ix2 k q) = (V c main_arg8 : SW256.Idx → EReal) (ix2 k q) := by
  obtain ⟨-, -, e10, e11, -⟩ := idx2 t
  unfold iblk2
  rw [View.read_apply]
  show V c main_arg8 (((cfg2.win 1).blk t).view.emb (ix2 k q)) = V c main_arg8 (ix2 k q)
  refine congrArg (V c main_arg8) (funext fun a => Fin.ext ?_)
  match a with
  | ⟨0, _⟩ => show win2_1.index t (0 : Fin 2) * 256 + 1 * k.val = k.val; omega
  | ⟨1, _⟩ => show win2_1.index t (1 : Fin 2) * 128 + 1 * q.val = q.val; omega

/-- The bias block at every point is the whole bias vector. -/
theorem iblk2_2_apply (c : Dev nD) (t : Fin cfg2.N) (q : Fin 128) :
    (iblk2 V c 2 t : Vec Ideal S128 .f32) (ix1 q) = (V c main_arg9 : SB128.Idx → EReal) (ix1 q) := by
  obtain ⟨-, -, -, -, e20, -⟩ := idx2 t
  unfold iblk2
  rw [View.read_apply]
  show V c main_arg9 (((cfg2.win 2).blk t).view.emb (ix1 q)) = V c main_arg9 (ix1 q)
  refine congrArg (V c main_arg9) (funext fun a => Fin.ext ?_)
  match a with
  | ⟨0, _⟩ => show win2_2.index t (0 : Fin 1) * 128 + 1 * q.val = q.val; omega

/-- What point `t` writes back is block `t` of the dense layer of the three arrays as the region finds them. -/
theorem flushed2_eq (c : Dev nD) (t : Fin cfg2.N) :
    (dat2 (F := Ideal) V c).flushed 3 t
      = ((cfg2.win 3).blk t).view.read (Elt Ideal) (denseRelu (V c main_v102) (V c main_arg8) (V c main_arg9)) := by
  show (cfg2.win 3).cut (grid2.coords t) ((dat2 V c).after 3 t) = _
  rw [after2_3]
  unfold out2_3
  rw [View.canon_unit_zero zeros2]
  simp only [View.ld_unit_zero (S := S5000x256) zeros2, View.ld_unit_zero (S := S256x128) zeros2, View.ld_unit_zero (S := S128) zeros1]
  obtain ⟨-, -, -, -, -, e30, e31⟩ := idx2 t
  funext j
  show k2_pay1 (F := Ideal) (iblk2 V c 0 t) (iblk2 V c 1 t) (iblk2 V c 2 t) j
    = denseRelu (V c main_v102) (V c main_arg8) (V c main_arg9) (((cfg2.win 3).blk t).view.emb j)
  refine denseRelu_block (k2_pay1 (F := Ideal) (iblk2 V c 0 t) (iblk2 V c 1 t) (iblk2 V c 2 t))
    (iblk2 V c 0 t) (iblk2 V c 1 t) (iblk2 V c 2 t) (pay2_apply (iblk2 V c 0 t) (iblk2 V c 1 t) (iblk2 V c 2 t))
    (V c main_v102) (V c main_arg8) (V c main_arg9) t.val
    (fun p k r hr => iblk2_0_apply V c t p k r hr) (fun k q => iblk2_1_apply V c t k q) (fun q => iblk2_2_apply V c t q)
    j (((cfg2.win 3).blk t).view.emb j) ?_ ?_
  · show win2_3.index t (0 : Fin 2) * 5000 + 1 * (j 0).val = t.val * 5000 + (j 0).val; omega
  · show win2_3.index t (1 : Fin 2) * 128 + 1 * (j 1).val = (j 1).val; omega

/-- An index of the output array is in point `t`'s block iff each coordinate is in the block's range on its axis. -/
theorem mem_blk2 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v103).slice (win2_3.rect t)).set ↔ _
  rw [View.set_slice_whole, Rect.mem_set_unit]
  exact Iff.rfl

/-- Every row `r` of the output lies in the block of point `r / 5000`. -/
theorem cover2 (i : S50000x128.Idx) : ∃ t : Fin cfg2.N, (cfg2.win 3).flush t = true ∧ i ∈ ((cfg2.win 3).blk t).view.set := by
  have hN : grid2.N = 10 := N_2
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, by show (i 0).val / 5000 < grid2.N; omega⟩, rfl⟩
  obtain ⟨-, -, -, -, -, e30, e31⟩ := idx2 t
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-! ## Region 6 -/

/-- Region 6's body on a block of rows `x`, the weight matrix `w` and the bias `b`: entry `(p, q)` is
    `max ((∑ k, x p k · w k q) + b q) 0`. The cast of `x` to its own shape and the two truncations are identities at
    the extended reals; the bias row is broadcast down the rows; the zero splat's word is `0`. -/
theorem pay6_apply (x : Vec Ideal S5000x256 .f32) (w : Vec Ideal S256x128 .f32) (b : Vec Ideal S128 .f32) (p : Fin 5000) (q : Fin 128) :
    k6_pay1 (F := Ideal) x w b (ix2 p q) = max ((∑ k : Fin 256, x (ix2 p k) * w (ix2 k q)) + b (ix1 q)) 0 := by
  unfold k6_pay1
  refine (maximumf_apply _ _ _).trans ?_
  refine congrArg₂ max ?_ ?_
  · refine (addf_apply _ _ _).trans ?_
    refine congrArg₂ (· + ·) ?_ ?_
    · refine (matmul256_apply _ _ p q).trans ?_
      refine Finset.sum_congr rfl fun k _ => ?_
      rw [truncf_apply, truncf_apply, shapeCast_self]
    · exact (broadcastTo_1b_ab_apply _ _ p q).trans (shapeCast_a_1a_apply b _ 0 q)
  · exact (broadcast_apply _ _).trans Ideal.ofBits_zero_f32

/-- The printed index maps of region 6, decided over its ten points: the row blocks of the input and of the output move
    with the point, the weight matrix and the bias are staged whole. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = t.val ∧ win6_3.index t (1 : Fin 2) = 0 :=
  (by decide +kernel : ∀ t : Fin grid6.N, _)

/-- The input block at point `t` is rows `5000 t … 5000 t + 4999` of the input array. -/
theorem iblk6_0_apply (c : Dev nD) (t : Fin cfg6.N) (p : Fin 5000) (k : Fin 256) (r : Fin 50000) (hr : r.val = t.val * 5000 + p.val) :
    (iblk6 V c 0 t : Vec Ideal S5000x256 .f32) (ix2 p k) = (V c main_v207 : SN256.Idx → EReal) (ix2 r k) := by
  obtain ⟨e00, e01, -⟩ := idx6 t
  unfold iblk6
  rw [View.read_apply]
  show V c main_v207 (((cfg6.win 0).blk t).view.emb (ix2 p k)) = V c main_v207 (ix2 r k)
  refine congrArg (V c main_v207) (funext fun a => Fin.ext ?_)
  match a with
  | ⟨0, _⟩ => show win6_0.index t (0 : Fin 2) * 5000 + 1 * p.val = r.val; omega
  | ⟨1, _⟩ => show win6_0.index t (1 : Fin 2) * 256 + 1 * k.val = k.val; omega

/-- The weight block at every point is the whole weight matrix. -/
theorem iblk6_1_apply (c : Dev nD) (t : Fin cfg6.N) (k : Fin 256) (q : Fin 128) :
    (iblk6 V c 1 t : Vec Ideal S256x128 .f32) (ix2 k q) = (V c main_arg16 : SW256.Idx → EReal) (ix2 k q) := by
  obtain ⟨-, -, e10, e11, -⟩ := idx6 t
  unfold iblk6
  rw [View.read_apply]
  show V c main_arg16 (((cfg6.win 1).blk t).view.emb (ix2 k q)) = V c main_arg16 (ix2 k q)
  refine congrArg (V c main_arg16) (funext fun a => Fin.ext ?_)
  match a with
  | ⟨0, _⟩ => show win6_1.index t (0 : Fin 2) * 256 + 1 * k.val = k.val; omega
  | ⟨1, _⟩ => show win6_1.index t (1 : Fin 2) * 128 + 1 * q.val = q.val; omega

/-- The bias block at every point is the whole bias vector. -/
theorem iblk6_2_apply (c : Dev nD) (t : Fin cfg6.N) (q : Fin 128) :
    (iblk6 V c 2 t : Vec Ideal S128 .f32) (ix1 q) = (V c main_arg17 : SB128.Idx → EReal) (ix1 q) := by
  obtain ⟨-, -, -, -, e20, -⟩ := idx6 t
  unfold iblk6
  rw [View.read_apply]
  show V c main_arg17 (((cfg6.win 2).blk t).view.emb (ix1 q)) = V c main_arg17 (ix1 q)
  refine congrArg (V c main_arg17) (funext fun a => Fin.ext ?_)
  match a with
  | ⟨0, _⟩ => show win6_2.index t (0 : Fin 1) * 128 + 1 * q.val = q.val; omega

/-- What point `t` writes back is block `t` of the dense layer of the three arrays as the region finds them. -/
theorem flushed6_eq (c : Dev nD) (t : Fin cfg6.N) :
    (dat6 (F := Ideal) V c).flushed 3 t
      = ((cfg6.win 3).blk t).view.read (Elt Ideal) (denseRelu (V c main_v207) (V c main_arg16) (V c main_arg17)) := by
  show (cfg6.win 3).cut (grid6.coords t) ((dat6 V c).after 3 t) = _
  rw [after6_3]
  unfold out6_3
  rw [View.canon_unit_zero zeros2]
  simp only [View.ld_unit_zero (S := S5000x256) zeros2, View.ld_unit_zero (S := S256x128) zeros2, View.ld_unit_zero (S := S128) zeros1]
  obtain ⟨-, -, -, -, -, e30, e31⟩ := idx6 t
  funext j
  show k6_pay1 (F := Ideal) (iblk6 V c 0 t) (iblk6 V c 1 t) (iblk6 V c 2 t) j
    = denseRelu (V c main_v207) (V c main_arg16) (V c main_arg17) (((cfg6.win 3).blk t).view.emb j)
  refine denseRelu_block (k6_pay1 (F := Ideal) (iblk6 V c 0 t) (iblk6 V c 1 t) (iblk6 V c 2 t))
    (iblk6 V c 0 t) (iblk6 V c 1 t) (iblk6 V c 2 t) (pay6_apply (iblk6 V c 0 t) (iblk6 V c 1 t) (iblk6 V c 2 t))
    (V c main_v207) (V c main_arg16) (V c main_arg17) t.val
    (fun p k r hr => iblk6_0_apply V c t p k r hr) (fun k q => iblk6_1_apply V c t k q) (fun q => iblk6_2_apply V c t q)
    j (((cfg6.win 3).blk t).view.emb j) ?_ ?_
  · show win6_3.index t (0 : Fin 2) * 5000 + 1 * (j 0).val = t.val * 5000 + (j 0).val; omega
  · show win6_3.index t (1 : Fin 2) * 128 + 1 * (j 1).val = (j 1).val; omega

/-- An index of the output array is in point `t`'s block iff each coordinate is in the block's range on its axis. -/
theorem mem_blk6 (t : Fin cfg6.N) (i : S50000x128.Idx) :
    i ∈ ((cfg6.win 3).blk t).view.set ↔ ∀ a : Fin 2, win6_3.index t a * S5000x128.size a ≤ (i a).val ∧ (i a).val < win6_3.index t a * S5000x128.size a + S5000x128.size a := by
  show i ∈ ((View.whole main_v208).slice (win6_3.rect t)).set ↔ _
  rw [View.set_slice_whole, Rect.mem_set_unit]
  exact Iff.rfl

/-- Every row `r` of the output lies in the block of point `r / 5000`. -/
theorem cover6 (i : S50000x128.Idx) : ∃ t : Fin cfg6.N, (cfg6.win 3).flush t = true ∧ i ∈ ((cfg6.win 3).blk t).view.set := by
  have hN : grid6.N = 10 := N_6
  have hi0 : (i 0).val < 50000 := (i 0).isLt
  have hi1 : (i 1).val < 128 := (i 1).isLt
  obtain ⟨t, ht⟩ : ∃ t : Fin cfg6.N, t.val = (i 0).val / 5000 :=
    ⟨⟨(i 0).val / 5000, by show (i 0).val / 5000 < grid6.N; omega⟩, rfl⟩
  obtain ⟨-, -, -, -, -, e30, e31⟩ := idx6 t
  refine ⟨t, flush6_3 t, ?_⟩
  rw [mem_blk6]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 128 ≤ (i 1).val ∧ (i 1).val < win6_3.index t (1 : Fin 2) * 128 + 128; omega

end Relu256

/-- Region 2 leaves its output array at the dense layer over 256 input columns, then the maximum with zero, of the input
    array, the weight matrix and the bias as it finds them. -/
theorem region2 (c : Dev nD) : (dat2 (F := Ideal) V c).arrAt 3 cfg2.N = denseRelu (V c main_v102) (V c main_arg8) (V c main_arg9) :=
  (dat2 (F := Ideal) V c).arrAt_eq_of_cover 3 (denseRelu (V c main_v102) (V c main_arg8) (V c main_arg9))
    (fun t _ => Relu256.flushed2_eq V c t) Relu256.cover2

/-- Region 6 likewise, of its own three arrays. -/
theorem region6 (c : Dev nD) : (dat6 (F := Ideal) V c).arrAt 3 cfg6.N = denseRelu (V c main_v207) (V c main_arg16) (V c main_arg17) :=
  (dat6 (F := Ideal) V c).arrAt_eq_of_cover 3 (denseRelu (V c main_v207) (V c main_arg16) (V c main_arg17))
    (fun t _ => Relu256.flushed6_eq V c t) Relu256.cover6

end Cert.KernelIdeal.RegVal
end
-- ==== Proof.PoolR8.lean ====
/-
  Region 8, the pooling: ten grid points, each staging 5000 rows of the label column and of the feature array; the
  output is ONE [128, 128] block, the same at every point, carried from point to point and written back after the last.

  The first point stores the zero block; every point then adds to the block, at entry `(d, g)`, the matrix product of
  its feature block with its indicator block, contracted over the rows: `∑ r, h r d · [label r = g]`, the indicator being
  the extended real `1` where the row's label word is the word of `g` and `0` elsewhere. So after point `n` entry
  `(d, g)` is the sum of the contributions of blocks `0 … n` (induction on the point), and after the last point it is
  the sum over all 50000 rows, the rows being the ten blocks of 5000: row `r` of block `a` is row `r + 5000·a`.
  Only commutativity and associativity of `+` on the extended reals are used, and `0 + x = x`; no entry need be finite.
-/
import proofs.«406451_j67508295958856_1_alg».proof.Proof.Gen.KernelIdeal.Frame
import proofs.«406451_j67508295958856_1_alg».proof.Proof.Spec
import Idealize.ShloMosaic.Lib.Pipeline.Value
import Idealize.ShloMosaic.PureOps.Ideal.Laws
import Idealize.ShloMosaic.Lib.ValueIdx
import Idealize.ShloMosaic.Lib.ValueLayout
noncomputable section
namespace Cert.KernelIdeal.RegVal
open Idealize.ShloMosaic Idealize.ShloMosaic.TcCoe Idealize.SL.Sem Cert.KernelIdeal Cert.KernelIdeal.Gen Cert.Bridge
variable (V : (c : Dev nD) → (b : Ref sig .tc) → Buf (Elt Ideal) ((c : Thread nD τ).loc b))

namespace Pool8

theorem hz2 : (![0, 0] : Fin 2 → Nat) = fun _ => 0 := funext fun a => by fin_cases a <;> rfl

/-- At a point other than the first the body's one covering store leaves its payload: the label block, the feature
    block and the previous contents of the output block, each loaded whole. -/
theorem out8_B_2_eq {F : FTy → Type} [FloatOps F] (c : Dev nD) (i : grid8.Coords) (a1 : Memref sig .tc .vmem S5000x1 .i32) (h1 : a1.IsWhole)
    (a2 : Memref sig .tc .vmem S5000x128 .f32) (h2 : a2.IsWhole) (a3 : Memref sig .tc .vmem S128x128 .f32) (h3 : a3.IsWhole)
    (hc : ¬cond8_0 i) (x0 : Vec F S5000x1 .i32) (x1 : Vec F S5000x128 .f32) (xo2 : Vec F S128x128 .f32) :
    out8_B_2 c i a1 h1 a2 h2 a3 h3 hc x0 x1 xo2 = k8_pay2 x0 x1 xo2 := by
  unfold out8_B_2
  rw [View.read_writes_eq_canon _ _ _ (cover8_B_2 c i a1 h1 a2 h2 a3 h3 hc x0 x1 xo2)]
  unfold kernelRun8_B
  dsimp only
  sl_unfold_words
  rw [View.canon_unit_zero hz2]
  simp only [View.readAt_eq_ld, h1.read_unread, h2.read_unread, h3.read_unread, View.ld_unit_zero (S := S5000x1) hz2,
    View.ld_unit_zero (S := S5000x128) hz2, View.ld_unit_zero (S := S128x128) hz2]

/-- At the first point the body first stores the zero block, then reads it back as the previous contents: the same
    payload over the zero block. -/
theorem out8_A_2_eq {F : FTy → Type} [FloatOps F] (c : Dev nD) (i : grid8.Coords) (a1 : Memref sig .tc .vmem S5000x1 .i32) (h1 : a1.IsWhole)
    (a2 : Memref sig .tc .vmem S5000x128 .f32) (h2 : a2.IsWhole) (a3 : Memref sig .tc .vmem S128x128 .f32) (h3 : a3.IsWhole)
    (hc : cond8_0 i) (x0 : Vec F S5000x1 .i32) (x1 : Vec F S5000x128 .f32) :
    out8_A_2 c i a1 h1 a2 h2 a3 h3 hc x0 x1 = k8_pay2 x0 x1 (k8_pay1 (F := F)) := by
  unfold out8_A_2
  rw [View.read_writes_eq_canon _ _ _ (cover8_A_2 c i a1 h1 a2 h2 a3 h3 hc x0 x1)]
  unfold kernelRun8_A
  dsimp only
  sl_unfold_words
  rw [View.canon_cons_unit_zero (S := S128x128) hz2, View.readCov_unit_zero (S := S128x128) _ hz2]
  simp only [View.readAt_eq_ld, h1.read_unread, h2.read_unread, View.ld_unit_zero (S := S5000x1) hz2,
    View.ld_unit_zero (S := S5000x128) hz2]

/-- The indicator's element: a one-bit equality test, zero-extended to 32 bits and read as a signed integer, is the
    extended real `1` when the two words agree and `0` when they do not. -/
theorem onehot_elt (x y : BitVec 32) :
    (FloatOps.sitofp (F := Ideal) .f32 ((IntOp.cmpi .eq x y).setWidth 32) : EReal) = if x = y then (1 : EReal) else 0 := by
  show ((((IntOp.cmpi .eq x y).setWidth 32).toInt : ℝ) : EReal) = _
  by_cases h : x = y
  · have e : IntOp.cmpi .eq x y = 1#1 := by subst h; simp [IntOp.cmpi]
    rw [if_pos h, e, show ((1#1 : BitVec 1).setWidth 32).toInt = 1 from by decide]
    norm_num
  · have hb : (x == y) = false := by simpa using h
    have e : IntOp.cmpi .eq x y = 0#1 := by simp [IntOp.cmpi, hb]
    rw [if_neg h, e, show ((0#1 : BitVec 1).setWidth 32).toInt = 0 from by decide]
    norm_num

/-- The indicator block at row `r`, column `g`: the row's label word, broadcast along the columns, against the column
    number's word. -/
theorem onehot_apply (lb : IVec S5000x1 32) (r : Fin 5000) (g : Fin 128) :
    (truncf .bf16 (sitofp (F := Ideal) .f32 (extui 32 (cmpi .eq
      (broadcastTo S5000x128 lb broadcasts_S5000x1_S5000x128)
      (iota .tc S5000x128 32 [1] iota_S5000x128_d1_w32)) natLt_1_32)) bitsLt_bf16_f32 : FVec Ideal S5000x128 .bf16) (ValueIdx.ix2 r g)
      = if lb (ValueIdx.ix2 r 0) = BitVec.ofNat 32 g.val then (1 : EReal) else 0 := by
  rw [ValueIdx.truncf_apply, ValueIdx.sitofp_apply, ValueIdx.extui_apply]
  show FloatOps.sitofp .f32 ((IntOp.cmpi .eq
      (broadcastTo S5000x128 lb broadcasts_S5000x1_S5000x128 (ValueIdx.ix2 r g))
      (iota .tc S5000x128 32 [1] iota_S5000x128_d1_w32 (ValueIdx.ix2 r g))).setWidth 32) = _
  rw [broadcastTo_apply _ _ (ValueIdx.ix2 r g) (ValueIdx.ix2 r 0) (fun a => by
      match a with
      | ⟨0, _⟩ => rfl
      | ⟨1, _⟩ => rfl),
    iota_single_apply, onehot_elt]

/-! The matrix product contracts the ROW axis of both operands: at output entry `(d, g)` and contraction position `r`
    the left operand is read at `(r, d)` and the right at `(r, g)`. -/
theorem lhs_pool_0 (i : S128x128.Idx) (q : dot_S5000x128_S5000x128_S128x128_0_0_1_1_n_n.contr.Idx) :
    (dot_S5000x128_S5000x128_S128x128_0_0_1_1_n_n.lhsIdx i q 0).val = (q ⟨0, by decide⟩).val :=
  dot_S5000x128_S5000x128_S128x128_0_0_1_1_n_n.lhsIdx_val_of_single rfl i q
theorem lhs_pool_1 (i : S128x128.Idx) (q : dot_S5000x128_S5000x128_S128x128_0_0_1_1_n_n.contr.Idx) :
    (dot_S5000x128_S5000x128_S128x128_0_0_1_1_n_n.lhsIdx i q 1).val = (i 0).val := by
  unfold DotDims.lhsIdx
  rw [dif_neg (show ¬(1 : Fin S5000x128.rank) ∈ dot_S5000x128_S5000x128_S128x128_0_0_1_1_n_n.lhsBatch by decide), dif_pos (show (1 : Fin S5000x128.rank) ∈ dot_S5000x128_S5000x128_S128x128_0_0_1_1_n_n.lhsNonContracting by decide)]
  rfl
theorem rhs_pool_0 (i : S128x128.Idx) (q : dot_S5000x128_S5000x128_S128x128_0_0_1_1_n_n.contr.Idx) :
    (dot_S5000x128_S5000x128_S128x128_0_0_1_1_n_n.rhsIdx i q 0).val = (q ⟨0, by decide⟩).val :=
  dot_S5000x128_S5000x128_S128x128_0_0_1_1_n_n.rhsIdx_val_of_single rfl i q
theorem rhs_pool_1 (i : S128x128.Idx) (q : dot_S5000x128_S5000x128_S128x128_0_0_1_1_n_n.contr.Idx) :
    (dot_S5000x128_S5000x128_S128x128_0_0_1_1_n_n.rhsIdx i q 1).val = (i 1).val := by
  unfold DotDims.rhsIdx
  rw [dif_neg (show ¬(1 : Fin S5000x128.rank) ∈ dot_S5000x128_S5000x128_S128x128_0_0_1_1_n_n.rhsBatch by decide), dif_pos (show (1 : Fin S5000x128.rank) ∈ dot_S5000x128_S5000x128_S128x128_0_0_1_1_n_n.rhsNonContracting by decide)]
  rfl

/-- The body's payload at entry `(d, g)`: the previous contents there plus, over the block's 5000 rows, the feature
    `(r, d)` times the indicator that row `r`'s label is `g`. -/
theorem k8_pay2_apply (lb : IVec S5000x1 32) (h : FVec Ideal S5000x128 .f32) (acc : FVec Ideal S128x128 .f32) (d g : Fin 128) :
    k8_pay2 (F := Ideal) lb h acc (ValueIdx.ix2 d g)
      = acc (ValueIdx.ix2 d g) + ∑ r : Fin 5000, h (ValueIdx.ix2 r d) * (if lb (ValueIdx.ix2 r 0) = BitVec.ofNat 32 g.val then (1 : EReal) else 0) := by
  unfold k8_pay2
  dsimp only
  simp only [shapeCast_self]
  rw [ValueIdx.addf_apply]
  simp only [matmul]
  rw [Ideal.matmul_constant_zero_apply, ← Equiv.sum_comp (ValueIdx.contrEquiv1 dot_S5000x128_S5000x128_S128x128_0_0_1_1_n_n 5000 rfl rfl).symm]
  refine congrArg (acc (ValueIdx.ix2 d g) + ·) (Finset.sum_congr rfl fun r _ => ?_)
  have hk := ValueIdx.contrEquiv1_symm_val dot_S5000x128_S5000x128_S128x128_0_0_1_1_n_n 5000 rfl rfl r
  have el : dot_S5000x128_S5000x128_S128x128_0_0_1_1_n_n.lhsIdx (ValueIdx.ix2 d g) ((ValueIdx.contrEquiv1 dot_S5000x128_S5000x128_S128x128_0_0_1_1_n_n 5000 rfl rfl).symm r) = ValueIdx.ix2 r d := funext fun a => Fin.ext (by
    match a with
    | ⟨0, _⟩ => exact (lhs_pool_0 _ _).trans hk
    | ⟨1, _⟩ => exact lhs_pool_1 _ _)
  have er : dot_S5000x128_S5000x128_S128x128_0_0_1_1_n_n.rhsIdx (ValueIdx.ix2 d g) ((ValueIdx.contrEquiv1 dot_S5000x128_S5000x128_S128x128_0_0_1_1_n_n 5000 rfl rfl).symm r) = ValueIdx.ix2 r g := funext fun a => Fin.ext (by
    match a with
    | ⟨0, _⟩ => exact (rhs_pool_0 _ _).trans hk
    | ⟨1, _⟩ => exact rhs_pool_1 _ _)
  rw [el, er, ValueIdx.truncf_apply, onehot_apply]

/-! ## The blocks and the arrays, named at their literal types -/

/-- The label column's block at point `t`: rows `5000·t …` of the label array. -/
abbrev lblk (c : Dev nD) (t : Fin cfg8.N) : IVec S5000x1 32 := iblk8 V c 0 t
/-- The feature array's block at point `t`: the same rows of the features. -/
abbrev hblk (c : Dev nD) (t : Fin cfg8.N) : FVec Ideal S5000x128 .f32 := iblk8 V c 1 t
/-- The label array and the feature array as the region finds them. -/
abbrev larr (c : Dev nD) : IVec SN1 32 := V c main_v210
abbrev harr (c : Dev nD) : FVec Ideal SN128 .f32 := V c main_v209

/-- Both input windows step along the rows with the point and never along the columns. -/
theorem idx8 : ∀ t : Fin cfg8.N, win8_0.index t 0 = t.val ∧ win8_0.index t 1 = 0 ∧ win8_1.index t 0 = t.val ∧ win8_1.index t 1 = 0 :=
  (by decide +kernel : ∀ t : Fin grid8.N, win8_0.index t 0 = t.val ∧ win8_0.index t 1 = 0 ∧ win8_1.index t 0 = t.val ∧ win8_1.index t 1 = 0)

theorem lt10 (t : Fin cfg8.N) : t.val < 10 := lt_of_lt_of_eq t.isLt (show cfg8.N = 10 from N_8)

/-- Row `r` of the label block at point `t` is row `r + 5000·t` of the label array. -/
theorem lblk_apply (c : Dev nD) (t : Fin cfg8.N) (r : Fin 5000) :
    lblk V c t (ValueIdx.ix2 r 0) = larr V c (ValueIdx.ix2 ⟨r.val + 5000 * t.val, by have := lt10 t; have := r.isLt; omega⟩ 0) := by
  unfold lblk iblk8
  rw [View.read_apply]
  show V c main_v210 _ = V c main_v210 _
  congr 1
  funext a
  apply Fin.ext
  match a with
  | ⟨0, _⟩ => show win8_0.index t 0 * 5000 + 1 * r.val = r.val + 5000 * t.val; rw [(idx8 t).1]; omega
  | ⟨1, _⟩ => show win8_0.index t 1 * 1 + 1 * 0 = 0; rw [(idx8 t).2.1]

/-- Entry `(r, d)` of the feature block at point `t` is entry `(r + 5000·t, d)` of the feature array. -/
theorem hblk_apply (c : Dev nD) (t : Fin cfg8.N) (r : Fin 5000) (d : Fin 128) :
    hblk V c t (ValueIdx.ix2 r d) = harr V c (ValueIdx.ix2 ⟨r.val + 5000 * t.val, by have := lt10 t; have := r.isLt; omega⟩ d) := by
  unfold hblk iblk8
  rw [View.read_apply]
  show V c main_v209 _ = V c main_v209 _
  congr 1
  funext a
  apply Fin.ext
  match a with
  | ⟨0, _⟩ => show win8_1.index t 0 * 5000 + 1 * r.val = r.val + 5000 * t.val; rw [(idx8 t).2.2.1]; omega
  | ⟨1, _⟩ => show win8_1.index t 1 * 128 + 1 * d.val = d.val; rw [(idx8 t).2.2.2]; omega

/-! ## The running sum -/

/-- Row `n`'s contribution to entry `(d, g)`: its feature `d` if its label is `g`, else nothing. -/
abbrev rowTerm (c : Dev nD) (d g : Fin 128) (n : Fin 50000) : EReal :=
  harr V c (ValueIdx.ix2 n d) * (if larr V c (ValueIdx.ix2 n 0) = BitVec.ofNat 32 g.val then (1 : EReal) else 0)

/-- The contribution of the 5000 rows of block `a`. -/
def blockTerm (c : Dev nD) (d g : Fin 128) (a : Fin 10) : EReal :=
  ∑ r : Fin 5000, rowTerm V c d g ⟨r.val + 5000 * a.val, by have := a.isLt; have := r.isLt; omega⟩

/-- At point `t` the payload adds block `t`'s contribution to whatever the output block held. -/
theorem point_apply (c : Dev nD) (t : Fin cfg8.N) (xo : FVec Ideal S128x128 .f32) (d g : Fin 128) :
    k8_pay2 (F := Ideal) (lblk V c t) (hblk V c t) xo (ValueIdx.ix2 d g)
      = xo (ValueIdx.ix2 d g) + blockTerm V c d g ⟨t.val, lt10 t⟩ := by
  rw [k8_pay2_apply]
  refine congrArg (xo (ValueIdx.ix2 d g) + ·) (Finset.sum_congr rfl fun r _ => ?_)
  rw [hblk_apply, lblk_apply]

/-- The zero block the first point stores reads the extended real `0` everywhere. -/
theorem k8_pay1_apply (i : S128x128.Idx) : k8_pay1 (F := Ideal) i = 0 := by
  unfold k8_pay1
  exact Ideal.ofBits_zero_f32

/-- THE INVARIANT: after point `n` the output block's entry `(d, g)` is the sum of the contributions of blocks
    `0 … n` — by induction on the point: the first point starts from the zero block, every later one from what the
    point before left. -/
theorem outsAt8_eq (c : Dev nD) (d g : Fin 128) : ∀ (n : ℕ) (hn : n < cfg8.N),
    (outsAt8 V c n hn : FVec Ideal S128x128 .f32) (ValueIdx.ix2 d g)
      = ∑ a : Fin (n + 1), blockTerm V c d g ⟨a.val, by have := a.isLt; have := lt10 ⟨n, hn⟩; dsimp only at this; omega⟩
  | 0, hn => by
    rw [outsAt8_A V c ⟨0, hn⟩ rfl]
    refine (congrFun (out8_A_2_eq (F := Ideal) c (grid8.coords ⟨0, hn⟩) (ms8_0 ⟨0, hn⟩) (hs8_0 ⟨0, hn⟩) (ms8_1 ⟨0, hn⟩) (hs8_1 ⟨0, hn⟩)
      (ms8_2 ⟨0, hn⟩) (hs8_2 ⟨0, hn⟩) ((hcond8_0 ⟨0, hn⟩).mpr rfl) (lblk V c ⟨0, hn⟩) (hblk V c ⟨0, hn⟩)) (ValueIdx.ix2 d g)).trans ?_
    rw [point_apply, k8_pay1_apply, zero_add, Fin.sum_univ_one]
    rfl
  | n + 1, hn => by
    have hB : ¬(⟨n + 1, hn⟩ : Fin cfg8.N).val % 10 = 0 := by have := lt10 ⟨n + 1, hn⟩; dsimp only at this ⊢; omega
    rw [outsAt8_B V c ⟨n + 1, hn⟩ hB]
    refine (congrFun (out8_B_2_eq (F := Ideal) c (grid8.coords ⟨n + 1, hn⟩) (ms8_0 ⟨n + 1, hn⟩) (hs8_0 ⟨n + 1, hn⟩) (ms8_1 ⟨n + 1, hn⟩) (hs8_1 ⟨n + 1, hn⟩)
      (ms8_2 ⟨n + 1, hn⟩) (hs8_2 ⟨n + 1, hn⟩) (fun h => hB ((hcond8_0 ⟨n + 1, hn⟩).mp h)) (lblk V c ⟨n + 1, hn⟩) (hblk V c ⟨n + 1, hn⟩)
      (outsAt8 V c ((⟨n + 1, hn⟩ : Fin cfg8.N).val - 1) (Nat.lt_of_le_of_lt (Nat.sub_le _ _) (⟨n + 1, hn⟩ : Fin cfg8.N).isLt))) (ValueIdx.ix2 d g)).trans ?_
    rw [point_apply]
    show (outsAt8 V c n (Nat.lt_of_succ_lt hn) : FVec Ideal S128x128 .f32) (ValueIdx.ix2 d g) + _ = _
    rw [outsAt8_eq c d g n]
    conv_rhs => rw [Fin.sum_univ_castSucc]
    rfl

/-! ## The whole array -/

/-- The ten blocks of 5000 rows are all 50000 rows: row `r` of block `a` is row `r + 5000·a`. -/
theorem sum_blocks (c : Dev nD) (d g : Fin 128) :
    ∑ a : Fin 10, blockTerm V c d g a = ∑ n : Fin 50000, rowTerm V c d g n := by
  calc ∑ a : Fin 10, blockTerm V c d g a
      = ∑ p : Fin 10 × Fin 5000, rowTerm V c d g (finProdFinEquiv p) := by
        rw [Fintype.sum_prod_type]; rfl
    _ = ∑ n : Fin 50000, rowTerm V c d g n := Equiv.sum_comp (finProdFinEquiv (m := 10) (n := 5000)) (rowTerm V c d g)

/-- After the last point the output block holds the per-label column sums over all rows. -/
theorem outsAt8_last (c : Dev nD) (h9 : 9 < cfg8.N) :
    (outsAt8 V c 9 h9 : FVec Ideal S128x128 .f32) = poolT (larr V c) (harr V c) := by
  funext i
  obtain ⟨d, g, rfl⟩ : ∃ (d g : Fin 128), i = ValueIdx.ix2 d g := ⟨i 0, i 1, ValueIdx.eq_ix2 i⟩
  rw [outsAt8_eq V c d g 9 h9]
  exact (sum_blocks V c d g)

/-- The result as contents of the output array (its one block is the whole array). -/
abbrev result8 (c : Dev nD) : Buf (Elt Ideal) ((c : Thread nD τ).loc main_v211) := poolT (larr V c) (harr V c)

/-- The one write-back, after the last point, writes the per-label sums: block `(0, 0)` of the `[128, 128]` array read
    through zero offsets is the array. -/
theorem flushed_eq8 (c : Dev nD) (t : Fin cfg8.N) (hf : (cfg8.win 2).flush t = true) :
    (dat8 V c).flushed 2 t = ((cfg8.win 2).blk t).view.read (Elt Ideal) (result8 V c) := by
  have h9 : t.val = 9 := by have := (flush8_2 t).mp hf; have := lt10 t; omega
  obtain rfl : t = t8_9 := Fin.ext h9
  show (cfg8.win 2).cut (grid8.coords t8_9) ((dat8 V c).after 2 t8_9) = _
  rw [after8_2]
  have e : outsAt8 V c t8_9.val t8_9.isLt = result8 V c := outsAt8_last V c t8_9.isLt
  rw [e]
  have hz' : (fun a => win8_2.index t8_9 a * main_v211.ty.shape.size a) = fun _ => 0 := funext fun a => by fin_cases a <;> decide
  exact (Memref.read_access_unit_zero (Elt Ideal) main_v211 hz' (fun a => by rw [congrFun hz' a]; simp) (result8 V c)).symm

end Pool8

open Pool8

/-- REGION 8: the output array ends holding the per-label column sums of the feature array, transposed: the last point's
    block covers the whole array. -/
theorem region8 (c : Dev nD) : (dat8 (F := Ideal) V c).arrAt 2 cfg8.N = poolT (V c main_v210) (V c main_v209) :=
  (dat8 V c).arrAt_eq_of_cover 2 (result8 V c) (flushed_eq8 V c) fun i =>
    ⟨t8_9, (flush8_2 t8_9).mpr rfl, by
      show i ∈ ((View.whole main_v211).slice (win8_2.rect t8_9)).set
      rw [View.set_slice_whole, Rect.mem_set_unit]
      intro a
      have h0 : (i 0 : Nat) < 128 := (i 0).isLt
      have h1 : (i 1 : Nat) < 128 := (i 1).isLt
      match a with
      | ⟨0, _⟩ => show win8_2.index t8_9 0 * win8_2.size 0 ≤ (i 0 : Nat) ∧ (i 0 : Nat) < win8_2.index t8_9 0 * win8_2.size 0 + win8_2.xsize (grid8.coords t8_9) 0
                  rw [show win8_2.index t8_9 0 * win8_2.size 0 = 0 from by decide +kernel, show win8_2.xsize (grid8.coords t8_9) 0 = 128 from by decide +kernel]; omega
      | ⟨1, _⟩ => show win8_2.index t8_9 1 * win8_2.size 1 ≤ (i 1 : Nat) ∧ (i 1 : Nat) < win8_2.index t8_9 1 * win8_2.size 1 + win8_2.xsize (grid8.coords t8_9) 1
                  rw [show win8_2.index t8_9 1 * win8_2.size 1 = 0 from by decide +kernel, show win8_2.xsize (grid8.coords t8_9) 1 = 128 from by decide +kernel]; omega⟩

end Cert.KernelIdeal.RegVal
end
-- ==== Proof.RBound.lean ====
/-
  The reference's fold of its 285 operations, cut at the ten inner boundaries of its eleven stretches: the buffers' contents after each
  stretch (`V1` … `V11`, from the launch contents `L`), and the fold over the whole list as the last of them.
-/
import proofs.«406451_j67508295958856_1_alg».proof.Proof.RefRunA

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The fold over a joined list is the fold over its second part from the fold over its first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The maximum with zero, entry by entry. -/
def rRelu (x : (⟨S50000x128, .f32⟩ : BufTy).Contents (Elt F)) : (⟨S50000x128, .f32⟩ : BufTy).Contents (Elt F) :=
  maximumf x (broadcastInDim S50000x128 ![] bcast_S_S50000x128 (constant S_ .f32 0x00000000#32))

variable (L : Valuation τ sig (Elt F))

/-- The buffers after the first stretch. -/
def V1 : Valuation τ sig (Elt F) := after c0 L
/-- The buffers after stretch 2. -/
def V2 : Valuation τ sig (Elt F) := after c1 (V1 L)
/-- The buffers after stretch 3. -/
def V3 : Valuation τ sig (Elt F) := after c2 (V2 L)
/-- The buffers after stretch 4. -/
def V4 : Valuation τ sig (Elt F) := after c3 (V3 L)
/-- The buffers after stretch 5. -/
def V5 : Valuation τ sig (Elt F) := after c4 (V4 L)
/-- The buffers after stretch 6. -/
def V6 : Valuation τ sig (Elt F) := after c5 (V5 L)
/-- The buffers after stretch 7. -/
def V7 : Valuation τ sig (Elt F) := after c6 (V6 L)
/-- The buffers after stretch 8. -/
def V8 : Valuation τ sig (Elt F) := after c7 (V7 L)
/-- The buffers after stretch 9. -/
def V9 : Valuation τ sig (Elt F) := after c8 (V8 L)
/-- The buffers after stretch 10. -/
def V10 : Valuation τ sig (Elt F) := after c9 (V9 L)
/-- The buffers after stretch 11. -/
def V11 : Valuation τ sig (Elt F) := after c10 (V10 L)

theorem V1_eq : V1 L = after c0 L := rfl
theorem V2_eq : V2 L = after c1 (V1 L) := rfl
theorem V3_eq : V3 L = after c2 (V2 L) := rfl
theorem V4_eq : V4 L = after c3 (V3 L) := rfl
theorem V5_eq : V5 L = after c4 (V4 L) := rfl
theorem V6_eq : V6 L = after c5 (V5 L) := rfl
theorem V7_eq : V7 L = after c6 (V6 L) := rfl
theorem V8_eq : V8 L = after c7 (V7 L) := rfl
theorem V9_eq : V9 L = after c8 (V8 L) := rfl
theorem V10_eq : V10 L = after c9 (V9 L) := rfl
theorem V11_eq : V11 L = after c10 (V10 L) := rfl

/-- The fold over all of @main's operations is the contents after the last stretch. -/
theorem after_ops : after ops L = V11 L := by
  rw [ops_cut]
  simp only [after_append]
  rfl

/-- Reads a buffer that none of the operations up to a boundary writes: the boundaries unfolded, each operation passed by. -/
macro "rkeep" : tactic =>
  `(tactic| simp (disch := decide) only [V11_eq, V10_eq, V9_eq, V8_eq, V7_eq, V6_eq, V5_eq, V4_eq, V3_eq, V2_eq, V1_eq,
      StableHlo.after_cons, StableHlo.after_nil,
      StableHlo.nullary_result_ne', StableHlo.unary_result_ne', StableHlo.binary_result_ne', StableHlo.ternary_result_ne',
      StableHlo.quaternary_result_ne', StableHlo.reshape_result_ne', StableHlo.nary_result_ne', StableHlo.unaryIndexed_result_ne',
      StableHlo.binaryIndexed_result_ne'])

end Cert.ReferenceIdeal.HandRun

end
-- ==== Proof.RArgsA.lean ====
/-
  The reference's argument arrays at its stretch boundaries: no operation writes an argument, so at every boundary it holds the launch
  contents. One lemma per case the run's reading needs.
-/
import proofs.«406451_j67508295958856_1_alg».proof.Proof.RBound

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]
variable (L : Valuation τ sig (Elt F))

set_option maxHeartbeats 4000000 in
/-- None of the reference's operations up to boundary 1 writes argument 1. -/
theorem V1_arg1 : V1 L (Proc.devRef .tc main_arg1) = L (Proc.devRef .tc main_arg1) := by rkeep

set_option maxHeartbeats 4000000 in
/-- None of the reference's operations up to boundary 1 writes argument 5. -/
theorem V1_arg5 : V1 L (Proc.devRef .tc main_arg5) = L (Proc.devRef .tc main_arg5) := by rkeep

set_option maxHeartbeats 4000000 in
/-- None of the reference's operations up to boundary 2 writes argument 0. -/
theorem V2_arg0 : V2 L (Proc.devRef .tc main_arg0) = L (Proc.devRef .tc main_arg0) := by rkeep

set_option maxHeartbeats 4000000 in
/-- None of the reference's operations up to boundary 2 writes argument 6. -/
theorem V2_arg6 : V2 L (Proc.devRef .tc main_arg6) = L (Proc.devRef .tc main_arg6) := by rkeep

set_option maxHeartbeats 4000000 in
/-- None of the reference's operations up to boundary 3 writes argument 2. -/
theorem V3_arg2 : V3 L (Proc.devRef .tc main_arg2) = L (Proc.devRef .tc main_arg2) := by rkeep

set_option maxHeartbeats 4000000 in
/-- None of the reference's operations up to boundary 3 writes argument 7. -/
theorem V3_arg7 : V3 L (Proc.devRef .tc main_arg7) = L (Proc.devRef .tc main_arg7) := by rkeep

set_option maxHeartbeats 4000000 in
/-- None of the reference's operations up to boundary 4 writes argument 8. -/
theorem V4_arg8 : V4 L (Proc.devRef .tc main_arg8) = L (Proc.devRef .tc main_arg8) := by rkeep

set_option maxHeartbeats 4000000 in
/-- None of the reference's operations up to boundary 4 writes argument 9. -/
theorem V4_arg9 : V4 L (Proc.devRef .tc main_arg9) = L (Proc.devRef .tc main_arg9) := by rkeep

set_option maxHeartbeats 4000000 in
/-- None of the reference's operations up to boundary 4 writes argument 10. -/
theorem V4_arg10 : V4 L (Proc.devRef .tc main_arg10) = L (Proc.devRef .tc main_arg10) := by rkeep

set_option maxHeartbeats 4000000 in
/-- None of the reference's operations up to boundary 4 writes argument 11. -/
theorem V4_arg11 : V4 L (Proc.devRef .tc main_arg11) = L (Proc.devRef .tc main_arg11) := by rkeep

set_option maxHeartbeats 4000000 in
/-- None of the reference's operations up to boundary 5 writes argument 12. -/
theorem V5_arg12 : V5 L (Proc.devRef .tc main_arg12) = L (Proc.devRef .tc main_arg12) := by rkeep

set_option maxHeartbeats 4000000 in
/-- None of the reference's operations up to boundary 6 writes argument 1. -/
theorem V6_arg1 : V6 L (Proc.devRef .tc main_arg1) = L (Proc.devRef .tc main_arg1) := by rkeep

set_option maxHeartbeats 4000000 in
/-- None of the reference's operations up to boundary 6 writes argument 13. -/
theorem V6_arg13 : V6 L (Proc.devRef .tc main_arg13) = L (Proc.devRef .tc main_arg13) := by rkeep

set_option maxHeartbeats 4000000 in
/-- None of the reference's operations up to boundary 7 writes argument 14. -/
theorem V7_arg14 : V7 L (Proc.devRef .tc main_arg14) = L (Proc.devRef .tc main_arg14) := by rkeep

set_option maxHeartbeats 4000000 in
/-- None of the reference's operations up to boundary 8 writes argument 2. -/
theorem V8_arg2 : V8 L (Proc.devRef .tc main_arg2) = L (Proc.devRef .tc main_arg2) := by rkeep

set_option maxHeartbeats 4000000 in
/-- None of the reference's operations up to boundary 8 writes argument 15. -/
theorem V8_arg15 : V8 L (Proc.devRef .tc main_arg15) = L (Proc.devRef .tc main_arg15) := by rkeep

set_option maxHeartbeats 4000000 in
/-- None of the reference's operations up to boundary 9 writes argument 16. -/
theorem V9_arg16 : V9 L (Proc.devRef .tc main_arg16) = L (Proc.devRef .tc main_arg16) := by rkeep

set_option maxHeartbeats 4000000 in
/-- None of the reference's operations up to boundary 9 writes argument 17. -/
theorem V9_arg17 : V9 L (Proc.devRef .tc main_arg17) = L (Proc.devRef .tc main_arg17) := by rkeep

set_option maxHeartbeats 4000000 in
/-- None of the reference's operations up to boundary 9 writes argument 18. -/
theorem V9_arg18 : V9 L (Proc.devRef .tc main_arg18) = L (Proc.devRef .tc main_arg18) := by rkeep

set_option maxHeartbeats 4000000 in
/-- None of the reference's operations up to boundary 9 writes argument 19. -/
theorem V9_arg19 : V9 L (Proc.devRef .tc main_arg19) = L (Proc.devRef .tc main_arg19) := by rkeep

set_option maxHeartbeats 4000000 in
/-- None of the reference's operations up to boundary 10 writes argument 3. -/
theorem V10_arg3 : V10 L (Proc.devRef .tc main_arg3) = L (Proc.devRef .tc main_arg3) := by rkeep

set_option maxHeartbeats 4000000 in
/-- None of the reference's operations up to boundary 10 writes argument 20. -/
theorem V10_arg20 : V10 L (Proc.devRef .tc main_arg20) = L (Proc.devRef .tc main_arg20) := by rkeep

set_option maxHeartbeats 4000000 in
/-- None of the reference's operations up to boundary 10 writes argument 21. -/
theorem V10_arg21 : V10 L (Proc.devRef .tc main_arg21) = L (Proc.devRef .tc main_arg21) := by rkeep

end Cert.ReferenceIdeal.HandRun

end
-- ==== Proof.RSplit.lean ====
/-
  The reference's four aggregation stretches, each cut into its plain operations and the three operations of the maximum with zero that
  end it.
-/
import proofs.«406451_j67508295958856_1_alg».proof.Proof.RefRunA

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Stretch 1's first 59 operations. -/
abbrev c1A : List (HloOp τ sig (Elt F)) :=
  [ unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    reshape main_v1 main_v2 rfl shapeCasts_S1x640000_S640000,
    unary main_arg1 main_v3 ((extractStridedSlice S1x640000 ![1, 0] · slices_S2x640000_S1x640000_1_0) : (⟨S2x640000, .i32⟩ : BufTy).Contents (Elt F) → (⟨S1x640000, .i32⟩ : BufTy).Contents (Elt F)),
    reshape main_v3 main_v4 rfl shapeCasts_S1x640000_S640000,
    nullary main_cst (constant S_ .f32 0x3F800000#32),
    unary main_cst main_v5 (broadcastInDim S640000 ![] bcast_S_S640000 : (⟨S_, .f32⟩ : BufTy).Contents (Elt F) → (⟨S640000, .f32⟩ : BufTy).Contents (Elt F)),
    nullary main_cst_0 (constant S_ .f32 0x00000000#32),
    unary main_cst_0 main_v6 (broadcastInDim S50000 ![] bcast_S_S50000 : (⟨S_, .f32⟩ : BufTy).Contents (Elt F) → (⟨S50000, .f32⟩ : BufTy).Contents (Elt F)),
    unary main_v4 main_v7 (broadcastInDim S640000x1 ![0] bcast_S640000_S640000x1_0 : (⟨S640000, .i32⟩ : BufTy).Contents (Elt F) → (⟨S640000x1, .i32⟩ : BufTy).Contents (Elt F)),
    ternary main_v6 main_v7 main_v5 main_v8 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    nullary main_cst_1 (constant S_ .f32 0x3F800000#32),
    unary main_cst_1 main_v9 (broadcastInDim S50000 ![] bcast_S_S50000 : (⟨S_, .f32⟩ : BufTy).Contents (Elt F) → (⟨S50000, .f32⟩ : BufTy).Contents (Elt F)),
    binary main_v8 main_v9 main_v10 (addf : (⟨S50000, .f32⟩ : BufTy).Contents (Elt F) → (⟨S50000, .f32⟩ : BufTy).Contents (Elt F) → (⟨S50000, .f32⟩ : BufTy).Contents (Elt F)),
    nullary main_cst_2 (constant S_ .f32 0xBF000000#32),
    unary main_cst_2 main_v11 (broadcastInDim S50000 ![] bcast_S_S50000 : (⟨S_, .f32⟩ : BufTy).Contents (Elt F) → (⟨S50000, .f32⟩ : BufTy).Contents (Elt F)),
    binary main_v10 main_v11 main_v12 (Host.powf : (⟨S50000, .f32⟩ : BufTy).Contents (Elt F) → (⟨S50000, .f32⟩ : BufTy).Contents (Elt F) → (⟨S50000, .f32⟩ : BufTy).Contents (Elt F)),
    nullary main_c (constantI S_ 32 0#32),
    unary main_c main_v13 (broadcastInDim S640000 ![] bcast_S_S640000 : (⟨S_, .i32⟩ : BufTy).Contents (Elt F) → (⟨S640000, .i32⟩ : BufTy).Contents (Elt F)),
    binary main_v2 main_v13 main_v14 (cmpi .slt : (⟨S640000, .i32⟩ : BufTy).Contents (Elt F) → (⟨S640000, .i32⟩ : BufTy).Contents (Elt F) → (⟨S640000, .i1⟩ : BufTy).Contents (Elt F)),
    nullary main_c_3 (constantI S_ 32 50000#32),
    unary main_c_3 main_v15 (broadcastInDim S640000 ![] bcast_S_S640000 : (⟨S_, .i32⟩ : BufTy).Contents (Elt F) → (⟨S640000, .i32⟩ : BufTy).Contents (Elt F)),
    binary main_v2 main_v15 main_v16 (addi : (⟨S640000, .i32⟩ : BufTy).Contents (Elt F) → (⟨S640000, .i32⟩ : BufTy).Contents (Elt F) → (⟨S640000, .i32⟩ : BufTy).Contents (Elt F)),
    ternary main_v14 main_v16 main_v2 main_v17 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v17 main_v18 (broadcastInDim S640000x1 ![0] bcast_S640000_S640000x1_0 : (⟨S640000, .i32⟩ : BufTy).Contents (Elt F) → (⟨S640000x1, .i32⟩ : BufTy).Contents (Elt F)),
    binary main_v12 main_v18 main_v19 ((fun x i => Host.gather gather_S50000_S640000x1_S640000_n_0_n_n_0_1_1 x i) : (⟨S50000, .f32⟩ : BufTy).Contents (Elt F) → (⟨S640000x1, .i32⟩ : BufTy).Contents (Elt F) → (⟨S640000, .f32⟩ : BufTy).Contents (Elt F)),
    nullary main_c_4 (constantI S_ 32 0#32),
    unary main_c_4 main_v20 (broadcastInDim S640000 ![] bcast_S_S640000 : (⟨S_, .i32⟩ : BufTy).Contents (Elt F) → (⟨S640000, .i32⟩ : BufTy).Contents (Elt F)),
    binary main_v4 main_v20 main_v21 (cmpi .slt : (⟨S640000, .i32⟩ : BufTy).Contents (Elt F) → (⟨S640000, .i32⟩ : BufTy).Contents (Elt F) → (⟨S640000, .i1⟩ : BufTy).Contents (Elt F)),
    nullary main_c_5 (constantI S_ 32 50000#32),
    unary main_c_5 main_v22 (broadcastInDim S640000 ![] bcast_S_S640000 : (⟨S_, .i32⟩ : BufTy).Contents (Elt F) → (⟨S640000, .i32⟩ : BufTy).Contents (Elt F)),
    binary main_v4 main_v22 main_v23 (addi : (⟨S640000, .i32⟩ : BufTy).Contents (Elt F) → (⟨S640000, .i32⟩ : BufTy).Contents (Elt F) → (⟨S640000, .i32⟩ : BufTy).Contents (Elt F)),
    ternary main_v21 main_v23 main_v4 main_v24 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v24 main_v25 (broadcastInDim S640000x1 ![0] bcast_S640000_S640000x1_0 : (⟨S640000, .i32⟩ : BufTy).Contents (Elt F) → (⟨S640000x1, .i32⟩ : BufTy).Contents (Elt F)),
    binary main_v12 main_v25 main_v26 ((fun x i => Host.gather gather_S50000_S640000x1_S640000_n_0_n_n_0_1_1 x i) : (⟨S50000, .f32⟩ : BufTy).Contents (Elt F) → (⟨S640000x1, .i32⟩ : BufTy).Contents (Elt F) → (⟨S640000, .f32⟩ : BufTy).Contents (Elt F)),
    binary main_v19 main_v26 main_v27 (mulf : (⟨S640000, .f32⟩ : BufTy).Contents (Elt F) → (⟨S640000, .f32⟩ : BufTy).Contents (Elt F) → (⟨S640000, .f32⟩ : BufTy).Contents (Elt F)),
    unary main_v27 main_v28 (broadcastInDim S640000x1 ![0] bcast_S640000_S640000x1_0 : (⟨S640000, .f32⟩ : BufTy).Contents (Elt F) → (⟨S640000x1, .f32⟩ : BufTy).Contents (Elt F)),
    nullary main_c_6 (constantI S_ 32 0#32),
    unary main_c_6 main_v29 (broadcastInDim S640000 ![] bcast_S_S640000 : (⟨S_, .i32⟩ : BufTy).Contents (Elt F) → (⟨S640000, .i32⟩ : BufTy).Contents (Elt F)),
    binary main_v2 main_v29 main_v30 (cmpi .slt : (⟨S640000, .i32⟩ : BufTy).Contents (Elt F) → (⟨S640000, .i32⟩ : BufTy).Contents (Elt F) → (⟨S640000, .i1⟩ : BufTy).Contents (Elt F)),
    nullary main_c_7 (constantI S_ 32 50000#32),
    unary main_c_7 main_v31 (broadcastInDim S640000 ![] bcast_S_S640000 : (⟨S_, .i32⟩ : BufTy).Contents (Elt F) → (⟨S640000, .i32⟩ : BufTy).Contents (Elt F)),
    binary main_v2 main_v31 main_v32 (addi : (⟨S640000, .i32⟩ : BufTy).Contents (Elt F) → (⟨S640000, .i32⟩ : BufTy).Contents (Elt F) → (⟨S640000, .i32⟩ : BufTy).Contents (Elt F)),
    ternary main_v30 main_v32 main_v2 main_v33 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v33 main_v34 (broadcastInDim S640000x1 ![0] bcast_S640000_S640000x1_0 : (⟨S640000, .i32⟩ : BufTy).Contents (Elt F) → (⟨S640000x1, .i32⟩ : BufTy).Contents (Elt F)),
    binary main_v0 main_v34 main_v35 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    unary main_v28 main_v36 (broadcastInDim S640000x128 ![0, 1] bcast_S640000x1_S640000x128_0_1 : (⟨S640000x1, .f32⟩ : BufTy).Contents (Elt F) → (⟨S640000x128, .f32⟩ : BufTy).Contents (Elt F)),
    binary main_v36 main_v35 main_v37 (mulf : (⟨S640000x128, .f32⟩ : BufTy).Contents (Elt F) → (⟨S640000x128, .f32⟩ : BufTy).Contents (Elt F) → (⟨S640000x128, .f32⟩ : BufTy).Contents (Elt F)),
    nullary main_cst_8 (constant S_ .f32 0x00000000#32),
    unary main_cst_8 main_v38 (broadcastInDim S50000x128 ![] bcast_S_S50000x128 : (⟨S_, .f32⟩ : BufTy).Contents (Elt F) → (⟨S50000x128, .f32⟩ : BufTy).Contents (Elt F)),
    unary main_v4 main_v39 (broadcastInDim S640000x1 ![0] bcast_S640000_S640000x1_0 : (⟨S640000, .i32⟩ : BufTy).Contents (Elt F) → (⟨S640000x1, .i32⟩ : BufTy).Contents (Elt F)),
    ternary main_v38 main_v39 main_v37 main_v40 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    binary main_v12 main_v12 main_v41 (mulf : (⟨S50000, .f32⟩ : BufTy).Contents (Elt F) → (⟨S50000, .f32⟩ : BufTy).Contents (Elt F) → (⟨S50000, .f32⟩ : BufTy).Contents (Elt F)),
    unary main_v41 main_v42 (broadcastInDim S50000x1 ![0] bcast_S50000_S50000x1_0 : (⟨S50000, .f32⟩ : BufTy).Contents (Elt F) → (⟨S50000x1, .f32⟩ : BufTy).Contents (Elt F)),
    unary main_v42 main_v43 (broadcastInDim S50000x128 ![0, 1] bcast_S50000x1_S50000x128_0_1 : (⟨S50000x1, .f32⟩ : BufTy).Contents (Elt F) → (⟨S50000x128, .f32⟩ : BufTy).Contents (Elt F)),
    binary main_v43 main_v0 main_v44 (mulf : (⟨S50000x128, .f32⟩ : BufTy).Contents (Elt F) → (⟨S50000x128, .f32⟩ : BufTy).Contents (Elt F) → (⟨S50000x128, .f32⟩ : BufTy).Contents (Elt F)),
    binary main_v40 main_v44 main_v45 (addf : (⟨S50000x128, .f32⟩ : BufTy).Contents (Elt F) → (⟨S50000x128, .f32⟩ : BufTy).Contents (Elt F) → (⟨S50000x128, .f32⟩ : BufTy).Contents (Elt F)),
    unary main_arg5 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (addf : (⟨S50000x128, .f32⟩ : BufTy).Contents (Elt F) → (⟨S50000x128, .f32⟩ : BufTy).Contents (Elt F) → (⟨S50000x128, .f32⟩ : BufTy).Contents (Elt F)) ]

/-- Stretch 1's last 3 operations. -/
abbrev c1B : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v48) (TRef.of (T := ⟨S50000x128, .f32⟩) main_call0_v0) (TRef.of (T := ⟨S50000x128, .f32⟩) main_v49) maximumf ]

theorem c1_split : (c1 : List (HloOp τ sig (Elt F))) = c1A ++ c1B := rfl

/-- Stretch 3's first 59 operations. -/
abbrev c3A : List (HloOp τ sig (Elt F)) :=
  [ unary main_arg2 main_v51 ((extractStridedSlice S1x640000 ![0, 0] · slices_S2x640000_S1x640000_0_0) : (⟨S2x640000, .i32⟩ : BufTy).Contents (Elt F) → (⟨S1x640000, .i32⟩ : BufTy).Contents (Elt F)),
    reshape main_v51 main_v52 rfl shapeCasts_S1x640000_S640000,
    unary main_arg2 main_v53 ((extractStridedSlice S1x640000 ![1, 0] · slices_S2x640000_S1x640000_1_0) : (⟨S2x640000, .i32⟩ : BufTy).Contents (Elt F) → (⟨S1x640000, .i32⟩ : BufTy).Contents (Elt F)),
    reshape main_v53 main_v54 rfl shapeCasts_S1x640000_S640000,
    nullary main_cst_9 (constant S_ .f32 0x3F800000#32),
    unary main_cst_9 main_v55 (broadcastInDim S640000 ![] bcast_S_S640000 : (⟨S_, .f32⟩ : BufTy).Contents (Elt F) → (⟨S640000, .f32⟩ : BufTy).Contents (Elt F)),
    nullary main_cst_10 (constant S_ .f32 0x00000000#32),
    unary main_cst_10 main_v56 (broadcastInDim S50000 ![] bcast_S_S50000 : (⟨S_, .f32⟩ : BufTy).Contents (Elt F) → (⟨S50000, .f32⟩ : BufTy).Contents (Elt F)),
    unary main_v54 main_v57 (broadcastInDim S640000x1 ![0] bcast_S640000_S640000x1_0 : (⟨S640000, .i32⟩ : BufTy).Contents (Elt F) → (⟨S640000x1, .i32⟩ : BufTy).Contents (Elt F)),
    ternary main_v56 main_v57 main_v55 main_v58 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    nullary main_cst_11 (constant S_ .f32 0x3F800000#32),
    unary main_cst_11 main_v59 (broadcastInDim S50000 ![] bcast_S_S50000 : (⟨S_, .f32⟩ : BufTy).Contents (Elt F) → (⟨S50000, .f32⟩ : BufTy).Contents (Elt F)),
    binary main_v58 main_v59 main_v60 (addf : (⟨S50000, .f32⟩ : BufTy).Contents (Elt F) → (⟨S50000, .f32⟩ : BufTy).Contents (Elt F) → (⟨S50000, .f32⟩ : BufTy).Contents (Elt F)),
    nullary main_cst_12 (constant S_ .f32 0xBF000000#32),
    unary main_cst_12 main_v61 (broadcastInDim S50000 ![] bcast_S_S50000 : (⟨S_, .f32⟩ : BufTy).Contents (Elt F) → (⟨S50000, .f32⟩ : BufTy).Contents (Elt F)),
    binary main_v60 main_v61 main_v62 (Host.powf : (⟨S50000, .f32⟩ : BufTy).Contents (Elt F) → (⟨S50000, .f32⟩ : BufTy).Contents (Elt F) → (⟨S50000, .f32⟩ : BufTy).Contents (Elt F)),
    nullary main_c_13 (constantI S_ 32 0#32),
    unary main_c_13 main_v63 (broadcastInDim S640000 ![] bcast_S_S640000 : (⟨S_, .i32⟩ : BufTy).Contents (Elt F) → (⟨S640000, .i32⟩ : BufTy).Contents (Elt F)),
    binary main_v52 main_v63 main_v64 (cmpi .slt : (⟨S640000, .i32⟩ : BufTy).Contents (Elt F) → (⟨S640000, .i32⟩ : BufTy).Contents (Elt F) → (⟨S640000, .i1⟩ : BufTy).Contents (Elt F)),
    nullary main_c_14 (constantI S_ 32 50000#32),
    unary main_c_14 main_v65 (broadcastInDim S640000 ![] bcast_S_S640000 : (⟨S_, .i32⟩ : BufTy).Contents (Elt F) → (⟨S640000, .i32⟩ : BufTy).Contents (Elt F)),
    binary main_v52 main_v65 main_v66 (addi : (⟨S640000, .i32⟩ : BufTy).Contents (Elt F) → (⟨S640000, .i32⟩ : BufTy).Contents (Elt F) → (⟨S640000, .i32⟩ : BufTy).Contents (Elt F)),
    ternary main_v64 main_v66 main_v52 main_v67 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v67 main_v68 (broadcastInDim S640000x1 ![0] bcast_S640000_S640000x1_0 : (⟨S640000, .i32⟩ : BufTy).Contents (Elt F) → (⟨S640000x1, .i32⟩ : BufTy).Contents (Elt F)),
    binary main_v62 main_v68 main_v69 ((fun x i => Host.gather gather_S50000_S640000x1_S640000_n_0_n_n_0_1_1 x i) : (⟨S50000, .f32⟩ : BufTy).Contents (Elt F) → (⟨S640000x1, .i32⟩ : BufTy).Contents (Elt F) → (⟨S640000, .f32⟩ : BufTy).Contents (Elt F)),
    nullary main_c_15 (constantI S_ 32 0#32),
    unary main_c_15 main_v70 (broadcastInDim S640000 ![] bcast_S_S640000 : (⟨S_, .i32⟩ : BufTy).Contents (Elt F) → (⟨S640000, .i32⟩ : BufTy).Contents (Elt F)),
    binary main_v54 main_v70 main_v71 (cmpi .slt : (⟨S640000, .i32⟩ : BufTy).Contents (Elt F) → (⟨S640000, .i32⟩ : BufTy).Contents (Elt F) → (⟨S640000, .i1⟩ : BufTy).Contents (Elt F)),
    nullary main_c_16 (constantI S_ 32 50000#32),
    unary main_c_16 main_v72 (broadcastInDim S640000 ![] bcast_S_S640000 : (⟨S_, .i32⟩ : BufTy).Contents (Elt F) → (⟨S640000, .i32⟩ : BufTy).Contents (Elt F)),
    binary main_v54 main_v72 main_v73 (addi : (⟨S640000, .i32⟩ : BufTy).Contents (Elt F) → (⟨S640000, .i32⟩ : BufTy).Contents (Elt F) → (⟨S640000, .i32⟩ : BufTy).Contents (Elt F)),
    ternary main_v71 main_v73 main_v54 main_v74 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v74 main_v75 (broadcastInDim S640000x1 ![0] bcast_S640000_S640000x1_0 : (⟨S640000, .i32⟩ : BufTy).Contents (Elt F) → (⟨S640000x1, .i32⟩ : BufTy).Contents (Elt F)),
    binary main_v62 main_v75 main_v76 ((fun x i => Host.gather gather_S50000_S640000x1_S640000_n_0_n_n_0_1_1 x i) : (⟨S50000, .f32⟩ : BufTy).Contents (Elt F) → (⟨S640000x1, .i32⟩ : BufTy).Contents (Elt F) → (⟨S640000, .f32⟩ : BufTy).Contents (Elt F)),
    binary main_v69 main_v76 main_v77 (mulf : (⟨S640000, .f32⟩ : BufTy).Contents (Elt F) → (⟨S640000, .f32⟩ : BufTy).Contents (Elt F) → (⟨S640000, .f32⟩ : BufTy).Contents (Elt F)),
    unary main_v77 main_v78 (broadcastInDim S640000x1 ![0] bcast_S640000_S640000x1_0 : (⟨S640000, .f32⟩ : BufTy).Contents (Elt F) → (⟨S640000x1, .f32⟩ : BufTy).Contents (Elt F)),
    nullary main_c_17 (constantI S_ 32 0#32),
    unary main_c_17 main_v79 (broadcastInDim S640000 ![] bcast_S_S640000 : (⟨S_, .i32⟩ : BufTy).Contents (Elt F) → (⟨S640000, .i32⟩ : BufTy).Contents (Elt F)),
    binary main_v52 main_v79 main_v80 (cmpi .slt : (⟨S640000, .i32⟩ : BufTy).Contents (Elt F) → (⟨S640000, .i32⟩ : BufTy).Contents (Elt F) → (⟨S640000, .i1⟩ : BufTy).Contents (Elt F)),
    nullary main_c_18 (constantI S_ 32 50000#32),
    unary main_c_18 main_v81 (broadcastInDim S640000 ![] bcast_S_S640000 : (⟨S_, .i32⟩ : BufTy).Contents (Elt F) → (⟨S640000, .i32⟩ : BufTy).Contents (Elt F)),
    binary main_v52 main_v81 main_v82 (addi : (⟨S640000, .i32⟩ : BufTy).Contents (Elt F) → (⟨S640000, .i32⟩ : BufTy).Contents (Elt F) → (⟨S640000, .i32⟩ : BufTy).Contents (Elt F)),
    ternary main_v80 main_v82 main_v52 main_v83 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v83 main_v84 (broadcastInDim S640000x1 ![0] bcast_S640000_S640000x1_0 : (⟨S640000, .i32⟩ : BufTy).Contents (Elt F) → (⟨S640000x1, .i32⟩ : BufTy).Contents (Elt F)),
    binary main_v50 main_v84 main_v85 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    unary main_v78 main_v86 (broadcastInDim S640000x128 ![0, 1] bcast_S640000x1_S640000x128_0_1 : (⟨S640000x1, .f32⟩ : BufTy).Contents (Elt F) → (⟨S640000x128, .f32⟩ : BufTy).Contents (Elt F)),
    binary main_v86 main_v85 main_v87 (mulf : (⟨S640000x128, .f32⟩ : BufTy).Contents (Elt F) → (⟨S640000x128, .f32⟩ : BufTy).Contents (Elt F) → (⟨S640000x128, .f32⟩ : BufTy).Contents (Elt F)),
    nullary main_cst_19 (constant S_ .f32 0x00000000#32),
    unary main_cst_19 main_v88 (broadcastInDim S50000x128 ![] bcast_S_S50000x128 : (⟨S_, .f32⟩ : BufTy).Contents (Elt F) → (⟨S50000x128, .f32⟩ : BufTy).Contents (Elt F)),
    unary main_v54 main_v89 (broadcastInDim S640000x1 ![0] bcast_S640000_S640000x1_0 : (⟨S640000, .i32⟩ : BufTy).Contents (Elt F) → (⟨S640000x1, .i32⟩ : BufTy).Contents (Elt F)),
    ternary main_v88 main_v89 main_v87 main_v90 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    binary main_v62 main_v62 main_v91 (mulf : (⟨S50000, .f32⟩ : BufTy).Contents (Elt F) → (⟨S50000, .f32⟩ : BufTy).Contents (Elt F) → (⟨S50000, .f32⟩ : BufTy).Contents (Elt F)),
    unary main_v91 main_v92 (broadcastInDim S50000x1 ![0] bcast_S50000_S50000x1_0 : (⟨S50000, .f32⟩ : BufTy).Contents (Elt F) → (⟨S50000x1, .f32⟩ : BufTy).Contents (Elt F)),
    unary main_v92 main_v93 (broadcastInDim S50000x128 ![0, 1] bcast_S50000x1_S50000x128_0_1 : (⟨S50000x1, .f32⟩ : BufTy).Contents (Elt F) → (⟨S50000x128, .f32⟩ : BufTy).Contents (Elt F)),
    binary main_v93 main_v50 main_v94 (mulf : (⟨S50000x128, .f32⟩ : BufTy).Contents (Elt F) → (⟨S50000x128, .f32⟩ : BufTy).Contents (Elt F) → (⟨S50000x128, .f32⟩ : BufTy).Contents (Elt F)),
    binary main_v90 main_v94 main_v95 (addf : (⟨S50000x128, .f32⟩ : BufTy).Contents (Elt F) → (⟨S50000x128, .f32⟩ : BufTy).Contents (Elt F) → (⟨S50000x128, .f32⟩ : BufTy).Contents (Elt F)),
    unary main_arg7 main_v96 (broadcastInDim S1x128 ![1] bcast_S128_S1x128_1 : (⟨S128, .f32⟩ : BufTy).Contents (Elt F) → (⟨S1x128, .f32⟩ : BufTy).Contents (Elt F)),
    unary main_v96 main_v97 (broadcastInDim S50000x128 ![0, 1] bcast_S1x128_S50000x128_0_1 : (⟨S1x128, .f32⟩ : BufTy).Contents (Elt F) → (⟨S50000x128, .f32⟩ : BufTy).Contents (Elt F)),
    binary main_v95 main_v97 main_v98 (addf : (⟨S50000x128, .f32⟩ : BufTy).Contents (Elt F) → (⟨S50000x128, .f32⟩ : BufTy).Contents (Elt F) → (⟨S50000x128, .f32⟩ : BufTy).Contents (Elt F)) ]

/-- Stretch 3's last 3 operations. -/
abbrev c3B : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v98) (TRef.of (T := ⟨S50000x128, .f32⟩) main_call1_v0) (TRef.of (T := ⟨S50000x128, .f32⟩) main_v99) maximumf ]

theorem c3_split : (c3 : List (HloOp τ sig (Elt F))) = c3A ++ c3B := rfl

/-- Stretch 6's first 59 operations. -/
abbrev c6A : List (HloOp τ sig (Elt F)) :=
  [ unary main_arg1 main_v111 ((extractStridedSlice S1x640000 ![0, 0] · slices_S2x640000_S1x640000_0_0) : (⟨S2x640000, .i32⟩ : BufTy).Contents (Elt F) → (⟨S1x640000, .i32⟩ : BufTy).Contents (Elt F)),
    reshape main_v111 main_v112 rfl shapeCasts_S1x640000_S640000,
    unary main_arg1 main_v113 ((extractStridedSlice S1x640000 ![1, 0] · slices_S2x640000_S1x640000_1_0) : (⟨S2x640000, .i32⟩ : BufTy).Contents (Elt F) → (⟨S1x640000, .i32⟩ : BufTy).Contents (Elt F)),
    reshape main_v113 main_v114 rfl shapeCasts_S1x640000_S640000,
    nullary main_cst_20 (constant S_ .f32 0x3F800000#32),
    unary main_cst_20 main_v115 (broadcastInDim S640000 ![] bcast_S_S640000 : (⟨S_, .f32⟩ : BufTy).Contents (Elt F) → (⟨S640000, .f32⟩ : BufTy).Contents (Elt F)),
    nullary main_cst_21 (constant S_ .f32 0x00000000#32),
    unary main_cst_21 main_v116 (broadcastInDim S50000 ![] bcast_S_S50000 : (⟨S_, .f32⟩ : BufTy).Contents (Elt F) → (⟨S50000, .f32⟩ : BufTy).Contents (Elt F)),
    unary main_v114 main_v117 (broadcastInDim S640000x1 ![0] bcast_S640000_S640000x1_0 : (⟨S640000, .i32⟩ : BufTy).Contents (Elt F) → (⟨S640000x1, .i32⟩ : BufTy).Contents (Elt F)),
    ternary main_v116 main_v117 main_v115 main_v118 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    nullary main_cst_22 (constant S_ .f32 0x3F800000#32),
    unary main_cst_22 main_v119 (broadcastInDim S50000 ![] bcast_S_S50000 : (⟨S_, .f32⟩ : BufTy).Contents (Elt F) → (⟨S50000, .f32⟩ : BufTy).Contents (Elt F)),
    binary main_v118 main_v119 main_v120 (addf : (⟨S50000, .f32⟩ : BufTy).Contents (Elt F) → (⟨S50000, .f32⟩ : BufTy).Contents (Elt F) → (⟨S50000, .f32⟩ : BufTy).Contents (Elt F)),
    nullary main_cst_23 (constant S_ .f32 0xBF000000#32),
    unary main_cst_23 main_v121 (broadcastInDim S50000 ![] bcast_S_S50000 : (⟨S_, .f32⟩ : BufTy).Contents (Elt F) → (⟨S50000, .f32⟩ : BufTy).Contents (Elt F)),
    binary main_v120 main_v121 main_v122 (Host.powf : (⟨S50000, .f32⟩ : BufTy).Contents (Elt F) → (⟨S50000, .f32⟩ : BufTy).Contents (Elt F) → (⟨S50000, .f32⟩ : BufTy).Contents (Elt F)),
    nullary main_c_24 (constantI S_ 32 0#32),
    unary main_c_24 main_v123 (broadcastInDim S640000 ![] bcast_S_S640000 : (⟨S_, .i32⟩ : BufTy).Contents (Elt F) → (⟨S640000, .i32⟩ : BufTy).Contents (Elt F)),
    binary main_v112 main_v123 main_v124 (cmpi .slt : (⟨S640000, .i32⟩ : BufTy).Contents (Elt F) → (⟨S640000, .i32⟩ : BufTy).Contents (Elt F) → (⟨S640000, .i1⟩ : BufTy).Contents (Elt F)),
    nullary main_c_25 (constantI S_ 32 50000#32),
    unary main_c_25 main_v125 (broadcastInDim S640000 ![] bcast_S_S640000 : (⟨S_, .i32⟩ : BufTy).Contents (Elt F) → (⟨S640000, .i32⟩ : BufTy).Contents (Elt F)),
    binary main_v112 main_v125 main_v126 (addi : (⟨S640000, .i32⟩ : BufTy).Contents (Elt F) → (⟨S640000, .i32⟩ : BufTy).Contents (Elt F) → (⟨S640000, .i32⟩ : BufTy).Contents (Elt F)),
    ternary main_v124 main_v126 main_v112 main_v127 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v127 main_v128 (broadcastInDim S640000x1 ![0] bcast_S640000_S640000x1_0 : (⟨S640000, .i32⟩ : BufTy).Contents (Elt F) → (⟨S640000x1, .i32⟩ : BufTy).Contents (Elt F)),
    binary main_v122 main_v128 main_v129 ((fun x i => Host.gather gather_S50000_S640000x1_S640000_n_0_n_n_0_1_1 x i) : (⟨S50000, .f32⟩ : BufTy).Contents (Elt F) → (⟨S640000x1, .i32⟩ : BufTy).Contents (Elt F) → (⟨S640000, .f32⟩ : BufTy).Contents (Elt F)),
    nullary main_c_26 (constantI S_ 32 0#32),
    unary main_c_26 main_v130 (broadcastInDim S640000 ![] bcast_S_S640000 : (⟨S_, .i32⟩ : BufTy).Contents (Elt F) → (⟨S640000, .i32⟩ : BufTy).Contents (Elt F)),
    binary main_v114 main_v130 main_v131 (cmpi .slt : (⟨S640000, .i32⟩ : BufTy).Contents (Elt F) → (⟨S640000, .i32⟩ : BufTy).Contents (Elt F) → (⟨S640000, .i1⟩ : BufTy).Contents (Elt F)),
    nullary main_c_27 (constantI S_ 32 50000#32),
    unary main_c_27 main_v132 (broadcastInDim S640000 ![] bcast_S_S640000 : (⟨S_, .i32⟩ : BufTy).Contents (Elt F) → (⟨S640000, .i32⟩ : BufTy).Contents (Elt F)),
    binary main_v114 main_v132 main_v133 (addi : (⟨S640000, .i32⟩ : BufTy).Contents (Elt F) → (⟨S640000, .i32⟩ : BufTy).Contents (Elt F) → (⟨S640000, .i32⟩ : BufTy).Contents (Elt F)),
    ternary main_v131 main_v133 main_v114 main_v134 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v134 main_v135 (broadcastInDim S640000x1 ![0] bcast_S640000_S640000x1_0 : (⟨S640000, .i32⟩ : BufTy).Contents (Elt F) → (⟨S640000x1, .i32⟩ : BufTy).Contents (Elt F)),
    binary main_v122 main_v135 main_v136 ((fun x i => Host.gather gather_S50000_S640000x1_S640000_n_0_n_n_0_1_1 x i) : (⟨S50000, .f32⟩ : BufTy).Contents (Elt F) → (⟨S640000x1, .i32⟩ : BufTy).Contents (Elt F) → (⟨S640000, .f32⟩ : BufTy).Contents (Elt F)),
    binary main_v129 main_v136 main_v137 (mulf : (⟨S640000, .f32⟩ : BufTy).Contents (Elt F) → (⟨S640000, .f32⟩ : BufTy).Contents (Elt F) → (⟨S640000, .f32⟩ : BufTy).Contents (Elt F)),
    unary main_v137 main_v138 (broadcastInDim S640000x1 ![0] bcast_S640000_S640000x1_0 : (⟨S640000, .f32⟩ : BufTy).Contents (Elt F) → (⟨S640000x1, .f32⟩ : BufTy).Contents (Elt F)),
    nullary main_c_28 (constantI S_ 32 0#32),
    unary main_c_28 main_v139 (broadcastInDim S640000 ![] bcast_S_S640000 : (⟨S_, .i32⟩ : BufTy).Contents (Elt F) → (⟨S640000, .i32⟩ : BufTy).Contents (Elt F)),
    binary main_v112 main_v139 main_v140 (cmpi .slt : (⟨S640000, .i32⟩ : BufTy).Contents (Elt F) → (⟨S640000, .i32⟩ : BufTy).Contents (Elt F) → (⟨S640000, .i1⟩ : BufTy).Contents (Elt F)),
    nullary main_c_29 (constantI S_ 32 50000#32),
    unary main_c_29 main_v141 (broadcastInDim S640000 ![] bcast_S_S640000 : (⟨S_, .i32⟩ : BufTy).Contents (Elt F) → (⟨S640000, .i32⟩ : BufTy).Contents (Elt F)),
    binary main_v112 main_v141 main_v142 (addi : (⟨S640000, .i32⟩ : BufTy).Contents (Elt F) → (⟨S640000, .i32⟩ : BufTy).Contents (Elt F) → (⟨S640000, .i32⟩ : BufTy).Contents (Elt F)),
    ternary main_v140 main_v142 main_v112 main_v143 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v143 main_v144 (broadcastInDim S640000x1 ![0] bcast_S640000_S640000x1_0 : (⟨S640000, .i32⟩ : BufTy).Contents (Elt F) → (⟨S640000x1, .i32⟩ : BufTy).Contents (Elt F)),
    binary main_v110 main_v144 main_v145 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    unary main_v138 main_v146 (broadcastInDim S640000x128 ![0, 1] bcast_S640000x1_S640000x128_0_1 : (⟨S640000x1, .f32⟩ : BufTy).Contents (Elt F) → (⟨S640000x128, .f32⟩ : BufTy).Contents (Elt F)),
    binary main_v146 main_v145 main_v147 (mulf : (⟨S640000x128, .f32⟩ : BufTy).Contents (Elt F) → (⟨S640000x128, .f32⟩ : BufTy).Contents (Elt F) → (⟨S640000x128, .f32⟩ : BufTy).Contents (Elt F)),
    nullary main_cst_30 (constant S_ .f32 0x00000000#32),
    unary main_cst_30 main_v148 (broadcastInDim S50000x128 ![] bcast_S_S50000x128 : (⟨S_, .f32⟩ : BufTy).Contents (Elt F) → (⟨S50000x128, .f32⟩ : BufTy).Contents (Elt F)),
    unary main_v114 main_v149 (broadcastInDim S640000x1 ![0] bcast_S640000_S640000x1_0 : (⟨S640000, .i32⟩ : BufTy).Contents (Elt F) → (⟨S640000x1, .i32⟩ : BufTy).Contents (Elt F)),
    ternary main_v148 main_v149 main_v147 main_v150 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    binary main_v122 main_v122 main_v151 (mulf : (⟨S50000, .f32⟩ : BufTy).Contents (Elt F) → (⟨S50000, .f32⟩ : BufTy).Contents (Elt F) → (⟨S50000, .f32⟩ : BufTy).Contents (Elt F)),
    unary main_v151 main_v152 (broadcastInDim S50000x1 ![0] bcast_S50000_S50000x1_0 : (⟨S50000, .f32⟩ : BufTy).Contents (Elt F) → (⟨S50000x1, .f32⟩ : BufTy).Contents (Elt F)),
    unary main_v152 main_v153 (broadcastInDim S50000x128 ![0, 1] bcast_S50000x1_S50000x128_0_1 : (⟨S50000x1, .f32⟩ : BufTy).Contents (Elt F) → (⟨S50000x128, .f32⟩ : BufTy).Contents (Elt F)),
    binary main_v153 main_v110 main_v154 (mulf : (⟨S50000x128, .f32⟩ : BufTy).Contents (Elt F) → (⟨S50000x128, .f32⟩ : BufTy).Contents (Elt F) → (⟨S50000x128, .f32⟩ : BufTy).Contents (Elt F)),
    binary main_v150 main_v154 main_v155 (addf : (⟨S50000x128, .f32⟩ : BufTy).Contents (Elt F) → (⟨S50000x128, .f32⟩ : BufTy).Contents (Elt F) → (⟨S50000x128, .f32⟩ : BufTy).Contents (Elt F)),
    unary main_arg13 main_v156 (broadcastInDim S1x128 ![1] bcast_S128_S1x128_1 : (⟨S128, .f32⟩ : BufTy).Contents (Elt F) → (⟨S1x128, .f32⟩ : BufTy).Contents (Elt F)),
    unary main_v156 main_v157 (broadcastInDim S50000x128 ![0, 1] bcast_S1x128_S50000x128_0_1 : (⟨S1x128, .f32⟩ : BufTy).Contents (Elt F) → (⟨S50000x128, .f32⟩ : BufTy).Contents (Elt F)),
    binary main_v155 main_v157 main_v158 (addf : (⟨S50000x128, .f32⟩ : BufTy).Contents (Elt F) → (⟨S50000x128, .f32⟩ : BufTy).Contents (Elt F) → (⟨S50000x128, .f32⟩ : BufTy).Contents (Elt F)) ]

/-- Stretch 6's last 3 operations. -/
abbrev c6B : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v158) (TRef.of (T := ⟨S50000x128, .f32⟩) main_call3_v0) (TRef.of (T := ⟨S50000x128, .f32⟩) main_v159) maximumf ]

theorem c6_split : (c6 : List (HloOp τ sig (Elt F))) = c6A ++ c6B := rfl

/-- Stretch 8's first 59 operations. -/
abbrev c8A : List (HloOp τ sig (Elt F)) :=
  [ unary main_arg2 main_v161 ((extractStridedSlice S1x640000 ![0, 0] · slices_S2x640000_S1x640000_0_0) : (⟨S2x640000, .i32⟩ : BufTy).Contents (Elt F) → (⟨S1x640000, .i32⟩ : BufTy).Contents (Elt F)),
    reshape main_v161 main_v162 rfl shapeCasts_S1x640000_S640000,
    unary main_arg2 main_v163 ((extractStridedSlice S1x640000 ![1, 0] · slices_S2x640000_S1x640000_1_0) : (⟨S2x640000, .i32⟩ : BufTy).Contents (Elt F) → (⟨S1x640000, .i32⟩ : BufTy).Contents (Elt F)),
    reshape main_v163 main_v164 rfl shapeCasts_S1x640000_S640000,
    nullary main_cst_31 (constant S_ .f32 0x3F800000#32),
    unary main_cst_31 main_v165 (broadcastInDim S640000 ![] bcast_S_S640000 : (⟨S_, .f32⟩ : BufTy).Contents (Elt F) → (⟨S640000, .f32⟩ : BufTy).Contents (Elt F)),
    nullary main_cst_32 (constant S_ .f32 0x00000000#32),
    unary main_cst_32 main_v166 (broadcastInDim S50000 ![] bcast_S_S50000 : (⟨S_, .f32⟩ : BufTy).Contents (Elt F) → (⟨S50000, .f32⟩ : BufTy).Contents (Elt F)),
    unary main_v164 main_v167 (broadcastInDim S640000x1 ![0] bcast_S640000_S640000x1_0 : (⟨S640000, .i32⟩ : BufTy).Contents (Elt F) → (⟨S640000x1, .i32⟩ : BufTy).Contents (Elt F)),
    ternary main_v166 main_v167 main_v165 main_v168 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    nullary main_cst_33 (constant S_ .f32 0x3F800000#32),
    unary main_cst_33 main_v169 (broadcastInDim S50000 ![] bcast_S_S50000 : (⟨S_, .f32⟩ : BufTy).Contents (Elt F) → (⟨S50000, .f32⟩ : BufTy).Contents (Elt F)),
    binary main_v168 main_v169 main_v170 (addf : (⟨S50000, .f32⟩ : BufTy).Contents (Elt F) → (⟨S50000, .f32⟩ : BufTy).Contents (Elt F) → (⟨S50000, .f32⟩ : BufTy).Contents (Elt F)),
    nullary main_cst_34 (constant S_ .f32 0xBF000000#32),
    unary main_cst_34 main_v171 (broadcastInDim S50000 ![] bcast_S_S50000 : (⟨S_, .f32⟩ : BufTy).Contents (Elt F) → (⟨S50000, .f32⟩ : BufTy).Contents (Elt F)),
    binary main_v170 main_v171 main_v172 (Host.powf : (⟨S50000, .f32⟩ : BufTy).Contents (Elt F) → (⟨S50000, .f32⟩ : BufTy).Contents (Elt F) → (⟨S50000, .f32⟩ : BufTy).Contents (Elt F)),
    nullary main_c_35 (constantI S_ 32 0#32),
    unary main_c_35 main_v173 (broadcastInDim S640000 ![] bcast_S_S640000 : (⟨S_, .i32⟩ : BufTy).Contents (Elt F) → (⟨S640000, .i32⟩ : BufTy).Contents (Elt F)),
    binary main_v162 main_v173 main_v174 (cmpi .slt : (⟨S640000, .i32⟩ : BufTy).Contents (Elt F) → (⟨S640000, .i32⟩ : BufTy).Contents (Elt F) → (⟨S640000, .i1⟩ : BufTy).Contents (Elt F)),
    nullary main_c_36 (constantI S_ 32 50000#32),
    unary main_c_36 main_v175 (broadcastInDim S640000 ![] bcast_S_S640000 : (⟨S_, .i32⟩ : BufTy).Contents (Elt F) → (⟨S640000, .i32⟩ : BufTy).Contents (Elt F)),
    binary main_v162 main_v175 main_v176 (addi : (⟨S640000, .i32⟩ : BufTy).Contents (Elt F) → (⟨S640000, .i32⟩ : BufTy).Contents (Elt F) → (⟨S640000, .i32⟩ : BufTy).Contents (Elt F)),
    ternary main_v174 main_v176 main_v162 main_v177 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v177 main_v178 (broadcastInDim S640000x1 ![0] bcast_S640000_S640000x1_0 : (⟨S640000, .i32⟩ : BufTy).Contents (Elt F) → (⟨S640000x1, .i32⟩ : BufTy).Contents (Elt F)),
    binary main_v172 main_v178 main_v179 ((fun x i => Host.gather gather_S50000_S640000x1_S640000_n_0_n_n_0_1_1 x i) : (⟨S50000, .f32⟩ : BufTy).Contents (Elt F) → (⟨S640000x1, .i32⟩ : BufTy).Contents (Elt F) → (⟨S640000, .f32⟩ : BufTy).Contents (Elt F)),
    nullary main_c_37 (constantI S_ 32 0#32),
    unary main_c_37 main_v180 (broadcastInDim S640000 ![] bcast_S_S640000 : (⟨S_, .i32⟩ : BufTy).Contents (Elt F) → (⟨S640000, .i32⟩ : BufTy).Contents (Elt F)),
    binary main_v164 main_v180 main_v181 (cmpi .slt : (⟨S640000, .i32⟩ : BufTy).Contents (Elt F) → (⟨S640000, .i32⟩ : BufTy).Contents (Elt F) → (⟨S640000, .i1⟩ : BufTy).Contents (Elt F)),
    nullary main_c_38 (constantI S_ 32 50000#32),
    unary main_c_38 main_v182 (broadcastInDim S640000 ![] bcast_S_S640000 : (⟨S_, .i32⟩ : BufTy).Contents (Elt F) → (⟨S640000, .i32⟩ : BufTy).Contents (Elt F)),
    binary main_v164 main_v182 main_v183 (addi : (⟨S640000, .i32⟩ : BufTy).Contents (Elt F) → (⟨S640000, .i32⟩ : BufTy).Contents (Elt F) → (⟨S640000, .i32⟩ : BufTy).Contents (Elt F)),
    ternary main_v181 main_v183 main_v164 main_v184 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v184 main_v185 (broadcastInDim S640000x1 ![0] bcast_S640000_S640000x1_0 : (⟨S640000, .i32⟩ : BufTy).Contents (Elt F) → (⟨S640000x1, .i32⟩ : BufTy).Contents (Elt F)),
    binary main_v172 main_v185 main_v186 ((fun x i => Host.gather gather_S50000_S640000x1_S640000_n_0_n_n_0_1_1 x i) : (⟨S50000, .f32⟩ : BufTy).Contents (Elt F) → (⟨S640000x1, .i32⟩ : BufTy).Contents (Elt F) → (⟨S640000, .f32⟩ : BufTy).Contents (Elt F)),
    binary main_v179 main_v186 main_v187 (mulf : (⟨S640000, .f32⟩ : BufTy).Contents (Elt F) → (⟨S640000, .f32⟩ : BufTy).Contents (Elt F) → (⟨S640000, .f32⟩ : BufTy).Contents (Elt F)),
    unary main_v187 main_v188 (broadcastInDim S640000x1 ![0] bcast_S640000_S640000x1_0 : (⟨S640000, .f32⟩ : BufTy).Contents (Elt F) → (⟨S640000x1, .f32⟩ : BufTy).Contents (Elt F)),
    nullary main_c_39 (constantI S_ 32 0#32),
    unary main_c_39 main_v189 (broadcastInDim S640000 ![] bcast_S_S640000 : (⟨S_, .i32⟩ : BufTy).Contents (Elt F) → (⟨S640000, .i32⟩ : BufTy).Contents (Elt F)),
    binary main_v162 main_v189 main_v190 (cmpi .slt : (⟨S640000, .i32⟩ : BufTy).Contents (Elt F) → (⟨S640000, .i32⟩ : BufTy).Contents (Elt F) → (⟨S640000, .i1⟩ : BufTy).Contents (Elt F)),
    nullary main_c_40 (constantI S_ 32 50000#32),
    unary main_c_40 main_v191 (broadcastInDim S640000 ![] bcast_S_S640000 : (⟨S_, .i32⟩ : BufTy).Contents (Elt F) → (⟨S640000, .i32⟩ : BufTy).Contents (Elt F)),
    binary main_v162 main_v191 main_v192 (addi : (⟨S640000, .i32⟩ : BufTy).Contents (Elt F) → (⟨S640000, .i32⟩ : BufTy).Contents (Elt F) → (⟨S640000, .i32⟩ : BufTy).Contents (Elt F)),
    ternary main_v190 main_v192 main_v162 main_v193 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v193 main_v194 (broadcastInDim S640000x1 ![0] bcast_S640000_S640000x1_0 : (⟨S640000, .i32⟩ : BufTy).Contents (Elt F) → (⟨S640000x1, .i32⟩ : BufTy).Contents (Elt F)),
    binary main_v160 main_v194 main_v195 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    unary main_v188 main_v196 (broadcastInDim S640000x128 ![0, 1] bcast_S640000x1_S640000x128_0_1 : (⟨S640000x1, .f32⟩ : BufTy).Contents (Elt F) → (⟨S640000x128, .f32⟩ : BufTy).Contents (Elt F)),
    binary main_v196 main_v195 main_v197 (mulf : (⟨S640000x128, .f32⟩ : BufTy).Contents (Elt F) → (⟨S640000x128, .f32⟩ : BufTy).Contents (Elt F) → (⟨S640000x128, .f32⟩ : BufTy).Contents (Elt F)),
    nullary main_cst_41 (constant S_ .f32 0x00000000#32),
    unary main_cst_41 main_v198 (broadcastInDim S50000x128 ![] bcast_S_S50000x128 : (⟨S_, .f32⟩ : BufTy).Contents (Elt F) → (⟨S50000x128, .f32⟩ : BufTy).Contents (Elt F)),
    unary main_v164 main_v199 (broadcastInDim S640000x1 ![0] bcast_S640000_S640000x1_0 : (⟨S640000, .i32⟩ : BufTy).Contents (Elt F) → (⟨S640000x1, .i32⟩ : BufTy).Contents (Elt F)),
    ternary main_v198 main_v199 main_v197 main_v200 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    binary main_v172 main_v172 main_v201 (mulf : (⟨S50000, .f32⟩ : BufTy).Contents (Elt F) → (⟨S50000, .f32⟩ : BufTy).Contents (Elt F) → (⟨S50000, .f32⟩ : BufTy).Contents (Elt F)),
    unary main_v201 main_v202 (broadcastInDim S50000x1 ![0] bcast_S50000_S50000x1_0 : (⟨S50000, .f32⟩ : BufTy).Contents (Elt F) → (⟨S50000x1, .f32⟩ : BufTy).Contents (Elt F)),
    unary main_v202 main_v203 (broadcastInDim S50000x128 ![0, 1] bcast_S50000x1_S50000x128_0_1 : (⟨S50000x1, .f32⟩ : BufTy).Contents (Elt F) → (⟨S50000x128, .f32⟩ : BufTy).Contents (Elt F)),
    binary main_v203 main_v160 main_v204 (mulf : (⟨S50000x128, .f32⟩ : BufTy).Contents (Elt F) → (⟨S50000x128, .f32⟩ : BufTy).Contents (Elt F) → (⟨S50000x128, .f32⟩ : BufTy).Contents (Elt F)),
    binary main_v200 main_v204 main_v205 (addf : (⟨S50000x128, .f32⟩ : BufTy).Contents (Elt F) → (⟨S50000x128, .f32⟩ : BufTy).Contents (Elt F) → (⟨S50000x128, .f32⟩ : BufTy).Contents (Elt F)),
    unary main_arg15 main_v206 (broadcastInDim S1x128 ![1] bcast_S128_S1x128_1 : (⟨S128, .f32⟩ : BufTy).Contents (Elt F) → (⟨S1x128, .f32⟩ : BufTy).Contents (Elt F)),
    unary main_v206 main_v207 (broadcastInDim S50000x128 ![0, 1] bcast_S1x128_S50000x128_0_1 : (⟨S1x128, .f32⟩ : BufTy).Contents (Elt F) → (⟨S50000x128, .f32⟩ : BufTy).Contents (Elt F)),
    binary main_v205 main_v207 main_v208 (addf : (⟨S50000x128, .f32⟩ : BufTy).Contents (Elt F) → (⟨S50000x128, .f32⟩ : BufTy).Contents (Elt F) → (⟨S50000x128, .f32⟩ : BufTy).Contents (Elt F)) ]

/-- Stretch 8's last 3 operations. -/
abbrev c8B : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v208) (TRef.of (T := ⟨S50000x128, .f32⟩) main_call4_v0) (TRef.of (T := ⟨S50000x128, .f32⟩) main_v209) maximumf ]

theorem c8_split : (c8 : List (HloOp τ sig (Elt F))) = c8A ++ c8B := rfl

end Cert.ReferenceIdeal.HandRun

end
-- ==== Proof.GlueR.lean ====
import proofs.«406451_j67508295958856_1_alg».proof.Proof.Gen.ReferenceIdeal

noncomputable section

namespace Cert.ReferenceIdeal.Gen

open Idealize.ShloMosaic Idealize.SL.Sem

variable {F : FTy → Type} [FloatOps F]

/-- The host operations of the lists c1A of the generated launch module, in order, as one function of the buffers they read:
    each line is one operation's printed function applied to its operands' values. -/
def rPre (main_v0 : (⟨S50000x128, .f32⟩ : BufTy).Contents (Elt F)) (main_arg1 : (⟨S2x640000, .i32⟩ : BufTy).Contents (Elt F)) (main_arg5 : (⟨S128, .f32⟩ : BufTy).Contents (Elt F)) :
    (⟨S50000x128, .f32⟩ : BufTy).Contents (Elt F) :=
  have main_v1 : (⟨S1x640000, .i32⟩ : BufTy).Contents (Elt F) := ((extractStridedSlice S1x640000 ![0, 0] · slices_S2x640000_S1x640000_0_0) : (⟨S2x640000, .i32⟩ : BufTy).Contents (Elt F) → (⟨S1x640000, .i32⟩ : BufTy).Contents (Elt F)) main_arg1
  have main_v2 := shapeCast S640000 main_v1 shapeCasts_S1x640000_S640000
  have main_v3 : (⟨S1x640000, .i32⟩ : BufTy).Contents (Elt F) := ((extractStridedSlice S1x640000 ![1, 0] · slices_S2x640000_S1x640000_1_0) : (⟨S2x640000, .i32⟩ : BufTy).Contents (Elt F) → (⟨S1x640000, .i32⟩ : BufTy).Contents (Elt F)) main_arg1
  have main_v4 := shapeCast S640000 main_v3 shapeCasts_S1x640000_S640000
  have main_cst : (⟨S_, .f32⟩ : BufTy).Contents (Elt F) := (constant S_ .f32 0x3F800000#32)
  have main_v5 : (⟨S640000, .f32⟩ : BufTy).Contents (Elt F) := (broadcastInDim S640000 ![] bcast_S_S640000 : (⟨S_, .f32⟩ : BufTy).Contents (Elt F) → (⟨S640000, .f32⟩ : BufTy).Contents (Elt F)) main_cst
  have main_cst_0 : (⟨S_, .f32⟩ : BufTy).Contents (Elt F) := (constant S_ .f32 0x00000000#32)
  have main_v6 : (⟨S50000, .f32⟩ : BufTy).Contents (Elt F) := (broadcastInDim S50000 ![] bcast_S_S50000 : (⟨S_, .f32⟩ : BufTy).Contents (Elt F) → (⟨S50000, .f32⟩ : BufTy).Contents (Elt F)) main_cst_0
  have main_v7 : (⟨S640000x1, .i32⟩ : BufTy).Contents (Elt F) := (broadcastInDim S640000x1 ![0] bcast_S640000_S640000x1_0 : (⟨S640000, .i32⟩ : BufTy).Contents (Elt F) → (⟨S640000x1, .i32⟩ : BufTy).Contents (Elt F)) main_v4
  have main_v8 : (⟨S50000, .f32⟩ : BufTy).Contents (Elt F) := ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)) main_v6 main_v7 main_v5
  have main_cst_1 : (⟨S_, .f32⟩ : BufTy).Contents (Elt F) := (constant S_ .f32 0x3F800000#32)
  have main_v9 : (⟨S50000, .f32⟩ : BufTy).Contents (Elt F) := (broadcastInDim S50000 ![] bcast_S_S50000 : (⟨S_, .f32⟩ : BufTy).Contents (Elt F) → (⟨S50000, .f32⟩ : BufTy).Contents (Elt F)) main_cst_1
  have main_v10 : (⟨S50000, .f32⟩ : BufTy).Contents (Elt F) := (addf : (⟨S50000, .f32⟩ : BufTy).Contents (Elt F) → (⟨S50000, .f32⟩ : BufTy).Contents (Elt F) → (⟨S50000, .f32⟩ : BufTy).Contents (Elt F)) main_v8 main_v9
  have main_cst_2 : (⟨S_, .f32⟩ : BufTy).Contents (Elt F) := (constant S_ .f32 0xBF000000#32)
  have main_v11 : (⟨S50000, .f32⟩ : BufTy).Contents (Elt F) := (broadcastInDim S50000 ![] bcast_S_S50000 : (⟨S_, .f32⟩ : BufTy).Contents (Elt F) → (⟨S50000, .f32⟩ : BufTy).Contents (Elt F)) main_cst_2
  have main_v12 : (⟨S50000, .f32⟩ : BufTy).Contents (Elt F) := (Host.powf : (⟨S50000, .f32⟩ : BufTy).Contents (Elt F) → (⟨S50000, .f32⟩ : BufTy).Contents (Elt F) → (⟨S50000, .f32⟩ : BufTy).Contents (Elt F)) main_v10 main_v11
  have main_c : (⟨S_, .i32⟩ : BufTy).Contents (Elt F) := (constantI S_ 32 0#32)
  have main_v13 : (⟨S640000, .i32⟩ : BufTy).Contents (Elt F) := (broadcastInDim S640000 ![] bcast_S_S640000 : (⟨S_, .i32⟩ : BufTy).Contents (Elt F) → (⟨S640000, .i32⟩ : BufTy).Contents (Elt F)) main_c
  have main_v14 : (⟨S640000, .i1⟩ : BufTy).Contents (Elt F) := (cmpi .slt : (⟨S640000, .i32⟩ : BufTy).Contents (Elt F) → (⟨S640000, .i32⟩ : BufTy).Contents (Elt F) → (⟨S640000, .i1⟩ : BufTy).Contents (Elt F)) main_v2 main_v13
  have main_c_3 : (⟨S_, .i32⟩ : BufTy).Contents (Elt F) := (constantI S_ 32 50000#32)
  have main_v15 : (⟨S640000, .i32⟩ : BufTy).Contents (Elt F) := (broadcastInDim S640000 ![] bcast_S_S640000 : (⟨S_, .i32⟩ : BufTy).Contents (Elt F) → (⟨S640000, .i32⟩ : BufTy).Contents (Elt F)) main_c_3
  have main_v16 : (⟨S640000, .i32⟩ : BufTy).Contents (Elt F) := (addi : (⟨S640000, .i32⟩ : BufTy).Contents (Elt F) → (⟨S640000, .i32⟩ : BufTy).Contents (Elt F) → (⟨S640000, .i32⟩ : BufTy).Contents (Elt F)) main_v2 main_v15
  have main_v17 : (⟨S640000, .i32⟩ : BufTy).Contents (Elt F) := (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)) main_v14 main_v16 main_v2
  have main_v18 : (⟨S640000x1, .i32⟩ : BufTy).Contents (Elt F) := (broadcastInDim S640000x1 ![0] bcast_S640000_S640000x1_0 : (⟨S640000, .i32⟩ : BufTy).Contents (Elt F) → (⟨S640000x1, .i32⟩ : BufTy).Contents (Elt F)) main_v17
  have main_v19 : (⟨S640000, .f32⟩ : BufTy).Contents (Elt F) := ((fun x i => Host.gather gather_S50000_S640000x1_S640000_n_0_n_n_0_1_1 x i) : (⟨S50000, .f32⟩ : BufTy).Contents (Elt F) → (⟨S640000x1, .i32⟩ : BufTy).Contents (Elt F) → (⟨S640000, .f32⟩ : BufTy).Contents (Elt F)) main_v12 main_v18
  have main_c_4 : (⟨S_, .i32⟩ : BufTy).Contents (Elt F) := (constantI S_ 32 0#32)
  have main_v20 : (⟨S640000, .i32⟩ : BufTy).Contents (Elt F) := (broadcastInDim S640000 ![] bcast_S_S640000 : (⟨S_, .i32⟩ : BufTy).Contents (Elt F) → (⟨S640000, .i32⟩ : BufTy).Contents (Elt F)) main_c_4
  have main_v21 : (⟨S640000, .i1⟩ : BufTy).Contents (Elt F) := (cmpi .slt : (⟨S640000, .i32⟩ : BufTy).Contents (Elt F) → (⟨S640000, .i32⟩ : BufTy).Contents (Elt F) → (⟨S640000, .i1⟩ : BufTy).Contents (Elt F)) main_v4 main_v20
  have main_c_5 : (⟨S_, .i32⟩ : BufTy).Contents (Elt F) := (constantI S_ 32 50000#32)
  have main_v22 : (⟨S640000, .i32⟩ : BufTy).Contents (Elt F) := (broadcastInDim S640000 ![] bcast_S_S640000 : (⟨S_, .i32⟩ : BufTy).Contents (Elt F) → (⟨S640000, .i32⟩ : BufTy).Contents (Elt F)) main_c_5
  have main_v23 : (⟨S640000, .i32⟩ : BufTy).Contents (Elt F) := (addi : (⟨S640000, .i32⟩ : BufTy).Contents (Elt F) → (⟨S640000, .i32⟩ : BufTy).Contents (Elt F) → (⟨S640000, .i32⟩ : BufTy).Contents (Elt F)) main_v4 main_v22
  have main_v24 : (⟨S640000, .i32⟩ : BufTy).Contents (Elt F) := (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)) main_v21 main_v23 main_v4
  have main_v25 : (⟨S640000x1, .i32⟩ : BufTy).Contents (Elt F) := (broadcastInDim S640000x1 ![0] bcast_S640000_S640000x1_0 : (⟨S640000, .i32⟩ : BufTy).Contents (Elt F) → (⟨S640000x1, .i32⟩ : BufTy).Contents (Elt F)) main_v24
  have main_v26 : (⟨S640000, .f32⟩ : BufTy).Contents (Elt F) := ((fun x i => Host.gather gather_S50000_S640000x1_S640000_n_0_n_n_0_1_1 x i) : (⟨S50000, .f32⟩ : BufTy).Contents (Elt F) → (⟨S640000x1, .i32⟩ : BufTy).Contents (Elt F) → (⟨S640000, .f32⟩ : BufTy).Contents (Elt F)) main_v12 main_v25
  have main_v27 : (⟨S640000, .f32⟩ : BufTy).Contents (Elt F) := (mulf : (⟨S640000, .f32⟩ : BufTy).Contents (Elt F) → (⟨S640000, .f32⟩ : BufTy).Contents (Elt F) → (⟨S640000, .f32⟩ : BufTy).Contents (Elt F)) main_v19 main_v26
  have main_v28 : (⟨S640000x1, .f32⟩ : BufTy).Contents (Elt F) := (broadcastInDim S640000x1 ![0] bcast_S640000_S640000x1_0 : (⟨S640000, .f32⟩ : BufTy).Contents (Elt F) → (⟨S640000x1, .f32⟩ : BufTy).Contents (Elt F)) main_v27
  have main_c_6 : (⟨S_, .i32⟩ : BufTy).Contents (Elt F) := (constantI S_ 32 0#32)
  have main_v29 : (⟨S640000, .i32⟩ : BufTy).Contents (Elt F) := (broadcastInDim S640000 ![] bcast_S_S640000 : (⟨S_, .i32⟩ : BufTy).Contents (Elt F) → (⟨S640000, .i32⟩ : BufTy).Contents (Elt F)) main_c_6
  have main_v30 : (⟨S640000, .i1⟩ : BufTy).Contents (Elt F) := (cmpi .slt : (⟨S640000, .i32⟩ : BufTy).Contents (Elt F) → (⟨S640000, .i32⟩ : BufTy).Contents (Elt F) → (⟨S640000, .i1⟩ : BufTy).Contents (Elt F)) main_v2 main_v29
  have main_c_7 : (⟨S_, .i32⟩ : BufTy).Contents (Elt F) := (constantI S_ 32 50000#32)
  have main_v31 : (⟨S640000, .i32⟩ : BufTy).Contents (Elt F) := (broadcastInDim S640000 ![] bcast_S_S640000 : (⟨S_, .i32⟩ : BufTy).Contents (Elt F) → (⟨S640000, .i32⟩ : BufTy).Contents (Elt F)) main_c_7
  have main_v32 : (⟨S640000, .i32⟩ : BufTy).Contents (Elt F) := (addi : (⟨S640000, .i32⟩ : BufTy).Contents (Elt F) → (⟨S640000, .i32⟩ : BufTy).Contents (Elt F) → (⟨S640000, .i32⟩ : BufTy).Contents (Elt F)) main_v2 main_v31
  have main_v33 : (⟨S640000, .i32⟩ : BufTy).Contents (Elt F) := (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)) main_v30 main_v32 main_v2
  have main_v34 : (⟨S640000x1, .i32⟩ : BufTy).Contents (Elt F) := (broadcastInDim S640000x1 ![0] bcast_S640000_S640000x1_0 : (⟨S640000, .i32⟩ : BufTy).Contents (Elt F) → (⟨S640000x1, .i32⟩ : BufTy).Contents (Elt F)) main_v33
  have main_v35 : (⟨S640000x128, .f32⟩ : BufTy).Contents (Elt F) := ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)) main_v0 main_v34
  have main_v36 : (⟨S640000x128, .f32⟩ : BufTy).Contents (Elt F) := (broadcastInDim S640000x128 ![0, 1] bcast_S640000x1_S640000x128_0_1 : (⟨S640000x1, .f32⟩ : BufTy).Contents (Elt F) → (⟨S640000x128, .f32⟩ : BufTy).Contents (Elt F)) main_v28
  have main_v37 : (⟨S640000x128, .f32⟩ : BufTy).Contents (Elt F) := (mulf : (⟨S640000x128, .f32⟩ : BufTy).Contents (Elt F) → (⟨S640000x128, .f32⟩ : BufTy).Contents (Elt F) → (⟨S640000x128, .f32⟩ : BufTy).Contents (Elt F)) main_v36 main_v35
  have main_cst_8 : (⟨S_, .f32⟩ : BufTy).Contents (Elt F) := (constant S_ .f32 0x00000000#32)
  have main_v38 : (⟨S50000x128, .f32⟩ : BufTy).Contents (Elt F) := (broadcastInDim S50000x128 ![] bcast_S_S50000x128 : (⟨S_, .f32⟩ : BufTy).Contents (Elt F) → (⟨S50000x128, .f32⟩ : BufTy).Contents (Elt F)) main_cst_8
  have main_v39 : (⟨S640000x1, .i32⟩ : BufTy).Contents (Elt F) := (broadcastInDim S640000x1 ![0] bcast_S640000_S640000x1_0 : (⟨S640000, .i32⟩ : BufTy).Contents (Elt F) → (⟨S640000x1, .i32⟩ : BufTy).Contents (Elt F)) main_v4
  have main_v40 : (⟨S50000x128, .f32⟩ : BufTy).Contents (Elt F) := ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)) main_v38 main_v39 main_v37
  have main_v41 : (⟨S50000, .f32⟩ : BufTy).Contents (Elt F) := (mulf : (⟨S50000, .f32⟩ : BufTy).Contents (Elt F) → (⟨S50000, .f32⟩ : BufTy).Contents (Elt F) → (⟨S50000, .f32⟩ : BufTy).Contents (Elt F)) main_v12 main_v12
  have main_v42 : (⟨S50000x1, .f32⟩ : BufTy).Contents (Elt F) := (broadcastInDim S50000x1 ![0] bcast_S50000_S50000x1_0 : (⟨S50000, .f32⟩ : BufTy).Contents (Elt F) → (⟨S50000x1, .f32⟩ : BufTy).Contents (Elt F)) main_v41
  have main_v43 : (⟨S50000x128, .f32⟩ : BufTy).Contents (Elt F) := (broadcastInDim S50000x128 ![0, 1] bcast_S50000x1_S50000x128_0_1 : (⟨S50000x1, .f32⟩ : BufTy).Contents (Elt F) → (⟨S50000x128, .f32⟩ : BufTy).Contents (Elt F)) main_v42
  have main_v44 : (⟨S50000x128, .f32⟩ : BufTy).Contents (Elt F) := (mulf : (⟨S50000x128, .f32⟩ : BufTy).Contents (Elt F) → (⟨S50000x128, .f32⟩ : BufTy).Contents (Elt F) → (⟨S50000x128, .f32⟩ : BufTy).Contents (Elt F)) main_v43 main_v0
  have main_v45 : (⟨S50000x128, .f32⟩ : BufTy).Contents (Elt F) := (addf : (⟨S50000x128, .f32⟩ : BufTy).Contents (Elt F) → (⟨S50000x128, .f32⟩ : BufTy).Contents (Elt F) → (⟨S50000x128, .f32⟩ : BufTy).Contents (Elt F)) main_v40 main_v44
  have main_v46 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_arg5
  have main_v47 : (⟨S50000x128, .f32⟩ : BufTy).Contents (Elt F) := (broadcastInDim S50000x128 ![0, 1] bcast_S1x128_S50000x128_0_1 : (⟨S1x128, .f32⟩ : BufTy).Contents (Elt F) → (⟨S50000x128, .f32⟩ : BufTy).Contents (Elt F)) main_v46
  have main_v48 : (⟨S50000x128, .f32⟩ : BufTy).Contents (Elt F) := (addf : (⟨S50000x128, .f32⟩ : BufTy).Contents (Elt F) → (⟨S50000x128, .f32⟩ : BufTy).Contents (Elt F) → (⟨S50000x128, .f32⟩ : BufTy).Contents (Elt F)) main_v45 main_v47
  main_v48

end Cert.ReferenceIdeal.Gen

end
-- ==== Proof.RChunk1.lean ====
/-
  The reference's first aggregation stretch (operations 2 … 63 of its @main: from the slices of the local edge list to the maximum
  with zero), read operation by operation over ANY contents of the buffers before it: its 59 plain operations are the edge aggregation
  `rPre` of the first product, the local edge list and the first bias; its last three take the maximum with zero.
-/
import proofs.«406451_j67508295958856_1_alg».proof.Proof.RSplit
import proofs.«406451_j67508295958856_1_alg».proof.Proof.RBound
import proofs.«406451_j67508295958856_1_alg».proof.Proof.GlueR
import Idealize.ShloMosaic.PureOps.Ideal

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

theorem c1_val (Wp : Valuation τ sig (Elt Ideal)) :
    after c1 Wp (Proc.devRef .tc main_v49)
      = rRelu (rPre (F := Ideal) (Wp (Proc.devRef .tc main_v0)) (Wp (Proc.devRef .tc main_arg1)) (Wp (Proc.devRef .tc main_arg5))) := by
  rw [c1_split, after_append]
  have hA : after c1A Wp (Proc.devRef .tc main_v48)
      = rPre (F := Ideal) (Wp (Proc.devRef .tc main_v0)) (Wp (Proc.devRef .tc main_arg1)) (Wp (Proc.devRef .tc main_arg5)) := by
    after_results_simp
    rfl
  generalize after c1A Wp = Wq at hA ⊢
  after_results_simp
  rw [hA]
  rfl

end Cert.ReferenceIdeal.HandRun

end
-- ==== Proof.RChunk3.lean ====
/-
  The reference's second aggregation stretch (operations 65 … 126 of its @main: from the slices of the global edge list to the maximum
  with zero), read operation by operation over ANY contents of the buffers before it: its 59 plain operations are the edge aggregation
  `rPre` of the product before it, the global edge list and the layer's bias; its last three take the maximum with zero.
-/
import proofs.«406451_j67508295958856_1_alg».proof.Proof.RSplit
import proofs.«406451_j67508295958856_1_alg».proof.Proof.RBound
import proofs.«406451_j67508295958856_1_alg».proof.Proof.GlueR
import Idealize.ShloMosaic.PureOps.Ideal

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

theorem c3_val (Wp : Valuation τ sig (Elt Ideal)) :
    after c3 Wp (Proc.devRef .tc main_v99)
      = rRelu (rPre (F := Ideal) (Wp (Proc.devRef .tc main_v50)) (Wp (Proc.devRef .tc main_arg2)) (Wp (Proc.devRef .tc main_arg7))) := by
  rw [c3_split, after_append]
  have hA : after c3A Wp (Proc.devRef .tc main_v98)
      = rPre (F := Ideal) (Wp (Proc.devRef .tc main_v50)) (Wp (Proc.devRef .tc main_arg2)) (Wp (Proc.devRef .tc main_arg7)) := by
    after_results_simp
    rfl
  generalize after c3A Wp = Wq at hA ⊢
  after_results_simp
  rw [hA]
  rfl

end Cert.ReferenceIdeal.HandRun

end
-- ==== Proof.RChunk6.lean ====
/-
  The reference's third aggregation stretch (operations 140 … 201 of its @main: from the slices of the local edge list to the maximum
  with zero), read operation by operation over ANY contents of the buffers before it: its 59 plain operations are the edge aggregation
  `rPre` of the product before it, the local edge list and the layer's bias; its last three take the maximum with zero.
-/
import proofs.«406451_j67508295958856_1_alg».proof.Proof.RSplit
import proofs.«406451_j67508295958856_1_alg».proof.Proof.RBound
import proofs.«406451_j67508295958856_1_alg».proof.Proof.GlueR
import Idealize.ShloMosaic.PureOps.Ideal

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

theorem c6_val (Wp : Valuation τ sig (Elt Ideal)) :
    after c6 Wp (Proc.devRef .tc main_v159)
      = rRelu (rPre (F := Ideal) (Wp (Proc.devRef .tc main_v110)) (Wp (Proc.devRef .tc main_arg1)) (Wp (Proc.devRef .tc main_arg13))) := by
  rw [c6_split, after_append]
  have hA : after c6A Wp (Proc.devRef .tc main_v158)
      = rPre (F := Ideal) (Wp (Proc.devRef .tc main_v110)) (Wp (Proc.devRef .tc main_arg1)) (Wp (Proc.devRef .tc main_arg13)) := by
    after_results_simp
    rfl
  generalize after c6A Wp = Wq at hA ⊢
  after_results_simp
  rw [hA]
  rfl

end Cert.ReferenceIdeal.HandRun

end
-- ==== Proof.RChunk8.lean ====
/-
  The reference's fourth aggregation stretch (operations 203 … 264 of its @main: from the slices of the global edge list to the maximum
  with zero), read operation by operation over ANY contents of the buffers before it: its 59 plain operations are the edge aggregation
  `rPre` of the product before it, the global edge list and the layer's bias; its last three take the maximum with zero.
-/
import proofs.«406451_j67508295958856_1_alg».proof.Proof.RSplit
import proofs.«406451_j67508295958856_1_alg».proof.Proof.RBound
import proofs.«406451_j67508295958856_1_alg».proof.Proof.GlueR
import Idealize.ShloMosaic.PureOps.Ideal

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

theorem c8_val (Wp : Valuation τ sig (Elt Ideal)) :
    after c8 Wp (Proc.devRef .tc main_v209)
      = rRelu (rPre (F := Ideal) (Wp (Proc.devRef .tc main_v160)) (Wp (Proc.devRef .tc main_arg2)) (Wp (Proc.devRef .tc main_arg15))) := by
  rw [c8_split, after_append]
  have hA : after c8A Wp (Proc.devRef .tc main_v208)
      = rPre (F := Ideal) (Wp (Proc.devRef .tc main_v160)) (Wp (Proc.devRef .tc main_arg2)) (Wp (Proc.devRef .tc main_arg15)) := by
    after_results_simp
    rfl
  generalize after c8A Wp = Wq at hA ⊢
  after_results_simp
  rw [hA]
  rfl

end Cert.ReferenceIdeal.HandRun

end
-- ==== Proof.GlueRM.lean ====
import proofs.«406451_j67508295958856_1_alg».proof.Proof.Gen.ReferenceIdeal

noncomputable section

namespace Cert.ReferenceIdeal.Gen

open Idealize.ShloMosaic Idealize.SL.Sem

variable {F : FTy → Type} [FloatOps F]

/-- The host operations of the lists c4 of the generated launch module, in order, as one function of the buffers they read:
    each line is one operation's printed function applied to its operands' values. -/
def rMlp (main_v49 : (⟨S50000x128, .f32⟩ : BufTy).Contents (Elt F)) (main_v99 : (⟨S50000x128, .f32⟩ : BufTy).Contents (Elt F)) (main_arg8 : (⟨S256x128, .f32⟩ : BufTy).Contents (Elt F)) (main_arg9 : (⟨S128, .f32⟩ : BufTy).Contents (Elt F)) (main_arg10 : (⟨S128x128, .f32⟩ : BufTy).Contents (Elt F)) (main_arg11 : (⟨S128, .f32⟩ : BufTy).Contents (Elt F)) :
    (⟨S50000x128, .f32⟩ : BufTy).Contents (Elt F) :=
  have main_v100 : (⟨S50000x256, .f32⟩ : BufTy).Contents (Elt F) := ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)) main_v49 main_v99
  have main_v101 : (⟨S50000x128, .f32⟩ : BufTy).Contents (Elt F) := ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) main_v100 main_arg8
  have main_v102 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_arg9
  have main_v103 : (⟨S50000x128, .f32⟩ : BufTy).Contents (Elt F) := (broadcastInDim S50000x128 ![0, 1] bcast_S1x128_S50000x128_0_1 : (⟨S1x128, .f32⟩ : BufTy).Contents (Elt F) → (⟨S50000x128, .f32⟩ : BufTy).Contents (Elt F)) main_v102
  have main_v104 : (⟨S50000x128, .f32⟩ : BufTy).Contents (Elt F) := (addf : (⟨S50000x128, .f32⟩ : BufTy).Contents (Elt F) → (⟨S50000x128, .f32⟩ : BufTy).Contents (Elt F) → (⟨S50000x128, .f32⟩ : BufTy).Contents (Elt F)) main_v101 main_v103
  have main_call2_cst : (⟨S_, .f32⟩ : BufTy).Contents (Elt F) := (constant S_ .f32 0x00000000#32)
  have main_call2_v0 : (⟨S50000x128, .f32⟩ : BufTy).Contents (Elt F) := (broadcastInDim S50000x128 ![] bcast_S_S50000x128) main_call2_cst
  have main_v105 : (⟨S50000x128, .f32⟩ : BufTy).Contents (Elt F) := (maximumf) main_v104 main_call2_v0
  have main_v106 : (⟨S50000x128, .f32⟩ : BufTy).Contents (Elt F) := ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) main_v105 main_arg10
  have main_v107 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_arg11
  have main_v108 : (⟨S50000x128, .f32⟩ : BufTy).Contents (Elt F) := (broadcastInDim S50000x128 ![0, 1] bcast_S1x128_S50000x128_0_1 : (⟨S1x128, .f32⟩ : BufTy).Contents (Elt F) → (⟨S50000x128, .f32⟩ : BufTy).Contents (Elt F)) main_v107
  have main_v109 : (⟨S50000x128, .f32⟩ : BufTy).Contents (Elt F) := (addf : (⟨S50000x128, .f32⟩ : BufTy).Contents (Elt F) → (⟨S50000x128, .f32⟩ : BufTy).Contents (Elt F) → (⟨S50000x128, .f32⟩ : BufTy).Contents (Elt F)) main_v106 main_v108
  main_v109

end Cert.ReferenceIdeal.Gen

end
-- ==== Proof.GlueRT.lean ====
import proofs.«406451_j67508295958856_1_alg».proof.Proof.Gen.ReferenceIdeal

noncomputable section

namespace Cert.ReferenceIdeal.Gen

open Idealize.ShloMosaic Idealize.SL.Sem

variable {F : FTy → Type} [FloatOps F]

/-- The host operations of the lists c10 of the generated launch module, in order, as one function of the buffers they read:
    each line is one operation's printed function applied to its operands' values. -/
def rTail (main_v219 : (⟨S50000x128, .f32⟩ : BufTy).Contents (Elt F)) (main_arg3 : (⟨S50000, .i32⟩ : BufTy).Contents (Elt F)) (main_arg20 : (⟨S128x1, .f32⟩ : BufTy).Contents (Elt F)) (main_arg21 : (⟨S1, .f32⟩ : BufTy).Contents (Elt F)) :
    (⟨S128, .f32⟩ : BufTy).Contents (Elt F) :=
  have main_cst_42 : (⟨S_, .f32⟩ : BufTy).Contents (Elt F) := (constant S_ .f32 0x00000000#32)
  have main_v220 : (⟨S128x128, .f32⟩ : BufTy).Contents (Elt F) := (broadcastInDim S128x128 ![] bcast_S_S128x128 : (⟨S_, .f32⟩ : BufTy).Contents (Elt F) → (⟨S128x128, .f32⟩ : BufTy).Contents (Elt F)) main_cst_42
  have main_v221 : (⟨S50000x1, .i32⟩ : BufTy).Contents (Elt F) := (broadcastInDim S50000x1 ![0] bcast_S50000_S50000x1_0 : (⟨S50000, .i32⟩ : BufTy).Contents (Elt F) → (⟨S50000x1, .i32⟩ : BufTy).Contents (Elt F)) main_arg3
  have main_v222 : (⟨S128x128, .f32⟩ : BufTy).Contents (Elt F) := ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)) main_v220 main_v221 main_v219
  have main_v223 : (⟨S128x1, .f32⟩ : BufTy).Contents (Elt F) := ((fun l r => Host.dotGeneral dot_S128x128_S128x1_S128x1_1_0_0_1_n_n none l r) : (⟨S128x128, .f32⟩ : BufTy).Contents (Elt F) → (⟨S128x1, .f32⟩ : BufTy).Contents (Elt F) → (⟨S128x1, .f32⟩ : BufTy).Contents (Elt F)) main_v222 main_arg20
  have main_v224 : (⟨S1x1, .f32⟩ : BufTy).Contents (Elt F) := (broadcastInDim S1x1 ![1] bcast_S1_S1x1_1 : (⟨S1, .f32⟩ : BufTy).Contents (Elt F) → (⟨S1x1, .f32⟩ : BufTy).Contents (Elt F)) main_arg21
  have main_v225 : (⟨S128x1, .f32⟩ : BufTy).Contents (Elt F) := (broadcastInDim S128x1 ![0, 1] bcast_S1x1_S128x1_0_1 : (⟨S1x1, .f32⟩ : BufTy).Contents (Elt F) → (⟨S128x1, .f32⟩ : BufTy).Contents (Elt F)) main_v224
  have main_v226 : (⟨S128x1, .f32⟩ : BufTy).Contents (Elt F) := (addf : (⟨S128x1, .f32⟩ : BufTy).Contents (Elt F) → (⟨S128x1, .f32⟩ : BufTy).Contents (Elt F) → (⟨S128x1, .f32⟩ : BufTy).Contents (Elt F)) main_v223 main_v225
  have main_v227 := shapeCast S128 main_v226 shapeCasts_S128x1_S128
  main_v227

end Cert.ReferenceIdeal.Gen

end
-- ==== Proof.RChunkL.lean ====
/-
  The reference's short stretches, each read operation by operation over ANY contents of the buffers before it: the four products
  that open a graph-convolution layer, the two stretches that join two layers along the columns and run the perceptron, and the
  closing stretch (per-label scatter-add of the rows, product with the [128,1] weight, bias, reshape).
-/
import proofs.«406451_j67508295958856_1_alg».proof.Proof.RefRunA
import proofs.«406451_j67508295958856_1_alg».proof.Proof.GlueRM
import proofs.«406451_j67508295958856_1_alg».proof.Proof.GlueRT
import Idealize.ShloMosaic.PureOps.Ideal

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

variable (Wp : Valuation τ sig (Elt Ideal))

theorem c0_val : after c0 Wp (Proc.devRef .tc main_v0)
    = Host.dotGeneral (F := Ideal) (φ₁ := .f32) (φ₂ := .f32) dot_S50000x128_S128x128_S50000x128_1_0_0_1_n_n none (Wp (Proc.devRef .tc main_arg0)) (Wp (Proc.devRef .tc main_arg4)) := by
  after_results_simp

theorem c2_val : after c2 Wp (Proc.devRef .tc main_v50)
    = Host.dotGeneral (F := Ideal) (φ₁ := .f32) (φ₂ := .f32) dot_S50000x128_S128x128_S50000x128_1_0_0_1_n_n none (Wp (Proc.devRef .tc main_arg0)) (Wp (Proc.devRef .tc main_arg6)) := by
  after_results_simp

theorem c5_val : after c5 Wp (Proc.devRef .tc main_v110)
    = Host.dotGeneral (F := Ideal) (φ₁ := .f32) (φ₂ := .f32) dot_S50000x128_S128x128_S50000x128_1_0_0_1_n_n none (Wp (Proc.devRef .tc main_v109)) (Wp (Proc.devRef .tc main_arg12)) := by
  after_results_simp

theorem c7_val : after c7 Wp (Proc.devRef .tc main_v160)
    = Host.dotGeneral (F := Ideal) (φ₁ := .f32) (φ₂ := .f32) dot_S50000x128_S128x128_S50000x128_1_0_0_1_n_n none (Wp (Proc.devRef .tc main_v109)) (Wp (Proc.devRef .tc main_arg14)) := by
  after_results_simp

theorem c4_val : after c4 Wp (Proc.devRef .tc main_v109)
    = rMlp (F := Ideal) (Wp (Proc.devRef .tc main_v49)) (Wp (Proc.devRef .tc main_v99)) (Wp (Proc.devRef .tc main_arg8)) (Wp (Proc.devRef .tc main_arg9)) (Wp (Proc.devRef .tc main_arg10)) (Wp (Proc.devRef .tc main_arg11)) := by
  after_results
  rfl

theorem c9_val : after c9 Wp (Proc.devRef .tc main_v219)
    = rMlp (F := Ideal) (Wp (Proc.devRef .tc main_v159)) (Wp (Proc.devRef .tc main_v209)) (Wp (Proc.devRef .tc main_arg16)) (Wp (Proc.devRef .tc main_arg17)) (Wp (Proc.devRef .tc main_arg18)) (Wp (Proc.devRef .tc main_arg19)) := by
  after_results
  rfl

theorem c10_val : after c10 Wp (Proc.devRef .tc main_v227)
    = rTail (F := Ideal) (Wp (Proc.devRef .tc main_v219)) (Wp (Proc.devRef .tc main_arg3)) (Wp (Proc.devRef .tc main_arg20)) (Wp (Proc.devRef .tc main_arg21)) := by
  after_results_simp
  rfl

end Cert.ReferenceIdeal.HandRun

end
-- ==== Proof.RefDense.lean ====
/-
  The reference's three spellings of a dense layer are the specification's whole-array functions, at the ideal
  instance (floats are extended reals, every operation exact).

  * a bare `dot_general` of a `[50000, 128]` array with a `[128, 128]` array is `dense` with the zero bias (the zero
    word's splat over `[128]`): `x + 0 = x` on the extended reals;
  * the same `dot_general` plus the bias `b : [128]` broadcast first to `[1, 128]` and then along the 50000 rows is
    `dense x w b`: both broadcasts read `b` at the output's column;
  * over 256 contraction coordinates, followed by the maximum with the zero splat, it is `denseRelu x w b`.

  The side conditions of the broadcasts are hypotheses, so the equations hold whatever proof a program cites for them.
-/
import proofs.«406451_j67508295958856_1_alg».proof.Proof.Gen.ReferenceIdeal
import proofs.«406451_j67508295958856_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.Bridge

open Idealize.ShloMosaic Idealize.ShloMosaic.ValueIdx Cert.Bridge

namespace RefDense

/-! ## The two products read at an index -/

/-- The left operand's index at output index `i` and contraction index `q` keeps the output's row … -/
theorem lhs128_0 (i : SN128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin SN128.rank) ∈ Cert.ReferenceIdeal.dot_S50000x128_S128x128_S50000x128_1_0_0_1_n_n.lhsBatch by decide), dif_pos (show (0 : Fin SN128.rank) ∈ Cert.ReferenceIdeal.dot_S50000x128_S128x128_S50000x128_1_0_0_1_n_n.lhsNonContracting by decide)]
  rfl
/-- … and takes the contraction coordinate as its column. -/
theorem lhs128_1 (i : SN128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
/-- The right operand's index takes the contraction coordinate as its row … -/
theorem rhs128_0 (i : SN128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
/-- … and keeps the output's column. -/
theorem rhs128_1 (i : SN128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin SW128.rank) ∈ Cert.ReferenceIdeal.dot_S50000x128_S128x128_S50000x128_1_0_0_1_n_n.rhsBatch by decide), dif_pos (show (1 : Fin SW128.rank) ∈ Cert.ReferenceIdeal.dot_S50000x128_S128x128_S50000x128_1_0_0_1_n_n.rhsNonContracting by decide)]
  rfl

/-- The product of a `[50000, 128]` array with a `[128, 128]` array, read at row `p` and column `q`: the sum over the
    128 contraction coordinates `k` of `x (p, k) · w (k, q)`. The contraction index set has one axis of extent 128;
    the sum is re-indexed through the bijection with `Fin 128`. -/
theorem dot128_apply (x : FVec Ideal SN128 .f32) (w : FVec Ideal SW128 .f32) (p : Fin 50000) (q : Fin 128) :
    Host.dotGeneral (F := Ideal) Cert.ReferenceIdeal.dot_S50000x128_S128x128_S50000x128_1_0_0_1_n_n none x w (ix2 p q)
      = ∑ k : Fin 128, x (ix2 p k) * w (ix2 k q) := by
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 p q) ((ValueIdx.contrEquiv1 Cert.ReferenceIdeal.dot_S50000x128_S128x128_S50000x128_1_0_0_1_n_n 128 rfl rfl).symm k) = ix2 p k := funext fun a => Fin.ext (by
    match a with
    | ⟨0, _⟩ => exact lhs128_0 _ _
    | ⟨1, _⟩ => exact (lhs128_1 _ _).trans hk)
  have er : Cert.ReferenceIdeal.dot_S50000x128_S128x128_S50000x128_1_0_0_1_n_n.rhsIdx (ix2 p q) ((ValueIdx.contrEquiv1 Cert.ReferenceIdeal.dot_S50000x128_S128x128_S50000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-- The left operand's index at output index `i` and contraction index `q` keeps the output's row … -/
theorem lhs256_0 (i : SN128.Idx) (q : Cert.ReferenceIdeal.dot_S50000x256_S256x128_S50000x128_1_0_0_1_n_n.contr.Idx) :
    (Cert.ReferenceIdeal.dot_S50000x256_S256x128_S50000x128_1_0_0_1_n_n.lhsIdx i q 0).val = (i 0).val := by
  unfold DotDims.lhsIdx
  rw [dif_neg (show ¬(0 : Fin SN256.rank) ∈ Cert.ReferenceIdeal.dot_S50000x256_S256x128_S50000x128_1_0_0_1_n_n.lhsBatch by decide), dif_pos (show (0 : Fin SN256.rank) ∈ Cert.ReferenceIdeal.dot_S50000x256_S256x128_S50000x128_1_0_0_1_n_n.lhsNonContracting by decide)]
  rfl
/-- … and takes the contraction coordinate as its column. -/
theorem lhs256_1 (i : SN128.Idx) (q : Cert.ReferenceIdeal.dot_S50000x256_S256x128_S50000x128_1_0_0_1_n_n.contr.Idx) :
    (Cert.ReferenceIdeal.dot_S50000x256_S256x128_S50000x128_1_0_0_1_n_n.lhsIdx i q 1).val = (q ⟨0, by decide⟩).val :=
  Cert.ReferenceIdeal.dot_S50000x256_S256x128_S50000x128_1_0_0_1_n_n.lhsIdx_val_of_single rfl i q
/-- The right operand's index takes the contraction coordinate as its row … -/
theorem rhs256_0 (i : SN128.Idx) (q : Cert.ReferenceIdeal.dot_S50000x256_S256x128_S50000x128_1_0_0_1_n_n.contr.Idx) :
    (Cert.ReferenceIdeal.dot_S50000x256_S256x128_S50000x128_1_0_0_1_n_n.rhsIdx i q 0).val = (q ⟨0, by decide⟩).val :=
  Cert.ReferenceIdeal.dot_S50000x256_S256x128_S50000x128_1_0_0_1_n_n.rhsIdx_val_of_single rfl i q
/-- … and keeps the output's column. -/
theorem rhs256_1 (i : SN128.Idx) (q : Cert.ReferenceIdeal.dot_S50000x256_S256x128_S50000x128_1_0_0_1_n_n.contr.Idx) :
    (Cert.ReferenceIdeal.dot_S50000x256_S256x128_S50000x128_1_0_0_1_n_n.rhsIdx i q 1).val = (i 1).val := by
  unfold DotDims.rhsIdx
  rw [dif_neg (show ¬(1 : Fin SW256.rank) ∈ Cert.ReferenceIdeal.dot_S50000x256_S256x128_S50000x128_1_0_0_1_n_n.rhsBatch by decide), dif_pos (show (1 : Fin SW256.rank) ∈ Cert.ReferenceIdeal.dot_S50000x256_S256x128_S50000x128_1_0_0_1_n_n.rhsNonContracting by decide)]
  rfl

/-- The product of a `[50000, 256]` array with a `[256, 128]` array, read at row `p` and column `q`: the sum over the
    256 contraction coordinates `k` of `x (p, k) · w (k, q)`. The contraction index set has one axis of extent 256;
    the sum is re-indexed through the bijection with `Fin 256`. -/
theorem dot256_apply (x : FVec Ideal SN256 .f32) (w : FVec Ideal SW256 .f32) (p : Fin 50000) (q : Fin 128) :
    Host.dotGeneral (F := Ideal) Cert.ReferenceIdeal.dot_S50000x256_S256x128_S50000x128_1_0_0_1_n_n none x w (ix2 p q)
      = ∑ k : Fin 256, x (ix2 p k) * w (ix2 k q) := by
  simp only [Host.dotGeneral]
  rw [Ideal.dotGeneral_apply, ← Equiv.sum_comp (ValueIdx.contrEquiv1 Cert.ReferenceIdeal.dot_S50000x256_S256x128_S50000x128_1_0_0_1_n_n 256 rfl rfl).symm]
  refine Finset.sum_congr rfl fun k _ => ?_
  have hk := ValueIdx.contrEquiv1_symm_val Cert.ReferenceIdeal.dot_S50000x256_S256x128_S50000x128_1_0_0_1_n_n 256 rfl rfl k
  have el : Cert.ReferenceIdeal.dot_S50000x256_S256x128_S50000x128_1_0_0_1_n_n.lhsIdx (ix2 p q) ((ValueIdx.contrEquiv1 Cert.ReferenceIdeal.dot_S50000x256_S256x128_S50000x128_1_0_0_1_n_n 256 rfl rfl).symm k) = ix2 p k := funext fun a => Fin.ext (by
    match a with
    | ⟨0, _⟩ => exact lhs256_0 _ _
    | ⟨1, _⟩ => exact (lhs256_1 _ _).trans hk)
  have er : Cert.ReferenceIdeal.dot_S50000x256_S256x128_S50000x128_1_0_0_1_n_n.rhsIdx (ix2 p q) ((ValueIdx.contrEquiv1 Cert.ReferenceIdeal.dot_S50000x256_S256x128_S50000x128_1_0_0_1_n_n 256 rfl rfl).symm k) = ix2 k q := funext fun a => Fin.ext (by
    match a with
    | ⟨0, _⟩ => exact (rhs256_0 _ _).trans hk
    | ⟨1, _⟩ => exact rhs256_1 _ _)
  rw [el, er]

/-! ## The broadcasts read at an index -/

/-- The scalar zero word's splat, broadcast to any shape, reads the extended real `0` everywhere. -/
theorem bcast_zero_apply {t : Shape} (hz : (⟨0, ![]⟩ : Shape).BroadcastsInDim t (![] : Fin 0 → Fin t.rank)) (j : t.Idx) :
    broadcastInDim t ![] hz (constant (F := Ideal) (⟨0, ![]⟩ : Shape) .f32 0x00000000#32) j = (0 : EReal) := by
  rw [broadcastInDim_apply ![] hz _ j ix0 (fun a => a.elim0), constant_apply, Ideal.ofBits_zero_f32]

/-- The bias `b : [128]` broadcast to `[1, 128]` along its one axis and then to `[50000, 128]` along the rows reads `b` at the
    output's column: the second broadcast reads row `0` of the `[1, 128]` array at the same column, the first reads `b` there. -/
theorem bcast_bias_apply (b : FVec Ideal SB128 .f32) (h1 : SB128.BroadcastsInDim (⟨2, ![1, 128]⟩ : Shape) (![1] : Fin 1 → Fin (⟨2, ![1, 128]⟩ : Shape).rank))
    (h2 : (⟨2, ![1, 128]⟩ : Shape).BroadcastsInDim SN128 (![0, 1] : Fin 2 → Fin SN128.rank)) (p : Fin 50000) (q : Fin 128) :
    broadcastInDim SN128 ![0, 1] h2 (broadcastInDim (⟨2, ![1, 128]⟩ : Shape) ![1] h1 b) (ix2 p q) = b (ix1 q) :=
  (broadcastInDim_apply ![0, 1] h2 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans
  (broadcastInDim_apply ![1] h1 b (ix2 (0 : Fin 1) q) (ix1 q) (fun a => match a with
    | ⟨0, _⟩ => by show q.val = if (128 : Nat) = 1 then 0 else q.val; rw [if_neg (by decide)]))

end RefDense

/-! ## The three spellings -/

/-- A bare product is `dense` with the zero bias. -/
theorem dot_eq_dense (x : FVec Ideal SN128 .f32) (w : FVec Ideal SW128 .f32)
    (hz : (⟨0, ![]⟩ : Shape).BroadcastsInDim SB128 (![] : Fin 0 → Fin SB128.rank)) :
    Host.dotGeneral (F := Ideal) Cert.ReferenceIdeal.dot_S50000x128_S128x128_S50000x128_1_0_0_1_n_n none x w
      = dense x w (broadcastInDim SB128 ![] hz (constant (F := Ideal) (⟨0, ![]⟩ : Shape) .f32 0x00000000#32)) := by
  funext i
  obtain ⟨p, q, rfl⟩ : ∃ p q, i = ix2 p q := ⟨i 0, i 1, eq_ix2 i⟩
  refine (RefDense.dot128_apply x w p q).trans ?_
  show _ = (∑ k : Fin 128, x (ix2 p k) * w (ix2 k q)) + broadcastInDim SB128 ![] hz (constant (F := Ideal) (⟨0, ![]⟩ : Shape) .f32 0x00000000#32) (ix1 q)
  rw [RefDense.bcast_zero_apply hz (ix1 q), add_zero]

/-- The product plus the bias broadcast along the rows is `dense`. -/
theorem dot_bias_eq_dense (x : FVec Ideal SN128 .f32) (w : FVec Ideal SW128 .f32) (b : FVec Ideal SB128 .f32)
    (h1 : SB128.BroadcastsInDim (⟨2, ![1, 128]⟩ : Shape) (![1] : Fin 1 → Fin (⟨2, ![1, 128]⟩ : Shape).rank))
    (h2 : (⟨2, ![1, 128]⟩ : Shape).BroadcastsInDim SN128 (![0, 1] : Fin 2 → Fin SN128.rank)) :
    addf (F := Ideal) (Host.dotGeneral (F := Ideal) Cert.ReferenceIdeal.dot_S50000x128_S128x128_S50000x128_1_0_0_1_n_n none x w)
        (broadcastInDim SN128 ![0, 1] h2 (broadcastInDim (⟨2, ![1, 128]⟩ : Shape) ![1] h1 b))
      = dense x w b := by
  funext i
  obtain ⟨p, q, rfl⟩ : ∃ p q, i = ix2 p q := ⟨i 0, i 1, eq_ix2 i⟩
  rw [addf_apply, RefDense.dot128_apply x w p q, RefDense.bcast_bias_apply b h1 h2 p q]
  rfl

/-- Over 256 contraction coordinates, the product plus the broadcast bias, then the maximum with the zero splat, is
    `denseRelu`. -/
theorem dot_bias_relu_eq (x : FVec Ideal SN256 .f32) (w : FVec Ideal SW256 .f32) (b : FVec Ideal SB128 .f32)
    (h1 : SB128.BroadcastsInDim (⟨2, ![1, 128]⟩ : Shape) (![1] : Fin 1 → Fin (⟨2, ![1, 128]⟩ : Shape).rank))
    (h2 : (⟨2, ![1, 128]⟩ : Shape).BroadcastsInDim SN128 (![0, 1] : Fin 2 → Fin SN128.rank))
    (hz : (⟨0, ![]⟩ : Shape).BroadcastsInDim SN128 (![] : Fin 0 → Fin SN128.rank)) :
    maximumf (F := Ideal)
        (addf (F := Ideal) (Host.dotGeneral (F := Ideal) Cert.ReferenceIdeal.dot_S50000x256_S256x128_S50000x128_1_0_0_1_n_n none x w)
          (broadcastInDim SN128 ![0, 1] h2 (broadcastInDim (⟨2, ![1, 128]⟩ : Shape) ![1] h1 b)))
        (broadcastInDim SN128 ![] hz (constant (F := Ideal) (⟨0, ![]⟩ : Shape) .f32 0x00000000#32))
      = denseRelu x w b := by
  funext i
  obtain ⟨p, q, rfl⟩ : ∃ p q, i = ix2 p q := ⟨i 0, i 1, eq_ix2 i⟩
  rw [maximumf_apply, addf_apply, RefDense.dot256_apply x w p q, RefDense.bcast_bias_apply b h1 h2 p q,
    RefDense.bcast_zero_apply hz (ix2 p q)]
  rfl

end Cert.Bridge

end
-- ==== Proof.PoolRef.lean ====
/-
  The reference's per-label row sums and the kernel program's, as one function.

  The reference accumulates the rows of `h` into a zero `[128, 128]` array at the row its label names: element
  `(g, d)` of the result is `0` plus the sum, over the update indices `(n, d')` whose result index is `(g, d)`, of
  `h n d'`. For this scatter's dimension numbers (one window axis, the column; the row inserted and named by the one
  component of the start index) update index `(n, d')` lands at row `label n` read as a SIGNED number, column `d'`,
  and is dropped when that row is outside `0 … 127`. So element `(g, d)` sums `h n d` over the rows `n` whose
  label, read signed, is `g`; and for `0 ≤ g < 128` a 32-bit word reads `g` signed exactly when it is the word of `g`.
  The kernel program's side is the sum over ALL rows of `h n d · [label n = word of g]`, transposed. The two agree
  term by term: `x · 1 = x`, `x · 0 = 0`, `0 + x = x` on the extended reals, whatever the values.
-/
import proofs.«406451_j67508295958856_1_alg».proof.Proof.Gen.ReferenceIdeal
import proofs.«406451_j67508295958856_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.Bridge

open Idealize.ShloMosaic Idealize.ShloMosaic.ValueIdx Cert.Bridge

/-! ## The scatter's result index, decoded -/

/-- The scatter's dimension numbers: operand `[128, 128]`, scatter indices `[50000, 1]`, updates `[50000, 128]`;
    the updates' axis 1 is the window axis, the operand's axis 0 is inserted and is the one the start index names,
    the index vector lies along the scatter indices' axis 1. -/
abbrev poolDims : ScatterDims SW128 SN1 SN128 := Cert.ReferenceIdeal.scatter_S128x128_S50000x1_S50000x128_1_0_0_1

/-- The start index has no component for the column axis. -/
theorem pool_start_one (j : SN128.Idx) (idx : IVec SN1 32) : poolDims.start j idx (1 : Fin 2) = 0 := rfl

/-- The row axis is inserted: its window coordinate is zero. -/
theorem pool_window_zero (j : SN128.Idx) : poolDims.window j (0 : Fin 2) = 0 := rfl

/-- The column axis is the window axis: its window coordinate is the update's column. -/
theorem pool_window_one (j : SN128.Idx) : poolDims.window j (1 : Fin 2) = (j 1).val := rfl

/-- The one component of update `j`'s start index is read at `(j 0, 0)` of the scatter indices. -/
theorem pool_siIdx (j : SN128.Idx) : poolDims.siIdx j ⟨0, by decide⟩ = ix2 (j 0) 0 := by
  funext b
  match b with
  | ⟨0, _⟩ => rfl
  | ⟨1, _⟩ => rfl

/-- The start on the row axis is the label of the update's row, read signed. -/
theorem pool_start_zero (j : SN128.Idx) (idx : IVec SN1 32) :
    poolDims.start j idx (0 : Fin 2) = (idx (ix2 (j 0) 0)).toInt :=
  congrArg (fun k => (idx k).toInt) (pool_siIdx j)

/-- Update `(n, d')` lands on element `(g, d)` exactly when row `n`'s label reads `g` signed and `d' = d`. -/
theorem pool_resultIdx_iff (idx : IVec SN1 32) (n : Fin 50000) (d' g d : Fin 128) :
    poolDims.resultIdx? (ix2 n d') idx = some (ix2 g d) ↔ (idx (ix2 n 0)).toInt = (g.val : Int) ∧ d' = d := by
  have h0 : poolDims.start (ix2 n d') idx (0 : Fin 2) = (idx (ix2 n 0)).toInt := pool_start_zero _ idx
  have h1 : poolDims.start (ix2 n d') idx (1 : Fin 2) = 0 := rfl
  have w0 : poolDims.window (ix2 n d') (0 : Fin 2) = 0 := rfl
  have w1 : poolDims.window (ix2 n d') (1 : Fin 2) = d'.val := rfl
  have hg := g.isLt
  have hd := d.isLt
  have hd' := d'.isLt
  constructor
  · intro hr
    unfold ScatterDims.resultIdx? at hr
    split at hr
    · rename_i h
      have hr' := Option.some.inj hr
      have e0 := congrArg Fin.val (congrFun hr' (0 : Fin 2))
      have e1 := congrArg Fin.val (congrFun hr' (1 : Fin 2))
      have b0 := h (0 : Fin 2)
      change (poolDims.start (ix2 n d') idx (0 : Fin 2) + (poolDims.window (ix2 n d') (0 : Fin 2) : Int)).toNat = g.val at e0
      change (poolDims.start (ix2 n d') idx (1 : Fin 2) + (poolDims.window (ix2 n d') (1 : Fin 2) : Int)).toNat = d.val at e1
      rw [h0, w0] at e0 b0
      rw [h1, w1] at e1
      refine ⟨by omega, Fin.ext (by omega)⟩
    · exact absurd hr (by simp)
  · rintro ⟨hS, hdd⟩
    subst hdd
    have h : ∀ a : Fin 2, 0 ≤ poolDims.start (ix2 n d') idx a + (poolDims.window (ix2 n d') a : Int)
        ∧ poolDims.start (ix2 n d') idx a + (poolDims.window (ix2 n d') a : Int) < (SW128.size a : Nat) := by
      intro a
      match a with
      | ⟨0, _⟩ =>
        change 0 ≤ poolDims.start (ix2 n d') idx (0 : Fin 2) + (poolDims.window (ix2 n d') (0 : Fin 2) : Int)
          ∧ poolDims.start (ix2 n d') idx (0 : Fin 2) + (poolDims.window (ix2 n d') (0 : Fin 2) : Int) < (128 : Nat)
        rw [h0, w0, hS]; omega
      | ⟨1, _⟩ =>
        change 0 ≤ poolDims.start (ix2 n d') idx (1 : Fin 2) + (poolDims.window (ix2 n d') (1 : Fin 2) : Int)
          ∧ poolDims.start (ix2 n d') idx (1 : Fin 2) + (poolDims.window (ix2 n d') (1 : Fin 2) : Int) < (128 : Nat)
        rw [h1, w1]; omega
    unfold ScatterDims.resultIdx?
    rw [dif_pos h]
    refine congrArg some (funext fun a => Fin.ext ?_)
    match a with
    | ⟨0, _⟩ =>
      change (poolDims.start (ix2 n d') idx (0 : Fin 2) + (poolDims.window (ix2 n d') (0 : Fin 2) : Int)).toNat = g.val
      rw [h0, w0, hS]; omega
    | ⟨1, _⟩ =>
      change (poolDims.start (ix2 n d') idx (1 : Fin 2) + (poolDims.window (ix2 n d') (1 : Fin 2) : Int)).toNat = d'.val
      rw [h1, w1]; omega

/-! ## A label below 128 as a word -/

/-- For `g < 128` a 32-bit word reads `g` as a signed number exactly when it is the word of `g`. -/
theorem toInt_eq_label_iff (x : BitVec 32) (g : Fin 128) : x.toInt = (g.val : Int) ↔ x = BitVec.ofNat 32 g.val := by
  have hg := g.isLt
  have hw : (BitVec.ofNat 32 g.val).toInt = (g.val : Int) := by
    have hn : (BitVec.ofNat 32 g.val).toNat = g.val := by rw [BitVec.toNat_ofNat]; omega
    rw [BitVec.toInt_eq_toNat_of_lt (by rw [hn]; omega), hn]
  constructor
  · intro h
    exact BitVec.eq_of_toInt_eq (h.trans hw.symm)
  · rintro rfl
    exact hw

/-! ## The two sides, element by element -/

/-- The labels as a `[50000, 1]` array by a change of shape: entry `(n, 0)` is label `n`. -/
theorem labels_shapeCast_apply (b : IVec (⟨1, ![50000]⟩ : Shape) 32) (hc : (⟨1, ![50000]⟩ : Shape).ShapeCasts SN1)
    (n : Fin 50000) : shapeCast SN1 b hc (ix2 n 0) = b (ix1 n) :=
  shapeCast_apply b hc _ _ (by
    rw [Shape.rowMajor_val_one, Shape.rowMajor_val_two]
    show n.val = n.val * 1 + 0
    omega)

/-- The labels as a `[50000, 1]` array by a broadcast along axis 0: entry `(n, 0)` is label `n`. -/
theorem labels_broadcast_apply (b : IVec (⟨1, ![50000]⟩ : Shape) 32)
    (hb : (⟨1, ![50000]⟩ : Shape).BroadcastsInDim SN1 (![0] : Fin 1 → Fin SN1.rank)) (n : Fin 50000) :
    broadcastInDim SN1 ![0] hb b (ix2 n 0) = b (ix1 n) :=
  broadcastInDim_apply _ hb b _ _ (fun a => by
    match a with
    | ⟨0, _⟩ =>
      show n.val = if (50000 : ℕ) = 1 then 0 else n.val
      rw [if_neg (by decide)])

/-- One row's share of element `(g, d)` of the scatter: the sum over the row's columns of the updates landing
    there is `h n d` when the row's label is the word of `g`, and nothing otherwise. -/
theorem pool_row_sum (idx : IVec SN1 32) (h : FVec Ideal SN128 .f32) (n : Fin 50000) (g d : Fin 128)
    [DecidablePred fun j : SN128.Idx => poolDims.resultIdx? j idx = some (ix2 g d)] :
    (∑ d' : Fin 128, if poolDims.resultIdx? (ix2 n d') idx = some (ix2 g d) then h (ix2 n d') else 0)
      = h (ix2 n d) * (if idx (ix2 n 0) = BitVec.ofNat 32 g.val then (1 : EReal) else 0) := by
  by_cases hA : idx (ix2 n 0) = BitVec.ofNat 32 g.val
  · have hS : (idx (ix2 n 0)).toInt = (g.val : Int) := (toInt_eq_label_iff _ g).2 hA
    rw [if_pos hA, mul_one]
    rw [Finset.sum_congr rfl (fun d' _ => if_congr ((pool_resultIdx_iff idx n d' g d).trans (and_iff_right hS)) rfl rfl)]
    exact Finset.sum_ite_eq' Finset.univ d (fun d' => h (ix2 n d')) |>.trans (if_pos (Finset.mem_univ d))
  · have hS : ¬ (idx (ix2 n 0)).toInt = (g.val : Int) := fun hS => hA ((toInt_eq_label_iff _ g).1 hS)
    rw [if_neg hA, mul_zero]
    exact Finset.sum_eq_zero fun d' _ => if_neg fun hr => hS ((pool_resultIdx_iff idx n d' g d).1 hr).1

/-- The per-label row sums the kernel program computes, transposed, are the reference's accumulating scatter of the rows
    of `h` into a zero array at the rows their labels name. -/
theorem pool_eq_scatter (b : IVec (⟨1, ![50000]⟩ : Shape) 32) (h : FVec Ideal SN128 .f32)
    (hc : (⟨1, ![50000]⟩ : Shape).ShapeCasts SN1)
    (ht : SW128.Transposes [1, 0] SW128)
    (hz : (⟨0, ![]⟩ : Shape).BroadcastsInDim SW128 (![] : Fin 0 → Fin SW128.rank))
    (hb : (⟨1, ![50000]⟩ : Shape).BroadcastsInDim SN1 (![0] : Fin 1 → Fin SN1.rank)) :
    transpose SW128 [1, 0] (poolT (shapeCast SN1 b hc) h) ht
      = Host.scatterAdd (F := Ideal) Cert.ReferenceIdeal.scatter_S128x128_S50000x1_S50000x128_1_0_0_1
          (broadcastInDim SW128 ![] hz (constant (F := Ideal) (⟨0, ![]⟩ : Shape) .f32 0x00000000#32))
          (broadcastInDim SN1 ![0] hb b) h := by
  funext i
  obtain ⟨g, d, rfl⟩ : ∃ g d : Fin 128, i = ix2 g d := ⟨i 0, i 1, eq_ix2 i⟩
  -- the kernel program's side: entry (d, g) of the per-label sums
  refine (transpose_ix2_apply _ ht g d).trans ?_
  show (∑ n : Fin 50000, h (ix2 n d) * (if shapeCast SN1 b hc (ix2 n 0) = BitVec.ofNat 32 g.val then (1 : EReal) else 0)) = _
  -- the reference's side: zero plus the updates landing on (g, d)
  show _ = broadcastInDim SW128 ![] hz (constant (F := Ideal) (⟨0, ![]⟩ : Shape) .f32 0x00000000#32) (ix2 g d)
      + ∑ j ∈ Finset.univ.filter (fun j => poolDims.resultIdx? j (broadcastInDim SN1 ![0] hb b) = some (ix2 g d)), h j
  rw [broadcastInDim_scalar_apply, constant_apply, Ideal.ofBits_zero_f32, zero_add, Finset.sum_filter, sum_idx2]
  refine Finset.sum_congr rfl fun n _ => ?_
  rw [pool_row_sum, labels_broadcast_apply, labels_shapeCast_apply]

end Cert.Bridge

end
-- ==== Proof.RefChain.lean ====
/-
  The reference program's result, read off its eleven stretches, is the kernel program's function `kout` of the launch contents of the
  22 argument arrays. A product that opens a graph-convolution layer is the dense layer with the zero bias; the aggregation stretch
  after it is the SAME operations as the kernel program's (`rPre` and `gcnPre` are one function, and so are the two spellings of the maximum with zero); a concatenate-and-perceptron
  stretch is two dense layers, the first with the maximum with zero; the closing stretch's scatter-add of the rows by label is the
  transposed one-hot sum the pooling region computes.
-/
import proofs.«406451_j67508295958856_1_alg».proof.Proof.RBound
import proofs.«406451_j67508295958856_1_alg».proof.Proof.RArgsA
import proofs.«406451_j67508295958856_1_alg».proof.Proof.RChunk1
import proofs.«406451_j67508295958856_1_alg».proof.Proof.RChunk3
import proofs.«406451_j67508295958856_1_alg».proof.Proof.RChunk6
import proofs.«406451_j67508295958856_1_alg».proof.Proof.RChunk8
import proofs.«406451_j67508295958856_1_alg».proof.Proof.RChunkL
import proofs.«406451_j67508295958856_1_alg».proof.Proof.KTerms
import proofs.«406451_j67508295958856_1_alg».proof.Proof.RefDense
import proofs.«406451_j67508295958856_1_alg».proof.Proof.PoolRef

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

open Cert.Bridge
open Cert.KernelIdeal.Gen (gcnPre reluZ tailGlue zb kgcn kcat kmlp klayer kcol ktail kout)

/-! ## The reference's stretch functions are the kernel program's terms -/

theorem rPre_eq (h : (⟨S50000x128, .f32⟩ : BufTy).Contents (Elt Ideal)) (ei : (⟨S2x640000, .i32⟩ : BufTy).Contents (Elt Ideal))
    (b : (⟨S128, .f32⟩ : BufTy).Contents (Elt Ideal)) : rPre (F := Ideal) h ei b = gcnPre (F := Ideal) h ei b := rfl

theorem rRelu_eq (x : (⟨S50000x128, .f32⟩ : BufTy).Contents (Elt Ideal)) : rRelu (F := Ideal) x = reluZ x := rfl

theorem rMlp_eq (p q : (⟨S50000x128, .f32⟩ : BufTy).Contents (Elt Ideal)) (w1 : (⟨S256x128, .f32⟩ : BufTy).Contents (Elt Ideal))
    (b1 : (⟨S128, .f32⟩ : BufTy).Contents (Elt Ideal)) (w2 : (⟨S128x128, .f32⟩ : BufTy).Contents (Elt Ideal))
    (b2 : (⟨S128, .f32⟩ : BufTy).Contents (Elt Ideal)) : rMlp (F := Ideal) p q w1 b1 w2 b2 = kmlp p q w1 b1 w2 b2 := by
  simp only [rMlp]
  rw [dot_bias_relu_eq _ w1 b1 bcast_S128_S1x128_1 bcast_S1x128_S50000x128_0_1 bcast_S_S50000x128,
    dot_bias_eq_dense _ w2 b2 bcast_S128_S1x128_1 bcast_S1x128_S50000x128_0_1]
  rfl

theorem rTail_eq (h : (⟨S50000x128, .f32⟩ : BufTy).Contents (Elt Ideal)) (a3 : (⟨S50000, .i32⟩ : BufTy).Contents (Elt Ideal))
    (a20 : (⟨S128x1, .f32⟩ : BufTy).Contents (Elt Ideal)) (a21 : (⟨S1, .f32⟩ : BufTy).Contents (Elt Ideal)) :
    rTail (F := Ideal) h a3 a20 a21 = ktail (poolT (kcol a3) h) a20 a21 := by
  simp only [rTail]
  rw [← pool_eq_scatter a3 h Cert.KernelIdeal.Gen.shapeCasts_S50000_S50000x1 Cert.KernelIdeal.Gen.transposes_S128x128_S128x128_1_0 bcast_S_S128x128
    bcast_S50000_S50000x1_0]
  rfl

/-! ## The values at the boundaries -/

variable (L : Valuation τ sig (Elt Ideal))

theorem r_v0 : V1 L (Proc.devRef .tc main_v0) = dense (L (Proc.devRef .tc main_arg0)) (L (Proc.devRef .tc main_arg4)) zb := by
  rw [V1_eq, c0_val]; exact dot_eq_dense _ _ Cert.KernelIdeal.Gen.bcast_S_S128

theorem r_v49 : V2 L (Proc.devRef .tc main_v49) = kgcn (L (Proc.devRef .tc main_arg0)) (L (Proc.devRef .tc main_arg1)) (L (Proc.devRef .tc main_arg4)) (L (Proc.devRef .tc main_arg5)) := by
  rw [V2_eq, c1_val, r_v0, V1_arg1, V1_arg5, rPre_eq, rRelu_eq]; rfl

theorem r_v50 : V3 L (Proc.devRef .tc main_v50) = dense (L (Proc.devRef .tc main_arg0)) (L (Proc.devRef .tc main_arg6)) zb := by
  rw [V3_eq, c2_val, V2_arg0, V2_arg6]; exact dot_eq_dense _ _ Cert.KernelIdeal.Gen.bcast_S_S128

theorem r_v99 : V4 L (Proc.devRef .tc main_v99) = kgcn (L (Proc.devRef .tc main_arg0)) (L (Proc.devRef .tc main_arg2)) (L (Proc.devRef .tc main_arg6)) (L (Proc.devRef .tc main_arg7)) := by
  rw [V4_eq, c3_val, r_v50, V3_arg2, V3_arg7, rPre_eq, rRelu_eq]; rfl

/-- Stretches 3 and 4 do not write the first layer's output. -/
theorem keep_v49 : V4 L (Proc.devRef .tc main_v49) = V2 L (Proc.devRef .tc main_v49) := by
  rw [V4_eq, V3_eq]; generalize V2 L = Wp; rkeep

theorem r_v109 : V5 L (Proc.devRef .tc main_v109) = (klayer (L (Proc.devRef .tc main_arg0)) (L (Proc.devRef .tc main_arg1)) (L (Proc.devRef .tc main_arg2)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11))) := by
  rw [V5_eq, c4_val, keep_v49, r_v49, r_v99, V4_arg8, V4_arg9, V4_arg10, V4_arg11, rMlp_eq]; rfl

theorem r_v110 : V6 L (Proc.devRef .tc main_v110) = dense (klayer (L (Proc.devRef .tc main_arg0)) (L (Proc.devRef .tc main_arg1)) (L (Proc.devRef .tc main_arg2)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11))) (L (Proc.devRef .tc main_arg12)) zb := by
  rw [V6_eq, c5_val, r_v109, V5_arg12]; exact dot_eq_dense _ _ Cert.KernelIdeal.Gen.bcast_S_S128

theorem r_v159 : V7 L (Proc.devRef .tc main_v159) = kgcn (klayer (L (Proc.devRef .tc main_arg0)) (L (Proc.devRef .tc main_arg1)) (L (Proc.devRef .tc main_arg2)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11))) (L (Proc.devRef .tc main_arg1)) (L (Proc.devRef .tc main_arg12)) (L (Proc.devRef .tc main_arg13)) := by
  rw [V7_eq, c6_val, r_v110, V6_arg1, V6_arg13, rPre_eq, rRelu_eq]; rfl

/-- Stretches 6 and 7 do not write the first block's output. -/
theorem keep_v109 : V7 L (Proc.devRef .tc main_v109) = V5 L (Proc.devRef .tc main_v109) := by
  rw [V7_eq, V6_eq]; generalize V5 L = Wp; rkeep

theorem r_v160 : V8 L (Proc.devRef .tc main_v160) = dense (klayer (L (Proc.devRef .tc main_arg0)) (L (Proc.devRef .tc main_arg1)) (L (Proc.devRef .tc main_arg2)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11))) (L (Proc.devRef .tc main_arg14)) zb := by
  rw [V8_eq, c7_val, keep_v109, r_v109, V7_arg14]; exact dot_eq_dense _ _ Cert.KernelIdeal.Gen.bcast_S_S128

theorem r_v209 : V9 L (Proc.devRef .tc main_v209) = kgcn (klayer (L (Proc.devRef .tc main_arg0)) (L (Proc.devRef .tc main_arg1)) (L (Proc.devRef .tc main_arg2)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11))) (L (Proc.devRef .tc main_arg2)) (L (Proc.devRef .tc main_arg14)) (L (Proc.devRef .tc main_arg15)) := by
  rw [V9_eq, c8_val, r_v160, V8_arg2, V8_arg15, rPre_eq, rRelu_eq]; rfl

/-- Stretches 8 and 9 do not write the second block's first layer. -/
theorem keep_v159 : V9 L (Proc.devRef .tc main_v159) = V7 L (Proc.devRef .tc main_v159) := by
  rw [V9_eq, V8_eq]; generalize V7 L = Wp; rkeep

theorem r_v219 : V10 L (Proc.devRef .tc main_v219)
    = klayer (klayer (L (Proc.devRef .tc main_arg0)) (L (Proc.devRef .tc main_arg1)) (L (Proc.devRef .tc main_arg2)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11))) (L (Proc.devRef .tc main_arg1)) (L (Proc.devRef .tc main_arg2)) (L (Proc.devRef .tc main_arg12)) (L (Proc.devRef .tc main_arg13)) (L (Proc.devRef .tc main_arg14)) (L (Proc.devRef .tc main_arg15)) (L (Proc.devRef .tc main_arg16)) (L (Proc.devRef .tc main_arg17)) (L (Proc.devRef .tc main_arg18)) (L (Proc.devRef .tc main_arg19)) := by
  rw [V10_eq, c9_val, keep_v159, r_v159, r_v209, V9_arg16, V9_arg17, V9_arg18, V9_arg19, rMlp_eq]; rfl

/-- The reference's result buffer after all 285 operations is the network's function of the launch arguments. -/
theorem ref_val : after ops L (Proc.devRef .tc main_v227) = kout (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15)) (L (Proc.devRef .tc main_arg16)) (L (Proc.devRef .tc main_arg17)) (L (Proc.devRef .tc main_arg18)) (L (Proc.devRef .tc main_arg19)) (L (Proc.devRef .tc main_arg20)) (L (Proc.devRef .tc main_arg21)) := by
  rw [after_ops, V11_eq, c10_val, r_v219, V10_arg3, V10_arg20, V10_arg21, rTail_eq]; rfl

end Cert.ReferenceIdeal.HandRun

end
-- ==== Proof.RArgsB.lean ====
/-
  The reference's argument arrays at its stretch boundaries: no operation writes an argument, so at every boundary it holds the launch
  contents. One lemma per case the run's reading needs.
-/
import proofs.«406451_j67508295958856_1_alg».proof.Proof.RBound

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]
variable (L : Valuation τ sig (Elt F))

set_option maxHeartbeats 4000000 in
/-- None of the reference's operations up to boundary 11 writes argument 0. -/
theorem V11_arg0 : V11 L (Proc.devRef .tc main_arg0) = L (Proc.devRef .tc main_arg0) := by rkeep

set_option maxHeartbeats 4000000 in
/-- None of the reference's operations up to boundary 11 writes argument 1. -/
theorem V11_arg1 : V11 L (Proc.devRef .tc main_arg1) = L (Proc.devRef .tc main_arg1) := by rkeep

set_option maxHeartbeats 4000000 in
/-- None of the reference's operations up to boundary 11 writes argument 2. -/
theorem V11_arg2 : V11 L (Proc.devRef .tc main_arg2) = L (Proc.devRef .tc main_arg2) := by rkeep

set_option maxHeartbeats 4000000 in
/-- None of the reference's operations up to boundary 11 writes argument 3. -/
theorem V11_arg3 : V11 L (Proc.devRef .tc main_arg3) = L (Proc.devRef .tc main_arg3) := by rkeep

set_option maxHeartbeats 4000000 in
/-- None of the reference's operations up to boundary 11 writes argument 4. -/
theorem V11_arg4 : V11 L (Proc.devRef .tc main_arg4) = L (Proc.devRef .tc main_arg4) := by rkeep

set_option maxHeartbeats 4000000 in
/-- None of the reference's operations up to boundary 11 writes argument 5. -/
theorem V11_arg5 : V11 L (Proc.devRef .tc main_arg5) = L (Proc.devRef .tc main_arg5) := by rkeep

set_option maxHeartbeats 4000000 in
/-- None of the reference's operations up to boundary 11 writes argument 6. -/
theorem V11_arg6 : V11 L (Proc.devRef .tc main_arg6) = L (Proc.devRef .tc main_arg6) := by rkeep

set_option maxHeartbeats 4000000 in
/-- None of the reference's operations up to boundary 11 writes argument 7. -/
theorem V11_arg7 : V11 L (Proc.devRef .tc main_arg7) = L (Proc.devRef .tc main_arg7) := by rkeep

set_option maxHeartbeats 4000000 in
/-- None of the reference's operations up to boundary 11 writes argument 8. -/
theorem V11_arg8 : V11 L (Proc.devRef .tc main_arg8) = L (Proc.devRef .tc main_arg8) := by rkeep

set_option maxHeartbeats 4000000 in
/-- None of the reference's operations up to boundary 11 writes argument 9. -/
theorem V11_arg9 : V11 L (Proc.devRef .tc main_arg9) = L (Proc.devRef .tc main_arg9) := by rkeep

set_option maxHeartbeats 4000000 in
/-- None of the reference's operations up to boundary 11 writes argument 10. -/
theorem V11_arg10 : V11 L (Proc.devRef .tc main_arg10) = L (Proc.devRef .tc main_arg10) := by rkeep

end Cert.ReferenceIdeal.HandRun

end
-- ==== Proof.RArgsC.lean ====
/-
  The reference's argument arrays at its stretch boundaries: no operation writes an argument, so at every boundary it holds the launch
  contents. One lemma per case the run's reading needs.
-/
import proofs.«406451_j67508295958856_1_alg».proof.Proof.RBound

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]
variable (L : Valuation τ sig (Elt F))

set_option maxHeartbeats 4000000 in
/-- None of the reference's operations up to boundary 11 writes argument 11. -/
theorem V11_arg11 : V11 L (Proc.devRef .tc main_arg11) = L (Proc.devRef .tc main_arg11) := by rkeep

set_option maxHeartbeats 4000000 in
/-- None of the reference's operations up to boundary 11 writes argument 12. -/
theorem V11_arg12 : V11 L (Proc.devRef .tc main_arg12) = L (Proc.devRef .tc main_arg12) := by rkeep

set_option maxHeartbeats 4000000 in
/-- None of the reference's operations up to boundary 11 writes argument 13. -/
theorem V11_arg13 : V11 L (Proc.devRef .tc main_arg13) = L (Proc.devRef .tc main_arg13) := by rkeep

set_option maxHeartbeats 4000000 in
/-- None of the reference's operations up to boundary 11 writes argument 14. -/
theorem V11_arg14 : V11 L (Proc.devRef .tc main_arg14) = L (Proc.devRef .tc main_arg14) := by rkeep

set_option maxHeartbeats 4000000 in
/-- None of the reference's operations up to boundary 11 writes argument 15. -/
theorem V11_arg15 : V11 L (Proc.devRef .tc main_arg15) = L (Proc.devRef .tc main_arg15) := by rkeep

set_option maxHeartbeats 4000000 in
/-- None of the reference's operations up to boundary 11 writes argument 16. -/
theorem V11_arg16 : V11 L (Proc.devRef .tc main_arg16) = L (Proc.devRef .tc main_arg16) := by rkeep

set_option maxHeartbeats 4000000 in
/-- None of the reference's operations up to boundary 11 writes argument 17. -/
theorem V11_arg17 : V11 L (Proc.devRef .tc main_arg17) = L (Proc.devRef .tc main_arg17) := by rkeep

set_option maxHeartbeats 4000000 in
/-- None of the reference's operations up to boundary 11 writes argument 18. -/
theorem V11_arg18 : V11 L (Proc.devRef .tc main_arg18) = L (Proc.devRef .tc main_arg18) := by rkeep

set_option maxHeartbeats 4000000 in
/-- None of the reference's operations up to boundary 11 writes argument 19. -/
theorem V11_arg19 : V11 L (Proc.devRef .tc main_arg19) = L (Proc.devRef .tc main_arg19) := by rkeep

set_option maxHeartbeats 4000000 in
/-- None of the reference's operations up to boundary 11 writes argument 20. -/
theorem V11_arg20 : V11 L (Proc.devRef .tc main_arg20) = L (Proc.devRef .tc main_arg20) := by rkeep

set_option maxHeartbeats 4000000 in
/-- None of the reference's operations up to boundary 11 writes argument 21. -/
theorem V11_arg21 : V11 L (Proc.devRef .tc main_arg21) = L (Proc.devRef .tc main_arg21) := by rkeep

end Cert.ReferenceIdeal.HandRun

end
-- ==== Proof.RefRunZ.lean ====
/-
  The reference program's run with its result named: every weakly fair execution terminates with the result buffer at the network's
  function `kout` of the launch contents of the 22 argument arrays, and the argument arrays as launched (no operation writes one).
-/
import proofs.«406451_j67508295958856_1_alg».proof.Proof.RefChain
import proofs.«406451_j67508295958856_1_alg».proof.Proof.RArgsB
import proofs.«406451_j67508295958856_1_alg».proof.Proof.RArgsC

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

open Cert.KernelIdeal.Gen (kout)

theorem run_kout (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v227)
        = kout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun r h c =>
    ⟨(h c main_v227).trans (ref_val (launchContents m c)),
     (h c main_arg0).trans ((congrFun (after_ops (launchContents m c)) _).trans (V11_arg0 (launchContents m c))),
     (h c main_arg1).trans ((congrFun (after_ops (launchContents m c)) _).trans (V11_arg1 (launchContents m c))),
     (h c main_arg2).trans ((congrFun (after_ops (launchContents m c)) _).trans (V11_arg2 (launchContents m c))),
     (h c main_arg3).trans ((congrFun (after_ops (launchContents m c)) _).trans (V11_arg3 (launchContents m c))),
     (h c main_arg4).trans ((congrFun (after_ops (launchContents m c)) _).trans (V11_arg4 (launchContents m c))),
     (h c main_arg5).trans ((congrFun (after_ops (launchContents m c)) _).trans (V11_arg5 (launchContents m c))),
     (h c main_arg6).trans ((congrFun (after_ops (launchContents m c)) _).trans (V11_arg6 (launchContents m c))),
     (h c main_arg7).trans ((congrFun (after_ops (launchContents m c)) _).trans (V11_arg7 (launchContents m c))),
     (h c main_arg8).trans ((congrFun (after_ops (launchContents m c)) _).trans (V11_arg8 (launchContents m c))),
     (h c main_arg9).trans ((congrFun (after_ops (launchContents m c)) _).trans (V11_arg9 (launchContents m c))),
     (h c main_arg10).trans ((congrFun (after_ops (launchContents m c)) _).trans (V11_arg10 (launchContents m c))),
     (h c main_arg11).trans ((congrFun (after_ops (launchContents m c)) _).trans (V11_arg11 (launchContents m c))),
     (h c main_arg12).trans ((congrFun (after_ops (launchContents m c)) _).trans (V11_arg12 (launchContents m c))),
     (h c main_arg13).trans ((congrFun (after_ops (launchContents m c)) _).trans (V11_arg13 (launchContents m c))),
     (h c main_arg14).trans ((congrFun (after_ops (launchContents m c)) _).trans (V11_arg14 (launchContents m c))),
     (h c main_arg15).trans ((congrFun (after_ops (launchContents m c)) _).trans (V11_arg15 (launchContents m c))),
     (h c main_arg16).trans ((congrFun (after_ops (launchContents m c)) _).trans (V11_arg16 (launchContents m c))),
     (h c main_arg17).trans ((congrFun (after_ops (launchContents m c)) _).trans (V11_arg17 (launchContents m c))),
     (h c main_arg18).trans ((congrFun (after_ops (launchContents m c)) _).trans (V11_arg18 (launchContents m c))),
     (h c main_arg19).trans ((congrFun (after_ops (launchContents m c)) _).trans (V11_arg19 (launchContents m c))),
     (h c main_arg20).trans ((congrFun (after_ops (launchContents m c)) _).trans (V11_arg20 (launchContents m c))),
     (h c main_arg21).trans ((congrFun (after_ops (launchContents m c)) _).trans (V11_arg21 (launchContents m c)))⟩)
    (run_folded m ρ)

end Cert.ReferenceIdeal.HandRun

end
-- ==== Proof.lean ====
/-
  A two-block graph network — per block two graph-convolution layers (over a local and a global edge list) joined along the columns
  and a two-layer perceptron —, then the per-label sums of the rows and a [128]-to-[1] linear map. The kernel program runs the eight
  dense layers and the pooling as nine pipelined regions of ten grid points (5000 rows each) and leaves the edge aggregation to host
  operations; the reference is the same network in plain array operations.

  At the ideal instance (floats are extended reals, every operation exact, a change of float format the identity) the two compute
  the same function of the 22 argument arrays. A dense region's ten row blocks tile its output, and each block is the matrix
  product of its rows with the whole weight, plus the bias (the maximum with zero where the layer has one): the reference's
  `dot_general`, broadcast and add. The edge aggregation between two dense layers is the SAME sequence of host operations in both
  programs. The pooling region accumulates, block by block, the product of the rows (contracted over the row axis) with the one-hot
  matrix of the labels: entry (d, g) ends as the sum over all rows n of h n d · [label n = g], which is the reference's scatter-add of
  the rows into a zero array at the row's label (a label outside 0 … 127 matches no column of the one-hot matrix and is dropped by
  the scatter alike; x · 0 = 0 and x · 1 = x hold for every extended real, so no finiteness is used). The closing transpose, product,
  bias and reshape are again the same operations.

  The kernel programs' frames are the generated ones; the reference's is its run (read stretch by stretch) with the result dropped. The idealization rewrote no
  operation, so `preserves` is trivial.
-/
import proofs.«406451_j67508295958856_1_alg».proof.Defs
import proofs.«406451_j67508295958856_1_alg».proof.Proof.Gen.Kernel
import proofs.«406451_j67508295958856_1_alg».proof.Proof.Gen.Kernel.Frame
import proofs.«406451_j67508295958856_1_alg».proof.Proof.Gen.KernelIdeal
import proofs.«406451_j67508295958856_1_alg».proof.Proof.Gen.KernelIdeal.Frame
import proofs.«406451_j67508295958856_1_alg».proof.Proof.Gen.ReferenceIdeal
import proofs.«406451_j67508295958856_1_alg».proof.Proof.Gen.Pre_finite_inputs
import proofs.«406451_j67508295958856_1_alg».proof.Proof.KRun
import proofs.«406451_j67508295958856_1_alg».proof.Proof.KChain3
import proofs.«406451_j67508295958856_1_alg».proof.Proof.DenseA
import proofs.«406451_j67508295958856_1_alg».proof.Proof.DenseB
import proofs.«406451_j67508295958856_1_alg».proof.Proof.DenseC
import proofs.«406451_j67508295958856_1_alg».proof.Proof.PoolR8
import proofs.«406451_j67508295958856_1_alg».proof.Proof.RefRunZ
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.HandRun.run_kout m ρ)

theorem preserves : Cert.preserves_Kernel_KernelIdeal := trivial

/-- Both programs end with the network's function of the (agreeing) argument arrays in their result buffer. -/
theorem algebraic : Cert.algebraic_KernelIdeal_ReferenceIdeal := by
  intro m ρ m' ρ' _ hagree
  refine ⟨fun c => Cert.KernelIdeal.Gen.kout
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21)), ?_, ?_⟩
  · exact (θ_run Cert.KernelIdeal.defs _ _).mono
      (fun r h c => ⟨(h c).1.trans (Cert.KernelIdeal.Gen.W25_kout m ρ c
          Cert.KernelIdeal.RegVal.region0 Cert.KernelIdeal.RegVal.region1 Cert.KernelIdeal.RegVal.region2
          Cert.KernelIdeal.RegVal.region3 Cert.KernelIdeal.RegVal.region4 Cert.KernelIdeal.RegVal.region5
          Cert.KernelIdeal.RegVal.region6 Cert.KernelIdeal.RegVal.region7 Cert.KernelIdeal.RegVal.region8), (h c).2⟩)
      (Cert.KernelIdeal.Gen.run_val (F := Ideal) m ρ)
  · refine (θ_run Cert.ReferenceIdeal.defs _ _).mono (fun r h c => ⟨(h c).1.trans ?_, (h c).2⟩)
      (Cert.ReferenceIdeal.HandRun.run_kout m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
